-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x4 : Shape := ⟨2, ![80000, 4]⟩
abbrev S2x1280000 : Shape := ⟨2, ![2, 1280000]⟩
abbrev S80000 : Shape := ⟨1, ![80000]⟩
abbrev S4 : Shape := ⟨1, ![4]⟩
abbrev S4x64 : Shape := ⟨2, ![4, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S80000x4 : S_.BroadcastsInDim S80000x4 (![] : Fin 0 → Fin S80000x4.rank)
  reducesTo_S80000x4_S_d0_1 : S80000x4.ReducesTo [0, 1] S_
  h_S_ : 0 < S_.numel
  bcast_S_S4 : S_.BroadcastsInDim S4 (![] : Fin 0 → Fin S4.rank)
  reducesTo_S4_S_d0 : S4.ReducesTo [0] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64x2 .f32 := Host.absf main_arg16
  let main_cst_26 : FVec F S_ .f32 := constant S_ .f32 0x7F800000#32
  let main_v70 : FVec F S64x2 .f32 := broadcastInDim S64x2 ![] bcast_S_S64x2 main_cst_26
  let main_v71 : IVec S64x2 1 := cmpf .olt main_v69 main_v70
  let main_c_27 : IVec S_ 1 := constantI S_ 1 1#1
  let main_v72 : IVec S_ 1 := (fun x v => Host.reduce IntOp.andi x v reducesTo_S64x2_S_d0_1 h_S_) main_v71 main_c_27
  let main_v73 : IVec S_ 1 := andi main_v68 main_v72
  let main_v74 : FVec F S2 .f32 := Host.absf main_arg17
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg13 : FVec F S64x64 .f32) (main_arg14 : FVec F S64 .f32) (main_arg15 : FVec F S64x64 .f32) (main_arg16 : FVec F S64x2 .f32) (main_arg17 : FVec F S2 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_v63 main_v67

def fn_part2 {F : FTy → Type} [FloatOps F] (main_arg9 : FVec F S4x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x2 .f32) (main_arg17 : FVec F S2 .f32) (main_v33 : IVec S_ 1) : IVec S_ 1 :=
  let main_v34 : FVec F S4x64 .f32 := Host.absf main_arg9
  let main_cst_12 : FVec F S_ .f32 := constant S_ .f32 0x7F800000#32
  let main_v35 : FVec F S4x64 .f32 := broadcastInDim S4x64 ![] bcast_S_S4x64 main_cst_12
  let main_v36 : IVec S4x64 1 := cmpf .olt main_v34 main_v35
  let main_c_13 : IVec S_ 1 := constantI S_ 1 1#1
  let main_v37 : IVec S_ 1 := (fun x v => Host.reduce IntOp.andi x v reducesTo_S4x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_v48 main_v49 main_v50

def fn_part1 {F : FTy → Type} [FloatOps F] (main_arg6 : FVec F S4 .f32) (main_arg7 : FVec F S4x64 .f32) (main_arg8 : FVec F S64 .f32) (main_arg9 : FVec F S4x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x2 .f32) (main_arg17 : FVec F S2 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S4 .f32 := Host.absf main_arg6
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S80000x4 .f32) (main_arg1 : IVec S2x1280000 32) (main_arg2 : IVec S80000 32) (main_arg3 : FVec F S4 .f32) (main_arg4 : FVec F S4 .f32) (main_arg5 : FVec F S4 .f32) (main_arg6 : FVec F S4 .f32) (main_arg7 : FVec F S4x64 .f32) (main_arg8 : FVec F S64 .f32) (main_arg9 : FVec F S4x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x2 .f32) (main_arg17 : FVec F S2 .f32) : IVec S_ 1 :=
  let main_v0 : FVec F S80000x4 .f32 := Host.absf main_arg0
  let main_cst : FVec F S_ .f32 := constant S_ .f32 0x7F800000#32
  let main_v1 : FVec F S80000x4 .f32 := broadcastInDim S80000x4 ![] bcast_S_S80000x4 main_cst
  let main_v2 : IVec S80000x4 1 := cmpf .olt main_v0 main_v1
  let main_c : IVec S_ 1 := constantI S_ 1 1#1
  let main_v3 : IVec S_ 1 := (fun x v => Host.reduce IntOp.andi x v reducesTo_S80000x4_S_d0_1 h_S_) main_v2 main_c
  let main_v4 : FVec F S4 .f32 := Host.absf main_arg3
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4 .f32 := Host.absf main_arg4
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4 .f32 := Host.absf main_arg5
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S80000x4 : Shape := ⟨2, ![80000, 4]⟩
abbrev S2x1280000 : Shape := ⟨2, ![2, 1280000]⟩
abbrev S80000 : Shape := ⟨1, ![80000]⟩
abbrev S4 : Shape := ⟨1, ![4]⟩
abbrev S4x64 : Shape := ⟨2, ![4, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1280000 : Shape := ⟨2, ![1, 1280000]⟩
abbrev S1280000 : Shape := ⟨1, ![1280000]⟩
abbrev S1x4 : Shape := ⟨2, ![1, 4]⟩
abbrev S_ : Shape := ⟨0, ![]⟩
abbrev S1280000x1 : Shape := ⟨2, ![1280000, 1]⟩
abbrev S1280000x4 : Shape := ⟨2, ![1280000, 4]⟩
abbrev S1x64 : Shape := ⟨2, ![1, 64]⟩
abbrev S80000x64 : Shape := ⟨2, ![80000, 64]⟩
abbrev S8000x4 : Shape := ⟨2, ![8000, 4]⟩
abbrev S8000x64 : Shape := ⟨2, ![8000, 64]⟩
abbrev S1280000x64 : Shape := ⟨2, ![1280000, 64]⟩
abbrev S1x2 : Shape := ⟨2, ![1, 2]⟩
abbrev S20x1x4000 : Shape := ⟨3, ![20, 1, 4000]⟩
abbrev S4000x64 : Shape := ⟨2, ![4000, 64]⟩
abbrev S1x1x4000 : Shape := ⟨3, ![1, 1, 4000]⟩
abbrev S64x1 : Shape := ⟨2, ![64, 1]⟩
abbrev S1x4000 : Shape := ⟨2, ![1, 4000]⟩
abbrev S64x4000 : Shape := ⟨2, ![64, 4000]⟩

abbrev nBuf : Space → Nat
  | .hbm => 89
  | .vmem => 32
  | .smem => 0
  | _ => 0

abbrev bufTy : (tb : Table) → Fin (tcTables nBuf tb) → BufTy
  | .hbm, ⟨0, _⟩ => ⟨S80000x4, .f32⟩
  | .hbm, ⟨1, _⟩ => ⟨S2x1280000, .i32⟩
  | .hbm, ⟨2, _⟩ => ⟨S80000, .i32⟩
  | .hbm, ⟨3, _⟩ => ⟨S4, .f32⟩
  | .hbm, ⟨4, _⟩ => ⟨S4, .f32⟩
  | .hbm, ⟨5, _⟩ => ⟨S4, .f32⟩
  | .hbm, ⟨6, _⟩ => ⟨S4, .f32⟩
  | .hbm, ⟨7, _⟩ => ⟨S4x64, .f32⟩
  | .hbm, ⟨8, _⟩ => ⟨S64, .f32⟩
  | .hbm, ⟨9, _⟩ => ⟨S4x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64x2, .f32⟩
  | .hbm, ⟨17, _⟩ => ⟨S2, .f32⟩
  | .hbm, ⟨18, _⟩ => ⟨S1x1280000, .i32⟩
  | .hbm, ⟨19, _⟩ => ⟨S1280000, .i32⟩
  | .hbm, ⟨20, _⟩ => ⟨S1x1280000, .i32⟩
  | .hbm, ⟨21, _⟩ => ⟨S1280000, .i32⟩
  | .hbm, ⟨22, _⟩ => ⟨S1x4, .f32⟩
  | .hbm, ⟨23, _⟩ => ⟨S80000x4, .f32⟩
  | .hbm, ⟨24, _⟩ => ⟨S80000x4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S1x4, .f32⟩
  | .hbm, ⟨31, _⟩ => ⟨S80000x4, .f32⟩
  | .hbm, ⟨32, _⟩ => ⟨S80000x4, .f32⟩
  | .hbm, ⟨33, _⟩ => ⟨S1x4, .f32⟩
  | .hbm, ⟨34, _⟩ => ⟨S80000x4, .f32⟩
  | .hbm, ⟨35, _⟩ => ⟨S80000x4, .f32⟩
  | .hbm, ⟨36, _⟩ => ⟨S80000x4, .bf16⟩
  | .hbm, ⟨37, _⟩ => ⟨S_, .i32⟩
  | .hbm, ⟨38, _⟩ => ⟨S1280000, .i32⟩
  | .hbm, ⟨39, _⟩ => ⟨S1280000, .i1⟩
  | .hbm, ⟨40, _⟩ => ⟨S_, .i32⟩
  | .hbm, ⟨41, _⟩ => ⟨S1280000, .i32⟩
  | .hbm, ⟨42, _⟩ => ⟨S1280000, .i32⟩
  | .hbm, ⟨43, _⟩ => ⟨S1280000, .i32⟩
  | .hbm, ⟨44, _⟩ => ⟨S1280000x1, .i32⟩
  | .hbm, ⟨45, _⟩ => ⟨S1280000x4, .bf16⟩
  | .hbm, ⟨46, _⟩ => ⟨S1280000x4, .f32⟩
  | .hbm, ⟨47, _⟩ => ⟨S_, .f32⟩
  | .hbm, ⟨48, _⟩ => ⟨S80000x4, .f32⟩
  | .hbm, ⟨49, _⟩ => ⟨S1280000x1, .i32⟩
  | .hbm, ⟨50, _⟩ => ⟨S80000x4, .f32⟩
  | .hbm, ⟨51, _⟩ => ⟨S1x64, .f32⟩
  | .hbm, ⟨52, _⟩ => ⟨S80000x64, .f32⟩
  | .hbm, ⟨53, _⟩ => ⟨S80000x64, .bf16⟩
  | .hbm, ⟨54, _⟩ => ⟨S_, .i32⟩
  | .hbm, ⟨55, _⟩ => ⟨S1280000, .i32⟩
  | .hbm, ⟨56, _⟩ => ⟨S1280000, .i1⟩
  | .hbm, ⟨57, _⟩ => ⟨S_, .i32⟩
  | .hbm, ⟨58, _⟩ => ⟨S1280000, .i32⟩
  | .hbm, ⟨59, _⟩ => ⟨S1280000, .i32⟩
  | .hbm, ⟨60, _⟩ => ⟨S1280000, .i32⟩
  | .hbm, ⟨61, _⟩ => ⟨S1280000x1, .i32⟩
  | .hbm, ⟨62, _⟩ => ⟨S1280000x64, .bf16⟩
  | .hbm, ⟨63, _⟩ => ⟨S1280000x64, .f32⟩
  | .hbm, ⟨64, _⟩ => ⟨S_, .f32⟩
  | .hbm, ⟨65, _⟩ => ⟨S80000x64, .f32⟩
  | .hbm, ⟨66, _⟩ => ⟨S1280000x1, .i32⟩
  | .hbm, ⟨67, _⟩ => ⟨S80000x64, .f32⟩
  | .hbm, ⟨68, _⟩ => ⟨S1x64, .f32⟩
  | .hbm, ⟨69, _⟩ => ⟨S80000x64, .f32⟩
  | .hbm, ⟨70, _⟩ => ⟨S80000x64, .bf16⟩
  | .hbm, ⟨71, _⟩ => ⟨S_, .i32⟩
  | .hbm, ⟨72, _⟩ => ⟨S1280000, .i32⟩
  | .hbm, ⟨73, _⟩ => ⟨S1280000, .i1⟩
  | .hbm, ⟨74, _⟩ => ⟨S_, .i32⟩
  | .hbm, ⟨75, _⟩ => ⟨S1280000, .i32⟩
  | .hbm, ⟨76, _⟩ => ⟨S1280000, .i32⟩
  | .hbm, ⟨77, _⟩ => ⟨S1280000, .i32⟩
  | .hbm, ⟨78, _⟩ => ⟨S1280000x1, .i32⟩
  | .hbm, ⟨79, _⟩ => ⟨S1280000x64, .bf16⟩
  | .hbm, ⟨80, _⟩ => ⟨S1280000x64, .f32⟩
  | .hbm, ⟨81, _⟩ => ⟨S_, .f32⟩
  | .hbm, ⟨82, _⟩ => ⟨S80000x64, .f32⟩
  | .hbm, ⟨83, _⟩ => ⟨S1280000x1, .i32⟩
  | .hbm, ⟨84, _⟩ => ⟨S80000x64, .f32⟩
  | .hbm, ⟨85, _⟩ => ⟨S1x64, .f32⟩
  | .hbm, ⟨86, _⟩ => ⟨S1x2, .f32⟩
  | .hbm, ⟨87, _⟩ => ⟨S20x1x4000, .i32⟩
  | .hbm, ⟨88, _⟩ => ⟨S64x2, .f32⟩
  | .local _ .vmem, ⟨0, _⟩ => ⟨S8000x4, .f32⟩
  | .local _ .vmem, ⟨1, _⟩ => ⟨S8000x4, .f32⟩
  | .local _ .vmem, ⟨2, _⟩ => ⟨S8000x4, .f32⟩
  | .local _ .vmem, ⟨3, _⟩ => ⟨S8000x4, .f32⟩
  | .local _ .vmem, ⟨4, _⟩ => ⟨S4x64, .f32⟩
  | .local _ .vmem, ⟨5, _⟩ => ⟨S1x64, .f32⟩
  | .local _ .vmem, ⟨6, _⟩ => ⟨S4x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S8000x64, .f32⟩
  | .local _ .vmem, ⟨17, _⟩ => ⟨S8000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S1x1x4000, .i32⟩
  | .local _ .vmem, ⟨23, _⟩ => ⟨S1x1x4000, .i32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S64x2, .f32⟩
  | .local _ .vmem, ⟨28, _⟩ => ⟨S1x2, .f32⟩
  | .local _ .vmem, ⟨29, _⟩ => ⟨S64x2, .f32⟩
  | .local _ .vmem, ⟨30, _⟩ => ⟨S64x64, .f32⟩
  | .local _ .vmem, ⟨31, _⟩ => ⟨S64x1, .f32⟩
  | _, _ => ⟨S80000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_2 : Ref sig .tc := ⟨.hbm, 54, rfl⟩
abbrev main_v32 : Ref sig .tc := ⟨.hbm, 55, rfl⟩
abbrev main_v33 : Ref sig .tc := ⟨.hbm, 56, rfl⟩
abbrev main_c_3 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_5 : Ref sig .tc := ⟨.hbm, 71, rfl⟩
abbrev main_v46 : Ref sig .tc := ⟨.hbm, 72, rfl⟩
abbrev main_v47 : Ref sig .tc := ⟨.hbm, 73, rfl⟩
abbrev main_c_6 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_scratch0 : Ref sig .tc := ⟨.vmem, 30, rfl⟩
abbrev cc2_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v42 : BitVec 1 := Scalar.cmpi .eq arg0 c19_i32
  let v43 : BitVec 32 := Scalar.extui v42
  let c0_i32_24 : BitVec 32 := 0#32
  let v44 : BitVec 1 := Scalar.cmpi .ne v43 c0_i32_24
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x4000 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x2 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S4_S1x4_1 : S4.BroadcastsInDim S1x4 (![1] : Fin 1 → Fin S1x4.rank)
  bcast_S1x4_S80000x4_0_1 : S1x4.BroadcastsInDim S80000x4 (![0, 1] : Fin 2 → Fin S80000x4.rank)
  bcast_S_S4 : S_.BroadcastsInDim S4 (![] : Fin 0 → Fin S4.rank)
  bitsLt_bf16_f32 : FTy.bits .bf16 < FTy.bits .f32
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S80000x4 : S_.BroadcastsInDim S80000x4 (![] : Fin 0 → Fin S80000x4.rank)
  shapeCasts_S64_S1x64 : S64.ShapeCasts S1x64
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  inb_S4x64_S4x64_0_0 : ∀ a, (![0, 0] : Fin 2 → Nat) a + S4x64.size a ≤ S4x64.size a
  h_S4x64 : 0 < S4x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  bcast_S_S80000x64 : S_.BroadcastsInDim S80000x64 (![] : Fin 0 → Fin S80000x64.rank)
  shapeCasts_S8000x64_S8000x64 : S8000x64.ShapeCasts S8000x64
  inb_S64x64_S64x64_0_0 : ∀ a, (![0, 0] : Fin 2 → Nat) a + S64x64.size a ≤ S64x64.size a
  h_S64x64 : 0 < S64x64.numel
  shapeCasts_S2_S1x2 : S2.ShapeCasts S1x2
  shapeCasts_S80000_S20x1x4000 : S80000.ShapeCasts S20x1x4000
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x64_S4000x64 : S1x64.Broadcasts S4000x64
  inb_S1x1x4000_S1x1x4000_0_0_0 : ∀ a, (![0, 0, 0] : Fin 3 → Nat) a + S1x1x4000.size a ≤ S1x1x4000.size a
  h_S1x1x4000 : 0 < S1x1x4000.numel
  shapeCasts_S1x1x4000_S1x4000 : S1x1x4000.ShapeCasts S1x4000
  iota_S64x4000_d0_w32 : S64x4000.Iotas .tc 32 [0]
  broadcasts_S1x4000_S64x4000 : S1x4000.Broadcasts S64x4000
  natLt_1_32 : 1 < 32
  reduces_S64x4000_S64 : S64x4000.Reduces [1] S64
  shapeCasts_S64_S64x1 : S64.ShapeCasts S64x1
  broadcasts_S64x1_S64x64 : S64x1.Broadcasts S64x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  gather_S80000x4_S1280000x1_S1280000x4_1_0_n_n_0_1_14_wf : GatherDims.WF S80000x4 S1280000x1 S1280000x4 [1] [0] [] [0] [] 1 ![1, 4]
  scatter_S80000x4_S1280000x1_S1280000x4_1_0_0_1_wf : ScatterDims.WF S80000x4 S1280000x1 S1280000x4 [1] [0] [0] 1
  dot_S8000x4_S4x64_S8000x64_1_0_0_1_n_n_wf : DotDims.WF S8000x4 S4x64 S8000x64 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S8000x64_S64x64_S8000x64_1_0_0_1_n_n_wf : DotDims.WF S8000x64 S64x64 S8000x64 [1] [0] [0] [1] [] []
  dot_S4000x64_S64x64_S4000x64_1_0_0_1_n_n_wf : DotDims.WF S4000x64 S64x64 S4000x64 [1] [0] [0] [1] [] []
  dot_S64x4000_S4000x64_S64x64_1_0_0_1_n_n_wf : DotDims.WF S64x4000 S4000x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S80000x4.size a
  hwx0_0 : ∀ i : grid0.Coords, EltTy.bits .f32 = 32 ∨ (Rect.block (s := S80000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x4.size a ≤ S80000x4.size a
  hwx0_1 : ∀ i : grid0.Coords, EltTy.bits .f32 = 32 ∨ (Rect.block (s := S80000x4) S8000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64.size a ≤ S4x64.size a
  hwx0_4 : ∀ i : grid0.Coords, EltTy.bits .f32 = 32 ∨ (Rect.block (s := S4x64) S4x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S80000x64.size a
  hwx0_5 : ∀ i : grid0.Coords, EltTy.bits .f32 = 32 ∨ (Rect.block (s := S80000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S80000x64.size a
  hwx1_0 : ∀ i : grid1.Coords, EltTy.bits .f32 = 32 ∨ (Rect.block (s := S80000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S80000x64.size a
  hwx1_1 : ∀ i : grid1.Coords, EltTy.bits .f32 = 32 ∨ (Rect.block (s := S80000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S80000x64.size a
  hwx1_5 : ∀ i : grid1.Coords, EltTy.bits .f32 = 32 ∨ (Rect.block (s := S80000x64) S8000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S80000x64.size a
  hwx2_0 : ∀ i : grid2.Coords, EltTy.bits .f32 = 32 ∨ (Rect.block (s := S80000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S80000x64.size a
  hwx2_1 : ∀ i : grid2.Coords, EltTy.bits .f32 = 32 ∨ (Rect.block (s := S80000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x4000.size a ≤ S20x1x4000.size a
  hwx2_2 : ∀ i : grid2.Coords, EltTy.bits .i32 = 32 ∨ (Rect.block (s := S20x1x4000) S1x1x4000.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x2.size a ≤ S64x2.size a
  hwx2_6 : ∀ i : grid2.Coords, EltTy.bits .f32 = 32 ∨ (Rect.block (s := S64x2) S64x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x2.size a ≤ S1x2.size a
  hwx2_7 : ∀ i : grid2.Coords, EltTy.bits .f32 = 32 ∨ (Rect.block (s := S1x2) S1x2.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x2.size a ≤ S64x2.size a
  hwx2_8 : ∀ i : grid2.Coords, EltTy.bits .f32 = 32 ∨ (Rect.block (s := S64x2) S64x2.size (cc2_transform_8 i) (hinb2_8 i)).WholeWords (EltTy.packing .f32)

variable [Facts₀]

def gather_S80000x4_S1280000x1_S1280000x4_1_0_n_n_0_1_14 : GatherDims S80000x4 S1280000x1 S1280000x4 where
  offsetDims := [1]
  collapsedSliceDims := [0]
  operandBatchingDims := []
  startIndicesBatchingDims := []
  startIndexMap := [0]
  indexVectorDim := 1
  sliceSizes := ![1, 4]
  wf := gather_S80000x4_S1280000x1_S1280000x4_1_0_n_n_0_1_14_wf
def scatter_S80000x4_S1280000x1_S1280000x4_1_0_0_1 : ScatterDims S80000x4 S1280000x1 S1280000x4 where
  updateWindowDims := [1]
  insertedWindowDims := [0]
  scatterDimsToOperandDims := [0]
  indexVectorDim := 1
  wf := scatter_S80000x4_S1280000x1_S1280000x4_1_0_0_1_wf
def dot_S8000x4_S4x64_S8000x64_1_0_0_1_n_n : DotDims S8000x4 S4x64 S8000x64 where
  lhsContracting := [1]
  rhsContracting := [0]
  lhsNonContracting := [0]
  rhsNonContracting := [1]
  lhsBatch := []
  rhsBatch := []
  wf := dot_S8000x4_S4x64_S8000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S64x4000_S4000x64_S64x64_1_0_0_1_n_n : DotDims S64x4000 S4000x64 S64x64 where
  lhsContracting := [1]
  rhsContracting := [0]
  lhsNonContracting := [0]
  rhsNonContracting := [1]
  lhsBatch := []
  rhsBatch := []
  wf := dot_S64x4000_S4000x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_v28) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S8000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S4x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x1x4000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S64x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58) S1x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S64x2.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun _ => false | 8 => fun i => !(k2_cond2 i == 1#1) | ⟨_ + 9, h⟩ => absurd h (Nat.not_lt.2 (Nat.le_add_left _ _))

class Facts : Prop extends Facts₀ where

variable [Facts]
-- ==== ReferenceIdeal.lean ====
abbrev S80000x4 : Shape := ⟨2, ![80000, 4]⟩
abbrev S2x1280000 : Shape := ⟨2, ![2, 1280000]⟩
abbrev S80000 : Shape := ⟨1, ![80000]⟩
abbrev S4 : Shape := ⟨1, ![4]⟩
abbrev S4x64 : Shape := ⟨2, ![4, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1280000 : Shape := ⟨2, ![1, 1280000]⟩
abbrev S1280000 : Shape := ⟨1, ![1280000]⟩
abbrev S1x4 : Shape := ⟨2, ![1, 4]⟩
abbrev S_ : Shape := ⟨0, ![]⟩
abbrev S1280000x1 : Shape := ⟨2, ![1280000, 1]⟩
abbrev S1280000x4 : Shape := ⟨2, ![1280000, 4]⟩
abbrev S80000x64 : Shape := ⟨2, ![80000, 64]⟩
abbrev S1x64 : Shape := ⟨2, ![1, 64]⟩
abbrev S1280000x64 : Shape := ⟨2, ![1280000, 64]⟩
abbrev S80000x1 : Shape := ⟨2, ![80000, 1]⟩
abbrev S64x1 : Shape := ⟨2, ![64, 1]⟩
abbrev S1x2 : Shape := ⟨2, ![1, 2]⟩

abbrev nBuf : Space → Nat
  | .hbm => 119
  | .vmem => 0
  | .smem => 0
  | _ => 0

abbrev bufTy : (tb : Table) → Fin (tcTables nBuf tb) → BufTy
  | .hbm, ⟨0, _⟩ => ⟨S80000x4, .f32⟩
  | .hbm, ⟨1, _⟩ => ⟨S2x1280000, .i32⟩
  | .hbm, ⟨2, _⟩ => ⟨S80000, .i32⟩
  | .hbm, ⟨3, _⟩ => ⟨S4, .f32⟩
  | .hbm, ⟨4, _⟩ => ⟨S4, .f32⟩
  | .hbm, ⟨5, _⟩ => ⟨S4, .f32⟩
  | .hbm, ⟨6, _⟩ => ⟨S4, .f32⟩
  | .hbm, ⟨7, _⟩ => ⟨S4x64, .f32⟩
  | .hbm, ⟨8, _⟩ => ⟨S64, .f32⟩
  | .hbm, ⟨9, _⟩ => ⟨S4x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64x2, .f32⟩
  | .hbm, ⟨17, _⟩ => ⟨S2, .f32⟩
  | .hbm, ⟨18, _⟩ => ⟨S1x1280000, .i32⟩
  | .hbm, ⟨19, _⟩ => ⟨S1280000, .i32⟩
  | .hbm, ⟨20, _⟩ => ⟨S1x1280000, .i32⟩
  | .hbm, ⟨21, _⟩ => ⟨S1280000, .i32⟩
  | .hbm, ⟨22, _⟩ => ⟨S1x4, .f32⟩
  | .hbm, ⟨23, _⟩ => ⟨S80000x4, .f32⟩
  | .hbm, ⟨24, _⟩ => ⟨S80000x4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S1x4, .f32⟩
  | .hbm, ⟨31, _⟩ => ⟨S80000x4, .f32⟩
  | .hbm, ⟨32, _⟩ => ⟨S80000x4, .f32⟩
  | .hbm, ⟨33, _⟩ => ⟨S1x4, .f32⟩
  | .hbm, ⟨34, _⟩ => ⟨S80000x4, .f32⟩
  | .hbm, ⟨35, _⟩ => ⟨S80000x4, .f32⟩
  | .hbm, ⟨36, _⟩ => ⟨S_, .i32⟩
  | .hbm, ⟨37, _⟩ => ⟨S1280000, .i32⟩
  | .hbm, ⟨38, _⟩ => ⟨S1280000, .i1⟩
  | .hbm, ⟨39, _⟩ => ⟨S_, .i32⟩
  | .hbm, ⟨40, _⟩ => ⟨S1280000, .i32⟩
  | .hbm, ⟨41, _⟩ => ⟨S1280000, .i32⟩
  | .hbm, ⟨42, _⟩ => ⟨S1280000, .i32⟩
  | .hbm, ⟨43, _⟩ => ⟨S1280000x1, .i32⟩
  | .hbm, ⟨44, _⟩ => ⟨S1280000x4, .f32⟩
  | .hbm, ⟨45, _⟩ => ⟨S_, .f32⟩
  | .hbm, ⟨46, _⟩ => ⟨S80000x4, .f32⟩
  | .hbm, ⟨47, _⟩ => ⟨S1280000x1, .i32⟩
  | .hbm, ⟨48, _⟩ => ⟨S80000x4, .f32⟩
  | .hbm, ⟨49, _⟩ => ⟨S80000x64, .f32⟩
  | .hbm, ⟨50, _⟩ => ⟨S1x64, .f32⟩
  | .hbm, ⟨51, _⟩ => ⟨S80000x64, .f32⟩
  | .hbm, ⟨52, _⟩ => ⟨S80000x64, .f32⟩
  | .hbm, ⟨53, _⟩ => ⟨S80000x64, .f32⟩
  | .hbm, ⟨54, _⟩ => ⟨S80000x64, .f32⟩
  | .hbm, ⟨55, _⟩ => ⟨S_, .f32⟩
  | .hbm, ⟨56, _⟩ => ⟨S80000x64, .f32⟩
  | .hbm, ⟨57, _⟩ => ⟨S80000x64, .f32⟩
  | .hbm, ⟨58, _⟩ => ⟨S_, .i32⟩
  | .hbm, ⟨59, _⟩ => ⟨S1280000, .i32⟩
  | .hbm, ⟨60, _⟩ => ⟨S1280000, .i1⟩
  | .hbm, ⟨61, _⟩ => ⟨S_, .i32⟩
  | .hbm, ⟨62, _⟩ => ⟨S1280000, .i32⟩
  | .hbm, ⟨63, _⟩ => ⟨S1280000, .i32⟩
  | .hbm, ⟨64, _⟩ => ⟨S1280000, .i32⟩
  | .hbm, ⟨65, _⟩ => ⟨S1280000x1, .i32⟩
  | .hbm, ⟨66, _⟩ => ⟨S1280000x64, .f32⟩
  | .hbm, ⟨67, _⟩ => ⟨S_, .f32⟩
  | .hbm, ⟨68, _⟩ => ⟨S80000x64, .f32⟩
  | .hbm, ⟨69, _⟩ => ⟨S1280000x1, .i32⟩
  | .hbm, ⟨70, _⟩ => ⟨S80000x64, .f32⟩
  | .hbm, ⟨71, _⟩ => ⟨S80000x64, .f32⟩
  | .hbm, ⟨72, _⟩ => ⟨S1x64, .f32⟩
  | .hbm, ⟨73, _⟩ => ⟨S80000x64, .f32⟩
  | .hbm, ⟨74, _⟩ => ⟨S80000x64, .f32⟩
  | .hbm, ⟨75, _⟩ => ⟨S80000x64, .f32⟩
  | .hbm, ⟨76, _⟩ => ⟨S80000x64, .f32⟩
  | .hbm, ⟨77, _⟩ => ⟨S_, .f32⟩
  | .hbm, ⟨78, _⟩ => ⟨S80000x64, .f32⟩
  | .hbm, ⟨79, _⟩ => ⟨S80000x64, .f32⟩
  | .hbm, ⟨80, _⟩ => ⟨S_, .i32⟩
  | .hbm, ⟨81, _⟩ => ⟨S1280000, .i32⟩
  | .hbm, ⟨82, _⟩ => ⟨S1280000, .i1⟩
  | .hbm, ⟨83, _⟩ => ⟨S_, .i32⟩
  | .hbm, ⟨84, _⟩ => ⟨S1280000, .i32⟩
  | .hbm, ⟨85, _⟩ => ⟨S1280000, .i32⟩
  | .hbm, ⟨86, _⟩ => ⟨S1280000, .i32⟩
  | .hbm, ⟨87, _⟩ => ⟨S1280000x1, .i32⟩
  | .hbm, ⟨88, _⟩ => ⟨S1280000x64, .f32⟩
  | .hbm, ⟨89, _⟩ => ⟨S_, .f32⟩
  | .hbm, ⟨90, _⟩ => ⟨S80000x64, .f32⟩
  | .hbm, ⟨91, _⟩ => ⟨S1280000x1, .i32⟩
  | .hbm, ⟨92, _⟩ => ⟨S80000x64, .f32⟩
  | .hbm, ⟨93, _⟩ => ⟨S80000x64, .f32⟩
  | .hbm, ⟨94, _⟩ => ⟨S1x64, .f32⟩
  | .hbm, ⟨95, _⟩ => ⟨S80000x64, .f32⟩
  | .hbm, ⟨96, _⟩ => ⟨S80000x64, .f32⟩
  | .hbm, ⟨97, _⟩ => ⟨S80000x64, .f32⟩
  | .hbm, ⟨98, _⟩ => ⟨S80000x64, .f32⟩
  | .hbm, ⟨99, _⟩ => ⟨S_, .f32⟩
  | .hbm, ⟨100, _⟩ => ⟨S64x64, .f32⟩
  | .hbm, ⟨101, _⟩ => ⟨S80000x1, .i32⟩
  | .hbm, ⟨102, _⟩ => ⟨S64x64, .f32⟩
  | .hbm, ⟨103, _⟩ => ⟨S_, .f32⟩
  | .hbm, ⟨104, _⟩ => ⟨S80000, .f32⟩
  | .hbm, ⟨105, _⟩ => ⟨S_, .f32⟩
  | .hbm, ⟨106, _⟩ => ⟨S64, .f32⟩
  | .hbm, ⟨107, _⟩ => ⟨S80000x1, .i32⟩
  | .hbm, ⟨108, _⟩ => ⟨S64, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64x1, .f32⟩
  | .hbm, ⟨113, _⟩ => ⟨S64x64, .f32⟩
  | .hbm, ⟨114, _⟩ => ⟨S64x64, .f32⟩
  | .hbm, ⟨115, _⟩ => ⟨S64x2, .f32⟩
  | .hbm, ⟨116, _⟩ => ⟨S1x2, .f32⟩
  | .hbm, ⟨117, _⟩ => ⟨S64x2, .f32⟩
  | .hbm, ⟨118, _⟩ => ⟨S64x2, .f32⟩
  | _, _ => ⟨S80000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call0_cst : Ref sig .tc := ⟨.hbm, 55, rfl⟩
abbrev main_call0_v0 : Ref sig .tc := ⟨.hbm, 56, rfl⟩
abbrev main_v33 : Ref sig .tc := ⟨.hbm, 57, rfl⟩
abbrev main_c_2 : Ref sig .tc := ⟨.hbm, 58, rfl⟩
abbrev main_v34 : Ref sig .tc := ⟨.hbm, 59, rfl⟩
abbrev main_v35 : Ref sig .tc := ⟨.hbm, 60, rfl⟩
abbrev main_c_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call1_cst : Ref sig .tc := ⟨.hbm, 77, rfl⟩
abbrev main_call1_v0 : Ref sig .tc := ⟨.hbm, 78, rfl⟩
abbrev main_v50 : Ref sig .tc := ⟨.hbm, 79, rfl⟩
abbrev main_c_5 : Ref sig .tc := ⟨.hbm, 80, rfl⟩
abbrev main_v51 : Ref sig .tc := ⟨.hbm, 81, rfl⟩
abbrev main_v52 : Ref sig .tc := ⟨.hbm, 82, rfl⟩
abbrev main_c_6 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_8 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_9 : Ref sig .tc := ⟨.hbm, 103, rfl⟩
abbrev main_v70 : Ref sig .tc := ⟨.hbm, 104, rfl⟩
abbrev main_cst_10 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_11 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S4_S1x4_1 : S4.BroadcastsInDim S1x4 (![1] : Fin 1 → Fin S1x4.rank)
  bcast_S1x4_S80000x4_0_1 : S1x4.BroadcastsInDim S80000x4 (![0, 1] : Fin 2 → Fin S80000x4.rank)
  bcast_S_S4 : S_.BroadcastsInDim S4 (![] : Fin 0 → Fin S4.rank)
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S80000x4 : S_.BroadcastsInDim S80000x4 (![] : Fin 0 → Fin S80000x4.rank)
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  bcast_S_S80000x64 : S_.BroadcastsInDim S80000x64 (![] : Fin 0 → Fin S80000x64.rank)
  bcast_S_S64x64 : S_.BroadcastsInDim S64x64 (![] : Fin 0 → Fin S64x64.rank)
  bcast_S80000_S80000x1_0 : S80000.BroadcastsInDim S80000x1 (![0] : Fin 1 → Fin S80000x1.rank)
  bcast_S_S80000 : S_.BroadcastsInDim S80000 (![] : Fin 0 → Fin S80000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  gather_S80000x4_S1280000x1_S1280000x4_1_0_n_n_0_1_14_wf : GatherDims.WF S80000x4 S1280000x1 S1280000x4 [1] [0] [] [0] [] 1 ![1, 4]
  scatter_S80000x4_S1280000x1_S1280000x4_1_0_0_1_wf : ScatterDims.WF S80000x4 S1280000x1 S1280000x4 [1] [0] [0] 1
  dot_S80000x4_S4x64_S80000x64_1_0_0_1_n_n_wf : DotDims.WF S80000x4 S4x64 S80000x64 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S80000x64_S64x64_S80000x64_1_0_0_1_n_n_wf : DotDims.WF S80000x64 S64x64 S80000x64 [1] [0] [0] [1] [] []
  scatter_S64x64_S80000x1_S80000x64_1_0_0_1_wf : ScatterDims.WF S64x64 S80000x1 S80000x64 [1] [0] [0] 1
  scatter_S64_S80000x1_S80000_n_0_0_1_wf : ScatterDims.WF S64 S80000x1 S80000 [] [0] [0] 1
  dot_S64x64_S64x2_S64x2_1_0_0_1_n_n_wf : DotDims.WF S64x64 S64x2 S64x2 [1] [0] [0] [1] [] []

variable [Facts₀]

def gather_S80000x4_S1280000x1_S1280000x4_1_0_n_n_0_1_14 : GatherDims S80000x4 S1280000x1 S1280000x4 where
  offsetDims := [1]
  collapsedSliceDims := [0]
  operandBatchingDims := []
  startIndicesBatchingDims := []
  startIndexMap := [0]
  indexVectorDim := 1
  sliceSizes := ![1, 4]
  wf := gather_S80000x4_S1280000x1_S1280000x4_1_0_n_n_0_1_14_wf
def scatter_S80000x4_S1280000x1_S1280000x4_1_0_0_1 : ScatterDims S80000x4 S1280000x1 S1280000x4 where
  updateWindowDims := [1]
  insertedWindowDims := [0]
  scatterDimsToOperandDims := [0]
  indexVectorDim := 1
  wf := scatter_S80000x4_S1280000x1_S1280000x4_1_0_0_1_wf
def dot_S80000x4_S4x64_S80000x64_1_0_0_1_n_n : DotDims S80000x4 S4x64 S80000x64 where
  lhsContracting := [1]
  rhsContracting := [0]
  lhsNonContracting := [0]
  rhsNonContracting := [1]
  lhsBatch := []
  rhsBatch := []
  wf := dot_S80000x4_S4x64_S80000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf
def scatter_S64x64_S80000x1_S80000x64_1_0_0_1 : ScatterDims S64x64 S80000x1 S80000x64 where
  updateWindowDims := [1]
  insertedWindowDims := [0]
  scatterDimsToOperandDims := [0]
  indexVectorDim := 1
  wf := scatter_S64x64_S80000x1_S80000x64_1_0_0_1_wf
def scatter_S64_S80000x1_S80000_n_0_0_1 : ScatterDims S64 S80000x1 S80000 where
  updateWindowDims := []
  insertedWindowDims := [0]
  scatterDimsToOperandDims := [0]
  indexVectorDim := 1
  wf := scatter_S64_S80000x1_S80000_n_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.K.Reg0.lean ====
/-
  Region 0 of the kernel's program: graph-convolution layer 1, one grid point per block of 8000 node rows.
  At a point the body reads the block of aggregated neighbour features and the block of node features (8000 x 4
  each), the two 4 x 64 weight matrices and the 1 x 64 bias row, and stores into the output block (8000 x 64)
      max ((agg · W_rel + x · W_root) + b, 0).
  Stated at any contents `V` of the core's buffers when the region is entered: each window's block at a point, what
  the body leaves in the output window's buffer (one store covering the whole block), the body's triple, the pipeline's
  proof data, and the body obligation at every point. The region keeps nothing between points: its invariant is the
  scoped rest and the generator register, untouched.
-/
import proofs.«431281_j6751688589931_2_alg».proof.Proof.Gen.Kernel.Launch
import proofs.«431281_j6751688589931_2_alg».proof.Proof.Gen.Kernel.Skeleton
import proofs.«431281_j6751688589931_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the point fetches it or not: the
    row blocks are fetched at every point, the weights and the bias once (their block index never moves). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev rA0 : Rect S8000x4 := Rect.unit (s := S8000x4) ![0, 0] S8000x4.size inb_S8000x4_S8000x4_0_0
abbrev rW0 : Rect S4x64 := Rect.unit (s := S4x64) ![0, 0] S4x64.size inb_S4x64_S4x64_0_0
abbrev rB0 : Rect S1x64 := Rect.unit (s := S1x64) ![0, 0] S1x64.size inb_S1x64_S1x64_0_0
abbrev rO0 : Rect S8000x64 := Rect.unit (s := S8000x64) ![0, 0] S8000x64.size inb_S8000x64_S8000x64_0_0

/-! ## What the body leaves in the output window's buffer -/

/-- The output block after the body, from the five input blocks (aggregate, features, W_rel, bias, W_root, in window
    order): its one store, of the layer's value. -/
def out0_5 (x0 x1 : Vec F S8000x4 .f32) (x2 : Vec F S4x64 .f32) (x3 : Vec F S1x64 .f32) (x4 : Vec F S4x64 .f32) : Vec F S8000x64 .f32 :=
  View.canon [⟨rO0, k0_pay1 (View.ld x0 rA0) (View.ld x1 rA0) (View.ld x2 rW0) (View.ld x4 rW0) (View.ld x3 rB0)⟩]

/-- The store covers the block. -/
theorem cover0_5 (p0 : Vec F S8000x64 .f32) (y : S8000x64.Idx) :
    ∃ pc ∈ ([⟨rO0, p0⟩] : List (View.Piece (Elt F) S8000x64 .f32)), y ∈ pc.1.set :=
  View.cover_of_tiled [⟨rO0, p0⟩] S8000x64.size (by rfl) y

/-! ## The body's triple -/

set_option maxHeartbeats 1000000 in
/-- The body on whole staging memrefs, the inputs' at contents `xW` and the output's at anything, runs to the
    continuation holding the inputs' as they were and the output's at `out0_5` of them. -/
theorem sound_kernel0 (c : Dev nD) (E : Set ℕ) (i : grid0.Coords)
    (arg1 : Memref sig .tc .vmem S8000x4 .f32) (harg1 : arg1.IsWhole) (arg2 : Memref sig .tc .vmem S8000x4 .f32) (harg2 : arg2.IsWhole)
    (arg3 : Memref sig .tc .vmem S4x64 .f32) (harg3 : arg3.IsWhole) (arg4 : Memref sig .tc .vmem S1x64 .f32) (harg4 : arg4.IsWhole)
    (arg5 : Memref sig .tc .vmem S4x64 .f32) (harg5 : arg5.IsWhole) (arg6 : Memref sig .tc .vmem S8000x64 .f32) (harg6 : arg6.IsWhole)
    (x0 x1 : Vec F S8000x4 .f32) (x2 : Vec F S4x64 .f32) (x3 : Vec F S1x64 .f32) (x4 : Vec F S4x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__graph_conv_kernel i arg1 harg1 arg2 harg2 arg3 harg3 arg4 harg4 arg5 harg5 arg6 harg6) K := by
  simp only [cc0__graph_conv_kernel_eq_skeleton]; unfold cc0__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    input's buffer at its block and the output's at `out0_5` of the input blocks; nothing kept between points;
    nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1.lean ====
/-
  Region 1 of the kernel's program: graph-convolution layer 2, one grid point per block of 8000 node rows.
  At a point the body reads the block of aggregated neighbour features and the block of node features (8000 x 64
  each), the two 64 x 64 weight matrices and the 1 x 64 bias row, and stores into the output block (8000 x 64)
      max ((agg · W_rel + x · W_root) + b, 0).
  Stated at any contents `V` of the core's buffers when the region is entered: each window's block at a point, what
  the body leaves in the output window's buffer (one store covering the whole block), the body's triple, the pipeline's
  proof data, and the body obligation at every point. The region keeps nothing between points: its invariant is the
  scoped rest and the generator register, untouched.
-/
import proofs.«431281_j6751688589931_2_alg».proof.Proof.Gen.Kernel.Launch
import proofs.«431281_j6751688589931_2_alg».proof.Proof.Gen.Kernel.Skeleton
import proofs.«431281_j6751688589931_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the point fetches it or not: the
    row blocks are fetched at every point, the weights and the bias once (their block index never moves). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev rA1 : Rect S8000x64 := Rect.unit (s := S8000x64) ![0, 0] S8000x64.size inb_S8000x64_S8000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0
abbrev rO1 : Rect S8000x64 := Rect.unit (s := S8000x64) ![0, 0] S8000x64.size inb_S8000x64_S8000x64_0_0

/-! ## What the body leaves in the output window's buffer -/

/-- The output block after the body, from the five input blocks (aggregate, features, W_rel, bias, W_root, in window
    order): its one store, of the layer's value. -/
def out1_5 (x0 x1 : Vec F S8000x64 .f32) (x2 : Vec F S64x64 .f32) (x3 : Vec F S1x64 .f32) (x4 : Vec F S64x64 .f32) : Vec F S8000x64 .f32 :=
  View.canon [⟨rO1, k1_pay1 (View.ld x0 rA1) (View.ld x1 rA1) (View.ld x2 rW1) (View.ld x4 rW1) (View.ld x3 rB1)⟩]

/-- The store covers the block. -/
theorem cover1_5 (p0 : Vec F S8000x64 .f32) (y : S8000x64.Idx) :
    ∃ pc ∈ ([⟨rO1, p0⟩] : List (View.Piece (Elt F) S8000x64 .f32)), y ∈ pc.1.set :=
  View.cover_of_tiled [⟨rO1, p0⟩] S8000x64.size (by rfl) y

/-! ## The body's triple -/

set_option maxHeartbeats 1000000 in
/-- The body on whole staging memrefs, the inputs' at contents `xW` and the output's at anything, runs to the
    continuation holding the inputs' as they were and the output's at `out1_5` of them. -/
theorem sound_kernel1 (c : Dev nD) (E : Set ℕ) (i : grid1.Coords)
    (arg1 : Memref sig .tc .vmem S8000x64 .f32) (harg1 : arg1.IsWhole) (arg2 : Memref sig .tc .vmem S8000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S8000x64 .f32) (harg6 : arg6.IsWhole)
    (x0 x1 : Vec F S8000x64 .f32) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__graph_conv_kernel i arg1 harg1 arg2 harg2 arg3 harg3 arg4 harg4 arg5 harg5 arg6 harg6) K := by
  simp only [cc1__graph_conv_kernel_eq_skeleton]; unfold cc1__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at `out1_5` of the input blocks; nothing kept between points;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Data2.lean ====
/-
  Region 2 of the kernel's program: the third graph-convolution layer fused with the mean pool over graphs and the final
  linear layer, one grid point per block of 4000 node rows (20 points, run in order).
  At a point the body forms the layer's rows h3 = (agg · W_rel + h · W_root) + b for its 4000 nodes, the 64 x 4000 mask
  mask[g, j] = 1 if node j of the block belongs to graph g, else 0, and adds mask · h3 (64 x 64) to a running sum and the
  mask's row sums (64 x 1) to a running count, both kept in scratch between points and reset to zero at the first point.
  At the last point it stores (sum / max (count, 1)) · lin_W + lin_b (64 x 2) into the output block.
  Here: the definitions the region's two halves share — each window's block at a point, the two accumulators after each
  point (by recursion on the point), what the output buffer holds after the last point, and the pipeline's proof data with
  the invariant that carries the accumulators from one point to the next.
-/
import proofs.«431281_j6751688589931_2_alg».proof.Proof.Gen.Kernel.Launch
import proofs.«431281_j6751688589931_2_alg».proof.Proof.Gen.Kernel.Skeleton
import proofs.«431281_j6751688589931_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region2

variable (V : (c : Dev nD) → (b : Ref sig .tc) → Buf (Elt F) ((c : Thread nD τ).loc b))

/-- Window `w`'s block at point `t`, read off its array as the region finds it. Windows, in order: the aggregate's
    rows, the features' rows, the graph ids of the rows (1 x 1 x 4000), W_rel, the bias row, W_root, lin_W, lin_b, and
    the result (64 x 2). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch operands: the running sum (64 x 64) and the running count (64 x 1). -/
abbrev scSum : Memref sig .tc .vmem S64x64 .f32 := Memref.whole cc2_scratch0
abbrev scCnt : Memref sig .tc .vmem S64x1 .f32 := Memref.whole cc2_scratch1

/-- One point's update of the running sum `s` from the point's blocks. -/
def sumStep (c : Dev nD) (t : Fin cfg2.N) (s : Vec F S64x64 .f32) : Vec F S64x64 .f32 :=
  k2_pay6 (iblk2 V c 0 t) (iblk2 V c 1 t) (iblk2 V c 3 t) (iblk2 V c 5 t) (iblk2 V c 4 t) (iblk2 V c 2 t) s

/-- One point's update of the running count `n` from the point's graph ids. -/
def cntStep (c : Dev nD) (t : Fin cfg2.N) (n : Vec F S64x1 .f32) : Vec F S64x1 .f32 :=
  k2_pay1 (k2_pay5 (iblk2 V c 2 t)) n

/-- THE ACCUMULATION: the running sum and the running count after the body at position `n` — from zero at the first
    point, from what the point before left afterwards. -/
def acc2 (c : Dev nD) : (n : ℕ) → n < cfg2.N → Vec F S64x64 .f32 × Vec F S64x1 .f32
  | 0, hn => (sumStep V c ⟨0, hn⟩ (k2_pay3 (F := F)), cntStep V c ⟨0, hn⟩ (k2_pay4 (F := F)))
  | n + 1, hn => (sumStep V c ⟨n + 1, hn⟩ (acc2 c n (Nat.lt_of_succ_lt hn)).1, cntStep V c ⟨n + 1, hn⟩ (acc2 c n (Nat.lt_of_succ_lt hn)).2)

theorem acc2_zero (c : Dev nD) (hn : 0 < cfg2.N) :
    acc2 V c 0 hn = (sumStep V c ⟨0, hn⟩ (k2_pay3 (F := F)), cntStep V c ⟨0, hn⟩ (k2_pay4 (F := F))) := rfl

theorem acc2_succ (c : Dev nD) (n : ℕ) (hn : n + 1 < cfg2.N) :
    acc2 V c (n + 1) hn = (sumStep V c ⟨n + 1, hn⟩ (acc2 V c n (Nat.lt_of_succ_lt hn)).1, cntStep V c ⟨n + 1, hn⟩ (acc2 V c n (Nat.lt_of_succ_lt hn)).2) := rfl

/-- What a point that stores the result leaves in the output buffer: the pooled rows through the final linear layer, from
    the accumulators as the point leaves them. (Only the last point stores it; at the others the buffer is handed back
    untouched and is not written back, so its contents there are never read.) -/
def out2_8 (c : Dev nD) (t : Fin cfg2.N) : Vec F S64x2 .f32 :=
  k2_pay2 (acc2 V c t.val t.isLt).2 (acc2 V c t.val t.isLt).1 (iblk2 V c 6 t) (iblk2 V c 7 t)

/-- The region invariant before position `n`: before the first point the scoped rest (every scratch at anything) and the
    generator register; afterwards the running sum and the running count at what the point before left, the scoped
    buffers that are neither (the other regions' staging buffers) at anything, and the generator register. -/
def Phi2 (c : Dev nD) : (n : ℕ) → n ≤ cfg2.N → sProp 𝕄
  | 0, _ => Pipeline.ΦA spec2 c
  | n + 1, hn => iprop(owns (c : Thread nD τ) scSum fullShare (acc2 V c n hn).1 ∗ owns (c : Thread nD τ) scCnt fullShare (acc2 V c n hn).2
      ∗ (bigSep (([cc0_stg0_0, cc0_stg0_1, cc0_stg1_0, cc0_stg1_1, cc0_stg2_0, cc0_stg3_0, cc0_stg4_0, cc0_stg5_0, cc0_stg5_1, cc1_stg0_0, cc1_stg0_1, cc1_stg1_0, cc1_stg1_1, cc1_stg2_0, cc1_stg3_0, cc1_stg4_0, cc1_stg5_0, cc1_stg5_1] : List (Ref sig .tc)).toFinset)
          fun b => iprop(∃ f : Buf (Elt F) ((c : Thread nD τ).loc b), ((c : Thread nD τ).loc b) ↦{fullShare} f))
      ∗ (∃ r, prngReg c r))

theorem Phi2_zero (c : Dev nD) (n : ℕ) (h : n ≤ cfg2.N) (hz : n = 0) : Phi2 V c n h = Pipeline.ΦA spec2 c := by
  subst hz; rfl

/-- The proof data of pipeline 2 on core `c`: the arrays as the region finds them; after the body at point `t` each
    input's buffer at its block and the output's at `out2_8`; the invariant `Phi2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 V c t := by dsimp only [dat2]

end Region2

end Cert.Kernel.Hand

end
-- ==== Proof.K.Reg2.lean ====
/-
  Region 2 of the kernel's program, the frame half: the third graph-convolution layer fused with the mean pool and the
  final linear layer, 20 grid points run in order, the running sum (64 x 64) and the running count (64 x 1) kept in
  scratch between points.
  Every access of the body is a whole buffer at offset zero, so a load reads the buffer's contents and a buffer read
  back after a store made last holds what that store wrote. The body has three control cases, decided in closed form
  over the grid: at the first point it resets both accumulators to zero and then adds the point's contribution; at a
  middle point it adds the contribution to what the point before left; at the last point it adds the contribution and
  then stores the pooled rows through the final linear layer into the output block. The body's triple is stated for
  each case over explicit contents of the staging memrefs and the two accumulators.
  The region's invariant carries the accumulators from point to point at the values the recursion of the shared
  definitions gives; the output window is idle (handed back untouched, not written back) everywhere but at the last
  point. From these: the body obligation at every point, and that the invariant is what the launch hands the region
  before the first point and gives it back after the last.
-/
import proofs.«431281_j6751688589931_2_alg».proof.Proof.K.Data2
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Region2

variable (V : (c : Dev nD) → (b : Ref sig .tc) → Buf (Elt F) ((c : Thread nD τ).loc b))

/-! ## The input windows' buffers hold their blocks

    An input window's current staging buffer holds its block at every point, whether the point fetches it or not: the
    row blocks and the graph ids are fetched at every point, the weights and the biases once. -/

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (Pipeline.UD sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body's two conditions over the grid, and where the output window is idle -/

/-- The first branch's condition (the point is the grid's first), as the body computes it from the coordinate. -/
abbrev cond2_0 (i : grid2.Coords) : Prop :=
  (Scalar.cmpi .ne (Scalar.extui (Scalar.cmpi .eq (BitVec.ofNat 32 (i 0).val) 0#32)) 0#32) = 1#1

/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second branch's condition holds at the last point only. -/
theorem hcond2_1 : ∀ t : Fin cfg2.N, k2_cond2 (grid2.coords t) = 1#1 ↔ t.val = 19 :=
  (by decide +kernel : ∀ t : Fin grid2.N, k2_cond2 (grid2.coords t) = 1#1 ↔ t.val = 19)

/-- Where the output window is idle, and where it is live. -/
theorem idleAt2_8 : ∀ t : Fin cfg2.N, ¬k2_cond2 (grid2.coords t) = 1#1 → cfg2.idle 8 (grid2.coords t) = true := by decide +kernel
theorem noFlush2_8 : ∀ t : Fin cfg2.N, ¬k2_cond2 (grid2.coords t) = 1#1 → (cfg2.win 8).flush t = false := by decide +kernel
theorem liveAt2_8 : ∀ t : Fin cfg2.N, k2_cond2 (grid2.coords t) = 1#1 → cfg2.idle 8 (grid2.coords t) = false := by decide +kernel

/-! ## Whole-buffer accesses -/

/-- The zero offsets of a rank-2 and of a rank-3 access, as constant functions. -/
theorem hz2 : (![0, 0] : Fin 2 → Nat) = fun _ => 0 := by funext a; fin_cases a <;> rfl
theorem hz3 : (![0, 0, 0] : Fin 3 → Nat) = fun _ => 0 := by funext a; fin_cases a <;> rfl

/-- A buffer read back after a store of the whole buffer made last holds what that store wrote, whatever was stored
    before it. -/
theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

/-- A load of the whole buffer reads its contents. -/
theorem readAt_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-! ## The body's triple, case by case -/

set_option maxHeartbeats 1000000 in
/-- THE FIRST POINT. On whole memrefs, the inputs' at contents `xW`, the output's at `x8`, the accumulators' at anything,
    the body runs to the continuation holding the inputs' and the output's as they were and the accumulators at one step
    from zero. -/
theorem sound_kernel2_A (c : Dev nD) (E : Set ℕ) (i : grid2.Coords) (hc0 : cond2_0 i) (hc1 : ¬k2_cond2 i = 1#1)
    (arg1 : Memref sig .tc .vmem S4000x64 .f32) (harg1 : arg1.IsWhole) (arg2 : Memref sig .tc .vmem S4000x64 .f32) (harg2 : arg2.IsWhole)
    (arg3 : Memref sig .tc .vmem S1x1x4000 .i32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x2 .f32) (harg7 : arg7.IsWhole) (arg8 : Memref sig .tc .vmem S1x2 .f32) (harg8 : arg8.IsWhole)
    (arg9 : Memref sig .tc .vmem S64x2 .f32) (harg9 : arg9.IsWhole) (arg10 : Memref sig .tc .vmem S64x64 .f32) (harg10 : arg10.IsWhole)
    (arg11 : Memref sig .tc .vmem S64x1 .f32) (harg11 : arg11.IsWhole)
    (x0 x1 : Vec F S4000x64 .f32) (x2 : Vec F S1x1x4000 .i32) (x3 : Vec F S64x64 .f32) (x4 : Vec F S1x64 .f32) (x5 : Vec F S64x64 .f32)
    (x6 : Vec F S64x2 .f32) (x7 : Vec F S1x2 .f32) (x8 : Vec F S64x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ (∃ s, owns (c : Thread nD τ) arg10 fullShare s) ∗ (∃ n, owns (c : Thread nD τ) arg11 fullShare n)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
            ∗ owns (c : Thread nD τ) arg10 fullShare (k2_pay6 x0 x1 x3 x5 x4 x2 (k2_pay3 (F := F)))
            ∗ owns (c : Thread nD τ) arg11 fullShare (k2_pay1 (k2_pay5 x2) (k2_pay4 (F := F)))) -∗ K ⟨⟩))
      ⊢ wp frame (wpE (defs₀ (F := F)) Variants.none c none) E (cc2__graph_conv3_pool_kernel i arg1 harg1 arg2 harg2 arg3 harg3 arg4 harg4 arg5 harg5 arg6 harg6 arg7 harg7 arg8 harg8 arg9 harg9 arg10 harg10 arg11 harg11) K := by
  simp only [cc2__graph_conv3_pool_kernel_eq_skeleton]; unfold cc2__graph_conv3_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%s, %fs, -, HS⟩, ⟨%n, %fn, -, HN⟩, Hk⟩
  subst hf0; subst hf1; subst hf2; subst hf3; subst hf4; subst hf5; subst hf6; subst hf7; subst hf8
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HS]
  · iexists _; isplitr
    swap; · iexact HS
    ipureintro
    refine (read_writes_whole (S := S64x64) _ _ hz2 _ _ _).trans ?_
    sl_unfold_words
    simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2, View.readCov_unit_zero (S := S64x64) _ hz2, View.readCov_unit_zero (S := S64x1) _ hz2]
  iexists _; isplitr
  swap; · iexact HN
  ipureintro
  refine (read_writes_whole (S := S64x1) _ _ hz2 _ _ _).trans ?_
  sl_unfold_words
  simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2, View.readCov_unit_zero (S := S64x64) _ hz2, View.readCov_unit_zero (S := S64x1) _ hz2]

set_option maxHeartbeats 1000000 in
/-- A MIDDLE POINT. The accumulators at `s`, `n`: the body leaves them one step further, everything else as it was. -/
theorem sound_kernel2_B (c : Dev nD) (E : Set ℕ) (i : grid2.Coords) (hc0 : ¬cond2_0 i) (hc1 : ¬k2_cond2 i = 1#1)
    (arg1 : Memref sig .tc .vmem S4000x64 .f32) (harg1 : arg1.IsWhole) (arg2 : Memref sig .tc .vmem S4000x64 .f32) (harg2 : arg2.IsWhole)
    (arg3 : Memref sig .tc .vmem S1x1x4000 .i32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x2 .f32) (harg7 : arg7.IsWhole) (arg8 : Memref sig .tc .vmem S1x2 .f32) (harg8 : arg8.IsWhole)
    (arg9 : Memref sig .tc .vmem S64x2 .f32) (harg9 : arg9.IsWhole) (arg10 : Memref sig .tc .vmem S64x64 .f32) (harg10 : arg10.IsWhole)
    (arg11 : Memref sig .tc .vmem S64x1 .f32) (harg11 : arg11.IsWhole)
    (x0 x1 : Vec F S4000x64 .f32) (x2 : Vec F S1x1x4000 .i32) (x3 : Vec F S64x64 .f32) (x4 : Vec F S1x64 .f32) (x5 : Vec F S64x64 .f32)
    (x6 : Vec F S64x2 .f32) (x7 : Vec F S1x2 .f32) (x8 : Vec F S64x2 .f32) (s : Vec F S64x64 .f32) (n : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ owns (c : Thread nD τ) arg10 fullShare s ∗ owns (c : Thread nD τ) arg11 fullShare n
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
            ∗ owns (c : Thread nD τ) arg10 fullShare (k2_pay6 x0 x1 x3 x5 x4 x2 s)
            ∗ owns (c : Thread nD τ) arg11 fullShare (k2_pay1 (k2_pay5 x2) n)) -∗ K ⟨⟩))
      ⊢ wp frame (wpE (defs₀ (F := F)) Variants.none c none) E (cc2__graph_conv3_pool_kernel i arg1 harg1 arg2 harg2 arg3 harg3 arg4 harg4 arg5 harg5 arg6 harg6 arg7 harg7 arg8 harg8 arg9 harg9 arg10 harg10 arg11 harg11) K := by
  simp only [cc2__graph_conv3_pool_kernel_eq_skeleton]; unfold cc2__graph_conv3_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, ⟨%fn, %hfn, HN⟩, Hk⟩
  subst hf0; subst hf1; subst hf2; subst hf3; subst hf4; subst hf5; subst hf6; subst hf7; subst hf8; subst hfs; subst hfn
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HS]
  · iexists _; isplitr
    swap; · iexact HS
    ipureintro
    refine (read_writes_whole (S := S64x64) _ _ hz2 _ _ _).trans ?_
    simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2]
  iexists _; isplitr
  swap; · iexact HN
  ipureintro
  refine (read_writes_whole (S := S64x1) _ _ hz2 _ _ _).trans ?_
  simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2]

set_option maxHeartbeats 1000000 in
/-- THE LAST POINT. The accumulators at `s`, `n`, the output at anything: the body leaves the accumulators one step
    further and the output at the pooled rows through the final linear layer, from the accumulators as it leaves them. -/
theorem sound_kernel2_C (c : Dev nD) (E : Set ℕ) (i : grid2.Coords) (hc0 : ¬cond2_0 i) (hc1 : k2_cond2 i = 1#1)
    (arg1 : Memref sig .tc .vmem S4000x64 .f32) (harg1 : arg1.IsWhole) (arg2 : Memref sig .tc .vmem S4000x64 .f32) (harg2 : arg2.IsWhole)
    (arg3 : Memref sig .tc .vmem S1x1x4000 .i32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x2 .f32) (harg7 : arg7.IsWhole) (arg8 : Memref sig .tc .vmem S1x2 .f32) (harg8 : arg8.IsWhole)
    (arg9 : Memref sig .tc .vmem S64x2 .f32) (harg9 : arg9.IsWhole) (arg10 : Memref sig .tc .vmem S64x64 .f32) (harg10 : arg10.IsWhole)
    (arg11 : Memref sig .tc .vmem S64x1 .f32) (harg11 : arg11.IsWhole)
    (x0 x1 : Vec F S4000x64 .f32) (x2 : Vec F S1x1x4000 .i32) (x3 : Vec F S64x64 .f32) (x4 : Vec F S1x64 .f32) (x5 : Vec F S64x64 .f32)
    (x6 : Vec F S64x2 .f32) (x7 : Vec F S1x2 .f32) (s : Vec F S64x64 .f32) (n : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d) ∗ owns (c : Thread nD τ) arg10 fullShare s ∗ owns (c : Thread nD τ) arg11 fullShare n
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
            ∗ owns (c : Thread nD τ) arg9 fullShare (k2_pay2 (k2_pay1 (k2_pay5 x2) n) (k2_pay6 x0 x1 x3 x5 x4 x2 s) x6 x7)
            ∗ owns (c : Thread nD τ) arg10 fullShare (k2_pay6 x0 x1 x3 x5 x4 x2 s)
            ∗ owns (c : Thread nD τ) arg11 fullShare (k2_pay1 (k2_pay5 x2) n)) -∗ K ⟨⟩))
      ⊢ wp frame (wpE (defs₀ (F := F)) Variants.none c none) E (cc2__graph_conv3_pool_kernel i arg1 harg1 arg2 harg2 arg3 harg3 arg4 harg4 arg5 harg5 arg6 harg6 arg7 harg7 arg8 harg8 arg9 harg9 arg10 harg10 arg11 harg11) K := by
  simp only [cc2__graph_conv3_pool_kernel_eq_skeleton]; unfold cc2__graph_conv3_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, ⟨%fn, %hfn, HN⟩, Hk⟩
  subst hf0; subst hf1; subst hf2; subst hf3; subst hf4; subst hf5; subst hf6; subst hf7; subst hfs; subst hfn
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    refine (read_writes_whole (S := S64x2) _ _ hz2 _ _ _).trans ?_
    sl_unfold_words
    simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2, View.readCov_unit_zero (S := S64x64) _ hz2, View.readCov_unit_zero (S := S64x1) _ hz2]
  isplitl [HS]
  · iexists _; isplitr
    swap; · iexact HS
    ipureintro
    refine (read_writes_whole (S := S64x64) _ _ hz2 _ _ _).trans ?_
    sl_unfold_words
    simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2, View.readCov_unit_zero (S := S64x64) _ hz2, View.readCov_unit_zero (S := S64x1) _ hz2]
  iexists _; isplitr
  swap; · iexact HN
  ipureintro
  refine (read_writes_whole (S := S64x1) _ _ hz2 _ _ _).trans ?_
  sl_unfold_words
  simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2, View.readCov_unit_zero (S := S64x64) _ hz2, View.readCov_unit_zero (S := S64x1) _ hz2]

/-! ## The invariant: the two accumulators split off the scoped rest -/

/-- The scoped buffers of the core that are neither a staging buffer of this region nor one of its two accumulators:
    the other regions' staging buffers, each at anything. -/
def rest2 (c : Dev nD) : sProp 𝕄 :=
  bigSep (([cc0_stg0_0, cc0_stg0_1, cc0_stg1_0, cc0_stg1_1, cc0_stg2_0, cc0_stg3_0, cc0_stg4_0, cc0_stg5_0, cc0_stg5_1, cc1_stg0_0, cc1_stg0_1, cc1_stg1_0, cc1_stg1_1, cc1_stg2_0, cc1_stg3_0, cc1_stg4_0, cc1_stg5_0, cc1_stg5_1] : List (Ref sig .tc)).toFinset)
    fun b => iprop(∃ f : Buf (Elt F) ((c : Thread nD τ).loc b), ((c : Thread nD τ).loc b) ↦{fullShare} f)

/-- The scoped rest of the region is the two accumulators, each at anything, and the other regions' staging buffers. -/
theorem scopedRest2_split (c : Dev nD) :
    (Pipeline.scopedRest (Ix := Unit) (Name := ℕ) (U := Pipeline.UD sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ (∃ f : Buf (Elt F) ((c : Thread nD τ).loc cc2_scratch1), ((c : Thread nD τ).loc cc2_scratch1) ↦{fullShare} f)
          ∗ rest2 (F := F) c) := by
  unfold rest2
  rw [Pipeline.scopedRest_eq_of_list spec2 c [cc0_stg0_0, cc0_stg0_1, cc0_stg1_0, cc0_stg1_1, cc0_stg2_0, cc0_stg3_0, cc0_stg4_0, cc0_stg5_0, cc0_stg5_1, cc1_stg0_0, cc1_stg0_1, cc1_stg1_0, cc1_stg1_1, cc1_stg2_0, cc1_stg3_0, cc1_stg4_0, cc1_stg5_0, cc1_stg5_1, cc2_scratch0, cc2_scratch1] (by decide) (by decide),
    ← bigSep_eq_bigSepL [cc0_stg0_0, cc0_stg0_1, cc0_stg1_0, cc0_stg1_1, cc0_stg2_0, cc0_stg3_0, cc0_stg4_0, cc0_stg5_0, cc0_stg5_1, cc1_stg0_0, cc1_stg0_1, cc1_stg1_0, cc1_stg1_1, cc1_stg2_0, cc1_stg3_0, cc1_stg4_0, cc1_stg5_0, cc1_stg5_1, cc2_scratch0, cc2_scratch1] (by decide),
    show ([cc0_stg0_0, cc0_stg0_1, cc0_stg1_0, cc0_stg1_1, cc0_stg2_0, cc0_stg3_0, cc0_stg4_0, cc0_stg5_0, cc0_stg5_1, cc1_stg0_0, cc1_stg0_1, cc1_stg1_0, cc1_stg1_1, cc1_stg2_0, cc1_stg3_0, cc1_stg4_0, cc1_stg5_0, cc1_stg5_1, cc2_scratch0, cc2_scratch1] : List (Ref sig .tc)).toFinset
        = insert cc2_scratch0 (insert cc2_scratch1 ([cc0_stg0_0, cc0_stg0_1, cc0_stg1_0, cc0_stg1_1, cc0_stg2_0, cc0_stg3_0, cc0_stg4_0, cc0_stg5_0, cc0_stg5_1, cc1_stg0_0, cc1_stg0_1, cc1_stg1_0, cc1_stg1_1, cc1_stg2_0, cc1_stg3_0, cc1_stg4_0, cc1_stg5_0, cc1_stg5_1] : List (Ref sig .tc)).toFinset) from by decide,
    bigSep_insert (by decide), bigSep_insert (by decide)]
  rfl

/-- What the launch hands the region, with the accumulators as memrefs owned at anything. -/
theorem PhiA2_eq (c : Dev nD) :
    (Pipeline.ΦA spec2 c : sProp 𝕄)
      = iprop(((∃ d, owns (c : Thread nD τ) scSum fullShare d) ∗ (∃ d, owns (c : Thread nD τ) scCnt fullShare d) ∗ rest2 (F := F) c)
          ∗ (∃ r, prngReg c r)) := by
  unfold Pipeline.ΦA; rw [scopedRest2_split]; simp only [scSum, scCnt, owns_whole]; try rfl

/-- After point `n` the invariant holds the accumulators at what that point left. -/
theorem Phi2_succ (c : Dev nD) (n : ℕ) (hn : n < cfg2.N) :
    Phi2 V c (n + 1) hn = iprop(owns (c : Thread nD τ) scSum fullShare (acc2 V c n hn).1 ∗ owns (c : Thread nD τ) scCnt fullShare (acc2 V c n hn).2
      ∗ rest2 (F := F) c ∗ (∃ r, prngReg c r)) := rfl

/-- Before a point that is not the first it holds them at what the point before left. -/
theorem Phi2_pos (c : Dev nD) (n : ℕ) (h : n ≤ cfg2.N) (hz : n ≠ 0) :
    Phi2 V c n h = iprop(owns (c : Thread nD τ) scSum fullShare (acc2 V c (n - 1) (by omega)).1
      ∗ owns (c : Thread nD τ) scCnt fullShare (acc2 V c (n - 1) (by omega)).2
      ∗ rest2 (F := F) c ∗ (∃ r, prngReg c r)) := by
  cases n with
  | zero => exact absurd rfl hz
  | succ n => rfl

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-- The accumulators after the first point: one step from zero. -/
theorem acc2_first (c : Dev nD) (t : Fin cfg2.N) (h0 : t.val = 0) :
    acc2 V c t.val t.isLt = (sumStep V c t (k2_pay3 (F := F)), cntStep V c t (k2_pay4 (F := F))) := by
  obtain ⟨n, hn⟩ := t
  cases n with
  | zero => rfl
  | succ n => exact absurd h0 (Nat.succ_ne_zero n)

/-- The accumulators after a later point: one step from what the point before left. -/
theorem acc2_next (c : Dev nD) (t : Fin cfg2.N) (h0 : t.val ≠ 0) :
    acc2 V c t.val t.isLt = (sumStep V c t (acc2 V c (t.val - 1) (Nat.lt_of_le_of_lt (Nat.sub_le _ _) t.isLt)).1,
      cntStep V c t (acc2 V c (t.val - 1) (Nat.lt_of_le_of_lt (Nat.sub_le _ _) t.isLt)).2) := by
  obtain ⟨n, hn⟩ := t
  cases n with
  | zero => exact absurd rfl h0
  | succ n => rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns: each input's buffer at its block, the output's at what the point leaves there (at the last
    point the result; elsewhere, the window being idle and not written back, what it was handed). -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ (dat2 V c).leavesExact 8 t)

set_option maxHeartbeats 4000000 in
/-- The body at any point. The inputs' memrefs hold their blocks. At the first point the invariant hands the body the two
    accumulators at anything and the body's first-point triple applies; at a later point it hands them at what the point
    before left, and the middle or the last point's triple applies. The invariant takes the accumulators back at this
    point's values; the other scoped buffers, the generator register and the core's dues pass through unread. Where the
    output window is idle its buffer goes back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl,
    show (dat2 V c).Φ t.succ = Phi2 V c (t.val + 1) t.isLt from rfl, Phi2_succ,
    after2_0, after2_1, after2_2, after2_3, after2_4, after2_5, after2_6, after2_7, Phi2_castSucc]
  have hN : t.val < 20 := lt_of_lt_of_eq t.isLt N_2
  by_cases h0 : t.val = 0
  · have h1 : ¬t.val = 19 := by omega
    rw [Dat.leavesExact_idle (dat2 V c) 8 t (idleAt2_8 t (fun h => h1 ((hcond2_1 t).mp h))) (noFlush2_8 t (fun h => h1 ((hcond2_1 t).mp h))),
      Phi2_zero V c _ _ h0, PhiA2_eq, acc2_first V c t h0]
    unfold sumStep cntStep; dsimp only
    iintro ⟨⟨⟨HS, HN, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_A c Set.univ (grid2.coords t) ((hcond2_0 t).mpr h0) (fun h => h1 ((hcond2_1 t).mp h))
      _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) ((dat2 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [HN]; · iexact HN
    iintro ⟨H0, H1, H2, H3, H4, H5, H6, H7, H8, HS, HN⟩
    isplitl [HS HN HR Hg]
    · isplitl [HS]; · iexact HS
      isplitl [HN]; · iexact HN
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases h1 : t.val = 19
    · rw [show (dat2 V c).leavesExact 8 t = owns (c : Thread nD τ) (st2_8 t) fullShare ((dat2 V c).after 8 t) from by
          unfold Dat.leavesExact; rw [liveAt2_8 t ((hcond2_1 t).mpr h1)],
        after2_8, Phi2_pos V c _ _ h0]
      unfold out2_8
      rw [acc2_next V c t h0]
      unfold sumStep cntStep; dsimp only
      iintro ⟨⟨HS, HN, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_C c Set.univ (grid2.coords t) (fun h => h0 ((hcond2_0 t).mp h)) ((hcond2_1 t).mpr h1)
        _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (acc2 V c (t.val - 1) (Nat.lt_of_le_of_lt (Nat.sub_le _ _) t.isLt)).1 (acc2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      isplitl [HN]; · iexact HN
      iintro ⟨H0, H1, H2, H3, H4, H5, H6, H7, H8, HS, HN⟩
      isplitl [HS HN HR Hg]
      · isplitl [HS]; · iexact HS
        isplitl [HN]; · iexact HN
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat2 V c) 8 t (idleAt2_8 t (fun h => h1 ((hcond2_1 t).mp h))) (noFlush2_8 t (fun h => h1 ((hcond2_1 t).mp h))),
        Phi2_pos V c _ _ h0, acc2_next V c t h0]
      unfold sumStep cntStep; dsimp only
      iintro ⟨⟨HS, HN, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_B c Set.univ (grid2.coords t) (fun h => h0 ((hcond2_0 t).mp h)) (fun h => h1 ((hcond2_1 t).mp h))
        _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) ((dat2 V c).before 8 t d8) (acc2 V c (t.val - 1) (Nat.lt_of_le_of_lt (Nat.sub_le _ _) t.isLt)).1 (acc2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      isplitl [HN]; · iexact HN
      iintro ⟨H0, H1, H2, H3, H4, H5, H6, H7, H8, HS, HN⟩
      isplitl [HS HN HR Hg]
      · isplitl [HS]; · iexact HS
        isplitl [HN]; · iexact HN
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point the invariant gives it back: the accumulators' contents are forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 20 := N_2; omega), PhiA2_eq]
  iintro ⟨HS, HN, HR, Hg⟩
  isplitr [Hg]
  · isplitl [HS]; · iexists _; iexact HS
    isplitl [HN]; · iexists _; iexact HN
    iexact HR
  iexact Hg

end Region2

end Cert.Kernel.Hand

end
-- ==== Proof.K.Run.lean ====
/-
  The run of the kernel's program: @main is three stretches of host operations, each followed by a kernel region.
  Here: the contents of the core's unscoped buffers at every boundary between two items — the launch memory, then what a
  stretch of host operations makes of the contents before it, then those contents with a region's output array at what the
  region's write-backs leave —, every pipeline's proof data at its region's entry contents, each region as a segment
  entered from one boundary's contents and left at the next, and the run: every weakly fair execution of @main terminates
  and every final memory holds each unscoped buffer at the last boundary's contents. The arguments are written by no item,
  so they end as launched; the result array ends at what region 2 leaves.
-/
import proofs.«431281_j6751688589931_2_alg».proof.Proof.Gen.Kernel.Launch
import proofs.«431281_j6751688589931_2_alg».proof.Proof.Gen.Kernel.Skeleton
import proofs.«431281_j6751688589931_2_alg».proof.Proof.Gen.Kernel.Points
import proofs.«431281_j6751688589931_2_alg».proof.Proof.Gen.Kernel.Regions
import proofs.«431281_j6751688589931_2_alg».proof.Proof.K.Reg0
import proofs.«431281_j6751688589931_2_alg».proof.Proof.K.Reg1
import proofs.«431281_j6751688589931_2_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

open Idealize.ShloMosaic.Pipeline (Seg HostSeg RegionSeg)

variable (m : (ℓ : Loc nD τ sig) → Buf (Elt F) ℓ) (ρ : Dev nD → PrngReg)

/-! ## The buffers' contents at the boundaries -/

/-- A valuation read at the TensorCore's references: what a region's proof data take. -/
abbrev atRefs (W : Dev nD → Valuation τ sig (Elt F)) : (c : Dev nD) → (b : Ref sig .tc) → Buf (Elt F) ((c : Thread nD τ).loc b) :=
  fun c b => W c b

/-- After the first host stretch (region 0's entry). -/
abbrev U1 (c : Dev nD) : Valuation τ sig (Elt F) := V1 m c
/-- After region 0: its arrays at what the pipeline leaves (an input as entered, the output its write-backs), every
    other buffer as entered. -/
def U2 (c : Dev nD) : Valuation τ sig (Elt F) :=
  Pipeline.withArrays spec0 c (U1 m c) fun w => (dat0 (atRefs (U1 m)) c).arrAt w cfg0.N
/-- After the second host stretch (region 1's entry). -/
abbrev U3 (c : Dev nD) : Valuation τ sig (Elt F) := StableHlo.after hostOps1 (U2 m c)
/-- After region 1. -/
def U4 (c : Dev nD) : Valuation τ sig (Elt F) :=
  Pipeline.withArrays spec1 c (U3 m c) fun w => (dat1 (atRefs (U3 m)) c).arrAt w cfg1.N
/-- After the third host stretch (region 2's entry). -/
abbrev U5 (c : Dev nD) : Valuation τ sig (Elt F) := StableHlo.after hostOps2 (U4 m c)
/-- After region 2: the end of @main. -/
def U6 (c : Dev nD) : Valuation τ sig (Elt F) :=
  Pipeline.withArrays spec2 c (U5 m c) fun w => (dat2 (atRefs (U5 m)) c).arrAt w cfg2.N

/-! ### What a region changes: its arrays hold what the pipeline leaves, every other buffer what it held -/

theorem U2_arr (c : Dev nD) (w : Fin cfg0.W) :
    U2 m c (Proc.devRef .tc (Pipeline.arrRef spec0 w)) = (dat0 (atRefs (U1 m)) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
theorem U4_arr (c : Dev nD) (w : Fin cfg1.W) :
    U4 m c (Proc.devRef .tc (Pipeline.arrRef spec1 w)) = (dat1 (atRefs (U3 m)) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m c (Proc.devRef .tc b) = U3 m c (Proc.devRef .tc b) := by
  unfold U4; exact Pipeline.withArrays_of_ne spec1 c _ _ b hb
theorem U6_arr (c : Dev nD) (w : Fin cfg2.W) :
    U6 m c (Proc.devRef .tc (Pipeline.arrRef spec2 w)) = (dat2 (atRefs (U5 m)) c).arrAt w cfg2.N := by
  unfold U6; exact Pipeline.withArrays_arr spec2 launch2.win.arr_inj c _ _ w
theorem U6_of_ne (c : Dev nD) (b : Ref sig .tc) (hb : ∀ w, Pipeline.arrRef spec2 w ≠ b) :
    U6 m c (Proc.devRef .tc b) = U5 m c (Proc.devRef .tc b) := by
  unfold U6; exact Pipeline.withArrays_of_ne spec2 c _ _ b hb

/-! ## The proof data family and the thread state -/

/-- Every pipeline's proof data, each at its region's entry contents (a literal match on the pipeline). -/
def pdats : (p : Fin 3) → (c : Dev nD) → Dat τ (Elt F) Unit ℕ (Pipeline.UD sig nD τ) ℕ (Pipeline.pin (pcfgs (F := F)) adm p) c
  | ⟨0, _⟩ => fun c => dat0 (atRefs (U1 m)) c
  | ⟨1, _⟩ => fun c => dat1 (atRefs (U3 m)) c
  | ⟨2, _⟩ => fun c => dat2 (atRefs (U5 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-- At a region's exit each of its arrays holds what the pipeline leaves and every other buffer what it held at entry. -/
theorem hF0 (c : Dev nD) (w : Fin cfg0.W) : (dat0 (atRefs (U1 m)) c).arrAt w cfg0.N = atRefs (U2 m) c (Pipeline.arrRef spec0 w) :=
  (U2_arr m c w).symm
theorem hrest0 (c : Dev nD) : ∀ b, b ∉ Finset.univ.image (Pipeline.arrRef spec0) → atRefs (U2 m) c b = atRefs (U1 m) c b :=
  fun b hb => U2_of_ne m c b fun w e => hb (Finset.mem_image.mpr ⟨w, Finset.mem_univ _, e⟩)
theorem hF1 (c : Dev nD) (w : Fin cfg1.W) : (dat1 (atRefs (U3 m)) c).arrAt w cfg1.N = atRefs (U4 m) c (Pipeline.arrRef spec1 w) :=
  (U4_arr m c w).symm
theorem hrest1 (c : Dev nD) : ∀ b, b ∉ Finset.univ.image (Pipeline.arrRef spec1) → atRefs (U4 m) c b = atRefs (U3 m) c b :=
  fun b hb => U4_of_ne m c b fun w e => hb (Finset.mem_image.mpr ⟨w, Finset.mem_univ _, e⟩)
theorem hF2 (c : Dev nD) (w : Fin cfg2.W) : (dat2 (atRefs (U5 m)) c).arrAt w cfg2.N = atRefs (U6 m) c (Pipeline.arrRef spec2 w) :=
  (U6_arr m c w).symm
theorem hrest2 (c : Dev nD) : ∀ b, b ∉ Finset.univ.image (Pipeline.arrRef spec2) → atRefs (U6 m) c b = atRefs (U5 m) c b :=
  fun b hb => U6_of_ne m c b fun w e => hb (Finset.mem_image.mpr ⟨w, Finset.mem_univ _, e⟩)

/-! ## The regions as segments -/

-- a library lemma stated over the pinned configuration unifies with the printed one only when unification may unfold plain
-- definitions in a metavariable's type
set_option backward.isDefEq.respectTransparency.types false in
/-- Region 0 over the thread state "every unscoped buffer at the boundary's contents, the generator register at some
    state, nothing owed": its arrays are split out of the unscoped buffers at entry and put back at the exit contents; the
    generator register goes into the region's invariant and comes back; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (atRefs (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (atRefs (U1 m) c) (atRefs (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state "every unscoped buffer at the boundary's contents, the generator register at some
    state, nothing owed": its arrays are split out of the unscoped buffers at entry and put back at the exit contents; the
    generator register goes into the region's invariant and comes back; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (atRefs (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (atRefs (U3 m) c) (atRefs (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state "every unscoped buffer at the boundary's contents, the generator register at some
    state, nothing owed": its arrays are split out of the unscoped buffers at entry and put back at the exit contents; the
    generator register goes into the region's invariant and comes back; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (atRefs (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (atRefs (U5 m)) c)
    unfold Pipeline.ΦA
    iintro ⟨Hp, -, Hr⟩
    isplitl [Hr]; · iexact Hr
    iexact Hp
  hout c := by
    rw [Pipeline.ownSems0_none]
    refine BIBase.Entails.trans (hout2 (atRefs (U5 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (atRefs (U5 m) c) (atRefs (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- A host stretch as a segment over the unscoped references from the contents `W`, `R` riding along: it is left with
    those references at what the stretch's operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's six items in order. -/
abbrev segs : List (Pipeline.Seg (pcfgs (F := F)) adm (pdats m) () defs₀ 𝒱₀ L lv) :=
  [ .host (hseg hostOps0 hostOps0_sub hostOps0_fresh (fun c => V0 m c)),
    .region (reg0 m),
    .host (hseg hostOps1 hostOps1_sub hostOps1_fresh (U2 m)),
    .region (reg1 m),
    .host (hseg hostOps2 hostOps2_sub hostOps2_fresh (U4 m)),
    .region (reg2 m) ]

/-- @main IS the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents, the generator
    register at some state. -/
abbrev Tₙ (c : Dev nD) : sProp 𝕄 := iprop(StableHlo.held (c : Thread nD τ) (Pipeline.ucRefs τ sig) (U6 m c) ∗ ∃ r, prngReg c r)

set_option backward.isDefEq.respectTransparency.types false in
/-- THE RUN: from any memory with zero counters, every weakly fair execution of @main on the TensorCores terminates,
    nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U6 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (U6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun s h c => h c)

/-! ## The arguments end as launched

No host operation writes an argument and no region's output is one: through a host stretch an argument's buffer is
untouched, through a region it is either no array of the region or an input window's array, which ends as entered. -/

theorem U1_main_arg0 (c : Dev nD) : U1 m c main_arg0 = m ((c : Thread nD τ).loc main_arg0) := (V1_of m c main_arg0 (by decide)).trans rfl
theorem U2_main_arg0 (c : Dev nD) : U2 m c main_arg0 = m ((c : Thread nD τ).loc main_arg0) := (U2_of_ne m c main_arg0 (by decide)).trans (U1_main_arg0 m c)
theorem U3_main_arg0 (c : Dev nD) : U3 m c main_arg0 = m ((c : Thread nD τ).loc main_arg0) := (StableHlo.after_of_writes_sub hostOps1 _ hostOps1_writes (by decide : main_arg0 ∉ hostOps1_W)).trans (U2_main_arg0 m c)
theorem U4_main_arg0 (c : Dev nD) : U4 m c main_arg0 = m ((c : Thread nD τ).loc main_arg0) := (U4_of_ne m c main_arg0 (by decide)).trans (U3_main_arg0 m c)
theorem U5_main_arg0 (c : Dev nD) : U5 m c main_arg0 = m ((c : Thread nD τ).loc main_arg0) := (StableHlo.after_of_writes_sub hostOps2 _ hostOps2_writes (by decide : main_arg0 ∉ hostOps2_W)).trans (U4_main_arg0 m c)
theorem U6_main_arg0 (c : Dev nD) : U6 m c main_arg0 = m ((c : Thread nD τ).loc main_arg0) := (U6_of_ne m c main_arg0 (by decide)).trans (U5_main_arg0 m c)
theorem U1_main_arg1 (c : Dev nD) : U1 m c main_arg1 = m ((c : Thread nD τ).loc main_arg1) := (V1_of m c main_arg1 (by decide)).trans rfl
theorem U2_main_arg1 (c : Dev nD) : U2 m c main_arg1 = m ((c : Thread nD τ).loc main_arg1) := (U2_of_ne m c main_arg1 (by decide)).trans (U1_main_arg1 m c)
theorem U3_main_arg1 (c : Dev nD) : U3 m c main_arg1 = m ((c : Thread nD τ).loc main_arg1) := (StableHlo.after_of_writes_sub hostOps1 _ hostOps1_writes (by decide : main_arg1 ∉ hostOps1_W)).trans (U2_main_arg1 m c)
theorem U4_main_arg1 (c : Dev nD) : U4 m c main_arg1 = m ((c : Thread nD τ).loc main_arg1) := (U4_of_ne m c main_arg1 (by decide)).trans (U3_main_arg1 m c)
theorem U5_main_arg1 (c : Dev nD) : U5 m c main_arg1 = m ((c : Thread nD τ).loc main_arg1) := (StableHlo.after_of_writes_sub hostOps2 _ hostOps2_writes (by decide : main_arg1 ∉ hostOps2_W)).trans (U4_main_arg1 m c)
theorem U6_main_arg1 (c : Dev nD) : U6 m c main_arg1 = m ((c : Thread nD τ).loc main_arg1) := (U6_of_ne m c main_arg1 (by decide)).trans (U5_main_arg1 m c)
theorem U1_main_arg2 (c : Dev nD) : U1 m c main_arg2 = m ((c : Thread nD τ).loc main_arg2) := (V1_of m c main_arg2 (by decide)).trans rfl
theorem U2_main_arg2 (c : Dev nD) : U2 m c main_arg2 = m ((c : Thread nD τ).loc main_arg2) := (U2_of_ne m c main_arg2 (by decide)).trans (U1_main_arg2 m c)
theorem U3_main_arg2 (c : Dev nD) : U3 m c main_arg2 = m ((c : Thread nD τ).loc main_arg2) := (StableHlo.after_of_writes_sub hostOps1 _ hostOps1_writes (by decide : main_arg2 ∉ hostOps1_W)).trans (U2_main_arg2 m c)
theorem U4_main_arg2 (c : Dev nD) : U4 m c main_arg2 = m ((c : Thread nD τ).loc main_arg2) := (U4_of_ne m c main_arg2 (by decide)).trans (U3_main_arg2 m c)
theorem U5_main_arg2 (c : Dev nD) : U5 m c main_arg2 = m ((c : Thread nD τ).loc main_arg2) := (StableHlo.after_of_writes_sub hostOps2 _ hostOps2_writes (by decide : main_arg2 ∉ hostOps2_W)).trans (U4_main_arg2 m c)
theorem U6_main_arg2 (c : Dev nD) : U6 m c main_arg2 = m ((c : Thread nD τ).loc main_arg2) := (U6_of_ne m c main_arg2 (by decide)).trans (U5_main_arg2 m c)
theorem U1_main_arg3 (c : Dev nD) : U1 m c main_arg3 = m ((c : Thread nD τ).loc main_arg3) := (V1_of m c main_arg3 (by decide)).trans rfl
theorem U2_main_arg3 (c : Dev nD) : U2 m c main_arg3 = m ((c : Thread nD τ).loc main_arg3) := (U2_of_ne m c main_arg3 (by decide)).trans (U1_main_arg3 m c)
theorem U3_main_arg3 (c : Dev nD) : U3 m c main_arg3 = m ((c : Thread nD τ).loc main_arg3) := (StableHlo.after_of_writes_sub hostOps1 _ hostOps1_writes (by decide : main_arg3 ∉ hostOps1_W)).trans (U2_main_arg3 m c)
theorem U4_main_arg3 (c : Dev nD) : U4 m c main_arg3 = m ((c : Thread nD τ).loc main_arg3) := (U4_of_ne m c main_arg3 (by decide)).trans (U3_main_arg3 m c)
theorem U5_main_arg3 (c : Dev nD) : U5 m c main_arg3 = m ((c : Thread nD τ).loc main_arg3) := (StableHlo.after_of_writes_sub hostOps2 _ hostOps2_writes (by decide : main_arg3 ∉ hostOps2_W)).trans (U4_main_arg3 m c)
theorem U6_main_arg3 (c : Dev nD) : U6 m c main_arg3 = m ((c : Thread nD τ).loc main_arg3) := (U6_of_ne m c main_arg3 (by decide)).trans (U5_main_arg3 m c)
theorem U1_main_arg4 (c : Dev nD) : U1 m c main_arg4 = m ((c : Thread nD τ).loc main_arg4) := (V1_of m c main_arg4 (by decide)).trans rfl
theorem U2_main_arg4 (c : Dev nD) : U2 m c main_arg4 = m ((c : Thread nD τ).loc main_arg4) := (U2_of_ne m c main_arg4 (by decide)).trans (U1_main_arg4 m c)
theorem U3_main_arg4 (c : Dev nD) : U3 m c main_arg4 = m ((c : Thread nD τ).loc main_arg4) := (StableHlo.after_of_writes_sub hostOps1 _ hostOps1_writes (by decide : main_arg4 ∉ hostOps1_W)).trans (U2_main_arg4 m c)
theorem U4_main_arg4 (c : Dev nD) : U4 m c main_arg4 = m ((c : Thread nD τ).loc main_arg4) := (U4_of_ne m c main_arg4 (by decide)).trans (U3_main_arg4 m c)
theorem U5_main_arg4 (c : Dev nD) : U5 m c main_arg4 = m ((c : Thread nD τ).loc main_arg4) := (StableHlo.after_of_writes_sub hostOps2 _ hostOps2_writes (by decide : main_arg4 ∉ hostOps2_W)).trans (U4_main_arg4 m c)
theorem U6_main_arg4 (c : Dev nD) : U6 m c main_arg4 = m ((c : Thread nD τ).loc main_arg4) := (U6_of_ne m c main_arg4 (by decide)).trans (U5_main_arg4 m c)
theorem U1_main_arg5 (c : Dev nD) : U1 m c main_arg5 = m ((c : Thread nD τ).loc main_arg5) := (V1_of m c main_arg5 (by decide)).trans rfl
theorem U2_main_arg5 (c : Dev nD) : U2 m c main_arg5 = m ((c : Thread nD τ).loc main_arg5) := (U2_of_ne m c main_arg5 (by decide)).trans (U1_main_arg5 m c)
theorem U3_main_arg5 (c : Dev nD) : U3 m c main_arg5 = m ((c : Thread nD τ).loc main_arg5) := (StableHlo.after_of_writes_sub hostOps1 _ hostOps1_writes (by decide : main_arg5 ∉ hostOps1_W)).trans (U2_main_arg5 m c)
theorem U4_main_arg5 (c : Dev nD) : U4 m c main_arg5 = m ((c : Thread nD τ).loc main_arg5) := (U4_of_ne m c main_arg5 (by decide)).trans (U3_main_arg5 m c)
theorem U5_main_arg5 (c : Dev nD) : U5 m c main_arg5 = m ((c : Thread nD τ).loc main_arg5) := (StableHlo.after_of_writes_sub hostOps2 _ hostOps2_writes (by decide : main_arg5 ∉ hostOps2_W)).trans (U4_main_arg5 m c)
theorem U6_main_arg5 (c : Dev nD) : U6 m c main_arg5 = m ((c : Thread nD τ).loc main_arg5) := (U6_of_ne m c main_arg5 (by decide)).trans (U5_main_arg5 m c)
theorem U1_main_arg6 (c : Dev nD) : U1 m c main_arg6 = m ((c : Thread nD τ).loc main_arg6) := (V1_of m c main_arg6 (by decide)).trans rfl
theorem U2_main_arg6 (c : Dev nD) : U2 m c main_arg6 = m ((c : Thread nD τ).loc main_arg6) := (U2_of_ne m c main_arg6 (by decide)).trans (U1_main_arg6 m c)
theorem U3_main_arg6 (c : Dev nD) : U3 m c main_arg6 = m ((c : Thread nD τ).loc main_arg6) := (StableHlo.after_of_writes_sub hostOps1 _ hostOps1_writes (by decide : main_arg6 ∉ hostOps1_W)).trans (U2_main_arg6 m c)
theorem U4_main_arg6 (c : Dev nD) : U4 m c main_arg6 = m ((c : Thread nD τ).loc main_arg6) := (U4_of_ne m c main_arg6 (by decide)).trans (U3_main_arg6 m c)
theorem U5_main_arg6 (c : Dev nD) : U5 m c main_arg6 = m ((c : Thread nD τ).loc main_arg6) := (StableHlo.after_of_writes_sub hostOps2 _ hostOps2_writes (by decide : main_arg6 ∉ hostOps2_W)).trans (U4_main_arg6 m c)
theorem U6_main_arg6 (c : Dev nD) : U6 m c main_arg6 = m ((c : Thread nD τ).loc main_arg6) := (U6_of_ne m c main_arg6 (by decide)).trans (U5_main_arg6 m c)
theorem U1_main_arg7 (c : Dev nD) : U1 m c main_arg7 = m ((c : Thread nD τ).loc main_arg7) := (V1_of m c main_arg7 (by decide)).trans rfl
theorem U2_main_arg7 (c : Dev nD) : U2 m c main_arg7 = m ((c : Thread nD τ).loc main_arg7) := (U2_arr m c 2).trans (((dat0 (atRefs (U1 m)) c).arrAt_in 2 rfl _).trans ((A_eq0 (atRefs (U1 m)) c 2).trans (U1_main_arg7 m c)))
theorem U3_main_arg7 (c : Dev nD) : U3 m c main_arg7 = m ((c : Thread nD τ).loc main_arg7) := (StableHlo.after_of_writes_sub hostOps1 _ hostOps1_writes (by decide : main_arg7 ∉ hostOps1_W)).trans (U2_main_arg7 m c)
theorem U4_main_arg7 (c : Dev nD) : U4 m c main_arg7 = m ((c : Thread nD τ).loc main_arg7) := (U4_of_ne m c main_arg7 (by decide)).trans (U3_main_arg7 m c)
theorem U5_main_arg7 (c : Dev nD) : U5 m c main_arg7 = m ((c : Thread nD τ).loc main_arg7) := (StableHlo.after_of_writes_sub hostOps2 _ hostOps2_writes (by decide : main_arg7 ∉ hostOps2_W)).trans (U4_main_arg7 m c)
theorem U6_main_arg7 (c : Dev nD) : U6 m c main_arg7 = m ((c : Thread nD τ).loc main_arg7) := (U6_of_ne m c main_arg7 (by decide)).trans (U5_main_arg7 m c)
theorem U1_main_arg8 (c : Dev nD) : U1 m c main_arg8 = m ((c : Thread nD τ).loc main_arg8) := (V1_of m c main_arg8 (by decide)).trans rfl
theorem U2_main_arg8 (c : Dev nD) : U2 m c main_arg8 = m ((c : Thread nD τ).loc main_arg8) := (U2_of_ne m c main_arg8 (by decide)).trans (U1_main_arg8 m c)
theorem U3_main_arg8 (c : Dev nD) : U3 m c main_arg8 = m ((c : Thread nD τ).loc main_arg8) := (StableHlo.after_of_writes_sub hostOps1 _ hostOps1_writes (by decide : main_arg8 ∉ hostOps1_W)).trans (U2_main_arg8 m c)
theorem U4_main_arg8 (c : Dev nD) : U4 m c main_arg8 = m ((c : Thread nD τ).loc main_arg8) := (U4_of_ne m c main_arg8 (by decide)).trans (U3_main_arg8 m c)
theorem U5_main_arg8 (c : Dev nD) : U5 m c main_arg8 = m ((c : Thread nD τ).loc main_arg8) := (StableHlo.after_of_writes_sub hostOps2 _ hostOps2_writes (by decide : main_arg8 ∉ hostOps2_W)).trans (U4_main_arg8 m c)
theorem U6_main_arg8 (c : Dev nD) : U6 m c main_arg8 = m ((c : Thread nD τ).loc main_arg8) := (U6_of_ne m c main_arg8 (by decide)).trans (U5_main_arg8 m c)
theorem U1_main_arg9 (c : Dev nD) : U1 m c main_arg9 = m ((c : Thread nD τ).loc main_arg9) := (V1_of m c main_arg9 (by decide)).trans rfl
theorem U2_main_arg9 (c : Dev nD) : U2 m c main_arg9 = m ((c : Thread nD τ).loc main_arg9) := (U2_arr m c 4).trans (((dat0 (atRefs (U1 m)) c).arrAt_in 4 rfl _).trans ((A_eq0 (atRefs (U1 m)) c 4).trans (U1_main_arg9 m c)))
theorem U3_main_arg9 (c : Dev nD) : U3 m c main_arg9 = m ((c : Thread nD τ).loc main_arg9) := (StableHlo.after_of_writes_sub hostOps1 _ hostOps1_writes (by decide : main_arg9 ∉ hostOps1_W)).trans (U2_main_arg9 m c)
theorem U4_main_arg9 (c : Dev nD) : U4 m c main_arg9 = m ((c : Thread nD τ).loc main_arg9) := (U4_of_ne m c main_arg9 (by decide)).trans (U3_main_arg9 m c)
theorem U5_main_arg9 (c : Dev nD) : U5 m c main_arg9 = m ((c : Thread nD τ).loc main_arg9) := (StableHlo.after_of_writes_sub hostOps2 _ hostOps2_writes (by decide : main_arg9 ∉ hostOps2_W)).trans (U4_main_arg9 m c)
theorem U6_main_arg9 (c : Dev nD) : U6 m c main_arg9 = m ((c : Thread nD τ).loc main_arg9) := (U6_of_ne m c main_arg9 (by decide)).trans (U5_main_arg9 m c)
theorem U1_main_arg10 (c : Dev nD) : U1 m c main_arg10 = m ((c : Thread nD τ).loc main_arg10) := (V1_of m c main_arg10 (by decide)).trans rfl
theorem U2_main_arg10 (c : Dev nD) : U2 m c main_arg10 = m ((c : Thread nD τ).loc main_arg10) := (U2_of_ne m c main_arg10 (by decide)).trans (U1_main_arg10 m c)
theorem U3_main_arg10 (c : Dev nD) : U3 m c main_arg10 = m ((c : Thread nD τ).loc main_arg10) := (StableHlo.after_of_writes_sub hostOps1 _ hostOps1_writes (by decide : main_arg10 ∉ hostOps1_W)).trans (U2_main_arg10 m c)
theorem U4_main_arg10 (c : Dev nD) : U4 m c main_arg10 = m ((c : Thread nD τ).loc main_arg10) := (U4_arr m c 2).trans (((dat1 (atRefs (U3 m)) c).arrAt_in 2 rfl _).trans ((A_eq1 (atRefs (U3 m)) c 2).trans (U3_main_arg10 m c)))
theorem U5_main_arg10 (c : Dev nD) : U5 m c main_arg10 = m ((c : Thread nD τ).loc main_arg10) := (StableHlo.after_of_writes_sub hostOps2 _ hostOps2_writes (by decide : main_arg10 ∉ hostOps2_W)).trans (U4_main_arg10 m c)
theorem U6_main_arg10 (c : Dev nD) : U6 m c main_arg10 = m ((c : Thread nD τ).loc main_arg10) := (U6_of_ne m c main_arg10 (by decide)).trans (U5_main_arg10 m c)
theorem U1_main_arg11 (c : Dev nD) : U1 m c main_arg11 = m ((c : Thread nD τ).loc main_arg11) := (V1_of m c main_arg11 (by decide)).trans rfl
theorem U2_main_arg11 (c : Dev nD) : U2 m c main_arg11 = m ((c : Thread nD τ).loc main_arg11) := (U2_of_ne m c main_arg11 (by decide)).trans (U1_main_arg11 m c)
theorem U3_main_arg11 (c : Dev nD) : U3 m c main_arg11 = m ((c : Thread nD τ).loc main_arg11) := (StableHlo.after_of_writes_sub hostOps1 _ hostOps1_writes (by decide : main_arg11 ∉ hostOps1_W)).trans (U2_main_arg11 m c)
theorem U4_main_arg11 (c : Dev nD) : U4 m c main_arg11 = m ((c : Thread nD τ).loc main_arg11) := (U4_of_ne m c main_arg11 (by decide)).trans (U3_main_arg11 m c)
theorem U5_main_arg11 (c : Dev nD) : U5 m c main_arg11 = m ((c : Thread nD τ).loc main_arg11) := (StableHlo.after_of_writes_sub hostOps2 _ hostOps2_writes (by decide : main_arg11 ∉ hostOps2_W)).trans (U4_main_arg11 m c)
theorem U6_main_arg11 (c : Dev nD) : U6 m c main_arg11 = m ((c : Thread nD τ).loc main_arg11) := (U6_of_ne m c main_arg11 (by decide)).trans (U5_main_arg11 m c)
theorem U1_main_arg12 (c : Dev nD) : U1 m c main_arg12 = m ((c : Thread nD τ).loc main_arg12) := (V1_of m c main_arg12 (by decide)).trans rfl
theorem U2_main_arg12 (c : Dev nD) : U2 m c main_arg12 = m ((c : Thread nD τ).loc main_arg12) := (U2_of_ne m c main_arg12 (by decide)).trans (U1_main_arg12 m c)
theorem U3_main_arg12 (c : Dev nD) : U3 m c main_arg12 = m ((c : Thread nD τ).loc main_arg12) := (StableHlo.after_of_writes_sub hostOps1 _ hostOps1_writes (by decide : main_arg12 ∉ hostOps1_W)).trans (U2_main_arg12 m c)
theorem U4_main_arg12 (c : Dev nD) : U4 m c main_arg12 = m ((c : Thread nD τ).loc main_arg12) := (U4_arr m c 4).trans (((dat1 (atRefs (U3 m)) c).arrAt_in 4 rfl _).trans ((A_eq1 (atRefs (U3 m)) c 4).trans (U3_main_arg12 m c)))
theorem U5_main_arg12 (c : Dev nD) : U5 m c main_arg12 = m ((c : Thread nD τ).loc main_arg12) := (StableHlo.after_of_writes_sub hostOps2 _ hostOps2_writes (by decide : main_arg12 ∉ hostOps2_W)).trans (U4_main_arg12 m c)
theorem U6_main_arg12 (c : Dev nD) : U6 m c main_arg12 = m ((c : Thread nD τ).loc main_arg12) := (U6_of_ne m c main_arg12 (by decide)).trans (U5_main_arg12 m c)
theorem U1_main_arg13 (c : Dev nD) : U1 m c main_arg13 = m ((c : Thread nD τ).loc main_arg13) := (V1_of m c main_arg13 (by decide)).trans rfl
theorem U2_main_arg13 (c : Dev nD) : U2 m c main_arg13 = m ((c : Thread nD τ).loc main_arg13) := (U2_of_ne m c main_arg13 (by decide)).trans (U1_main_arg13 m c)
theorem U3_main_arg13 (c : Dev nD) : U3 m c main_arg13 = m ((c : Thread nD τ).loc main_arg13) := (StableHlo.after_of_writes_sub hostOps1 _ hostOps1_writes (by decide : main_arg13 ∉ hostOps1_W)).trans (U2_main_arg13 m c)
theorem U4_main_arg13 (c : Dev nD) : U4 m c main_arg13 = m ((c : Thread nD τ).loc main_arg13) := (U4_of_ne m c main_arg13 (by decide)).trans (U3_main_arg13 m c)
theorem U5_main_arg13 (c : Dev nD) : U5 m c main_arg13 = m ((c : Thread nD τ).loc main_arg13) := (StableHlo.after_of_writes_sub hostOps2 _ hostOps2_writes (by decide : main_arg13 ∉ hostOps2_W)).trans (U4_main_arg13 m c)
theorem U6_main_arg13 (c : Dev nD) : U6 m c main_arg13 = m ((c : Thread nD τ).loc main_arg13) := (U6_arr m c 3).trans (((dat2 (atRefs (U5 m)) c).arrAt_in 3 rfl _).trans ((A_eq2 (atRefs (U5 m)) c 3).trans (U5_main_arg13 m c)))
theorem U1_main_arg14 (c : Dev nD) : U1 m c main_arg14 = m ((c : Thread nD τ).loc main_arg14) := (V1_of m c main_arg14 (by decide)).trans rfl
theorem U2_main_arg14 (c : Dev nD) : U2 m c main_arg14 = m ((c : Thread nD τ).loc main_arg14) := (U2_of_ne m c main_arg14 (by decide)).trans (U1_main_arg14 m c)
theorem U3_main_arg14 (c : Dev nD) : U3 m c main_arg14 = m ((c : Thread nD τ).loc main_arg14) := (StableHlo.after_of_writes_sub hostOps1 _ hostOps1_writes (by decide : main_arg14 ∉ hostOps1_W)).trans (U2_main_arg14 m c)
theorem U4_main_arg14 (c : Dev nD) : U4 m c main_arg14 = m ((c : Thread nD τ).loc main_arg14) := (U4_of_ne m c main_arg14 (by decide)).trans (U3_main_arg14 m c)
theorem U5_main_arg14 (c : Dev nD) : U5 m c main_arg14 = m ((c : Thread nD τ).loc main_arg14) := (StableHlo.after_of_writes_sub hostOps2 _ hostOps2_writes (by decide : main_arg14 ∉ hostOps2_W)).trans (U4_main_arg14 m c)
theorem U6_main_arg14 (c : Dev nD) : U6 m c main_arg14 = m ((c : Thread nD τ).loc main_arg14) := (U6_of_ne m c main_arg14 (by decide)).trans (U5_main_arg14 m c)
theorem U1_main_arg15 (c : Dev nD) : U1 m c main_arg15 = m ((c : Thread nD τ).loc main_arg15) := (V1_of m c main_arg15 (by decide)).trans rfl
theorem U2_main_arg15 (c : Dev nD) : U2 m c main_arg15 = m ((c : Thread nD τ).loc main_arg15) := (U2_of_ne m c main_arg15 (by decide)).trans (U1_main_arg15 m c)
theorem U3_main_arg15 (c : Dev nD) : U3 m c main_arg15 = m ((c : Thread nD τ).loc main_arg15) := (StableHlo.after_of_writes_sub hostOps1 _ hostOps1_writes (by decide : main_arg15 ∉ hostOps1_W)).trans (U2_main_arg15 m c)
theorem U4_main_arg15 (c : Dev nD) : U4 m c main_arg15 = m ((c : Thread nD τ).loc main_arg15) := (U4_of_ne m c main_arg15 (by decide)).trans (U3_main_arg15 m c)
theorem U5_main_arg15 (c : Dev nD) : U5 m c main_arg15 = m ((c : Thread nD τ).loc main_arg15) := (StableHlo.after_of_writes_sub hostOps2 _ hostOps2_writes (by decide : main_arg15 ∉ hostOps2_W)).trans (U4_main_arg15 m c)
theorem U6_main_arg15 (c : Dev nD) : U6 m c main_arg15 = m ((c : Thread nD τ).loc main_arg15) := (U6_arr m c 5).trans (((dat2 (atRefs (U5 m)) c).arrAt_in 5 rfl _).trans ((A_eq2 (atRefs (U5 m)) c 5).trans (U5_main_arg15 m c)))
theorem U1_main_arg16 (c : Dev nD) : U1 m c main_arg16 = m ((c : Thread nD τ).loc main_arg16) := (V1_of m c main_arg16 (by decide)).trans rfl
theorem U2_main_arg16 (c : Dev nD) : U2 m c main_arg16 = m ((c : Thread nD τ).loc main_arg16) := (U2_of_ne m c main_arg16 (by decide)).trans (U1_main_arg16 m c)
theorem U3_main_arg16 (c : Dev nD) : U3 m c main_arg16 = m ((c : Thread nD τ).loc main_arg16) := (StableHlo.after_of_writes_sub hostOps1 _ hostOps1_writes (by decide : main_arg16 ∉ hostOps1_W)).trans (U2_main_arg16 m c)
theorem U4_main_arg16 (c : Dev nD) : U4 m c main_arg16 = m ((c : Thread nD τ).loc main_arg16) := (U4_of_ne m c main_arg16 (by decide)).trans (U3_main_arg16 m c)
theorem U5_main_arg16 (c : Dev nD) : U5 m c main_arg16 = m ((c : Thread nD τ).loc main_arg16) := (StableHlo.after_of_writes_sub hostOps2 _ hostOps2_writes (by decide : main_arg16 ∉ hostOps2_W)).trans (U4_main_arg16 m c)
theorem U6_main_arg16 (c : Dev nD) : U6 m c main_arg16 = m ((c : Thread nD τ).loc main_arg16) := (U6_arr m c 6).trans (((dat2 (atRefs (U5 m)) c).arrAt_in 6 rfl _).trans ((A_eq2 (atRefs (U5 m)) c 6).trans (U5_main_arg16 m c)))
theorem U1_main_arg17 (c : Dev nD) : U1 m c main_arg17 = m ((c : Thread nD τ).loc main_arg17) := (V1_of m c main_arg17 (by decide)).trans rfl
theorem U2_main_arg17 (c : Dev nD) : U2 m c main_arg17 = m ((c : Thread nD τ).loc main_arg17) := (U2_of_ne m c main_arg17 (by decide)).trans (U1_main_arg17 m c)
theorem U3_main_arg17 (c : Dev nD) : U3 m c main_arg17 = m ((c : Thread nD τ).loc main_arg17) := (StableHlo.after_of_writes_sub hostOps1 _ hostOps1_writes (by decide : main_arg17 ∉ hostOps1_W)).trans (U2_main_arg17 m c)
theorem U4_main_arg17 (c : Dev nD) : U4 m c main_arg17 = m ((c : Thread nD τ).loc main_arg17) := (U4_of_ne m c main_arg17 (by decide)).trans (U3_main_arg17 m c)
theorem U5_main_arg17 (c : Dev nD) : U5 m c main_arg17 = m ((c : Thread nD τ).loc main_arg17) := (StableHlo.after_of_writes_sub hostOps2 _ hostOps2_writes (by decide : main_arg17 ∉ hostOps2_W)).trans (U4_main_arg17 m c)
theorem U6_main_arg17 (c : Dev nD) : U6 m c main_arg17 = m ((c : Thread nD τ).loc main_arg17) := (U6_of_ne m c main_arg17 (by decide)).trans (U5_main_arg17 m c)

/-! ## The frame, and the run with the result named -/

/-- THE FRAME: every weakly fair execution of @main terminates, nothing faulting, and every argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (U6_main_arg0 m c),
      (h c _ (mem_uc main_arg1 (by decide))).trans (U6_main_arg1 m c),
      (h c _ (mem_uc main_arg2 (by decide))).trans (U6_main_arg2 m c),
      (h c _ (mem_uc main_arg3 (by decide))).trans (U6_main_arg3 m c),
      (h c _ (mem_uc main_arg4 (by decide))).trans (U6_main_arg4 m c),
      (h c _ (mem_uc main_arg5 (by decide))).trans (U6_main_arg5 m c),
      (h c _ (mem_uc main_arg6 (by decide))).trans (U6_main_arg6 m c),
      (h c _ (mem_uc main_arg7 (by decide))).trans (U6_main_arg7 m c),
      (h c _ (mem_uc main_arg8 (by decide))).trans (U6_main_arg8 m c),
      (h c _ (mem_uc main_arg9 (by decide))).trans (U6_main_arg9 m c),
      (h c _ (mem_uc main_arg10 (by decide))).trans (U6_main_arg10 m c),
      (h c _ (mem_uc main_arg11 (by decide))).trans (U6_main_arg11 m c),
      (h c _ (mem_uc main_arg12 (by decide))).trans (U6_main_arg12 m c),
      (h c _ (mem_uc main_arg13 (by decide))).trans (U6_main_arg13 m c),
      (h c _ (mem_uc main_arg14 (by decide))).trans (U6_main_arg14 m c),
      (h c _ (mem_uc main_arg15 (by decide))).trans (U6_main_arg15 m c),
      (h c _ (mem_uc main_arg16 (by decide))).trans (U6_main_arg16 m c),
      (h c _ (mem_uc main_arg17 (by decide))).trans (U6_main_arg17 m c)⟩) (run_all m ρ)

/-- The same run with the result array named: it ends at what region 2 leaves in it. -/
theorem run_result : θ_run defs (onTc (τ := τ) (main (F := F))) ⟨m, fun _ => 0, ρ⟩ (fun r => ∀ c : Dev nD,
      r.2.mem ((c.tc : Thread nD τ).loc main_v60) = U6 m c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v60 (by decide)),
      (h c _ (mem_uc main_arg0 (by decide))).trans (U6_main_arg0 m c),
      (h c _ (mem_uc main_arg1 (by decide))).trans (U6_main_arg1 m c),
      (h c _ (mem_uc main_arg2 (by decide))).trans (U6_main_arg2 m c),
      (h c _ (mem_uc main_arg3 (by decide))).trans (U6_main_arg3 m c),
      (h c _ (mem_uc main_arg4 (by decide))).trans (U6_main_arg4 m c),
      (h c _ (mem_uc main_arg5 (by decide))).trans (U6_main_arg5 m c),
      (h c _ (mem_uc main_arg6 (by decide))).trans (U6_main_arg6 m c),
      (h c _ (mem_uc main_arg7 (by decide))).trans (U6_main_arg7 m c),
      (h c _ (mem_uc main_arg8 (by decide))).trans (U6_main_arg8 m c),
      (h c _ (mem_uc main_arg9 (by decide))).trans (U6_main_arg9 m c),
      (h c _ (mem_uc main_arg10 (by decide))).trans (U6_main_arg10 m c),
      (h c _ (mem_uc main_arg11 (by decide))).trans (U6_main_arg11 m c),
      (h c _ (mem_uc main_arg12 (by decide))).trans (U6_main_arg12 m c),
      (h c _ (mem_uc main_arg13 (by decide))).trans (U6_main_arg13 m c),
      (h c _ (mem_uc main_arg14 (by decide))).trans (U6_main_arg14 m c),
      (h c _ (mem_uc main_arg15 (by decide))).trans (U6_main_arg15 m c),
      (h c _ (mem_uc main_arg16 (by decide))).trans (U6_main_arg16 m c),
      (h c _ (mem_uc main_arg17 (by decide))).trans (U6_main_arg17 m c)⟩) (run_all m ρ)

end Cert.Kernel.Hand

end
-- ==== Proof.KI.Reg0.lean ====
/-
  Region 0 of the kernel's program: graph-convolution layer 1, one grid point per block of 8000 node rows.
  At a point the body reads the block of aggregated neighbour features and the block of node features (8000 x 4
  each), the two 4 x 64 weight matrices and the 1 x 64 bias row, and stores into the output block (8000 x 64)
      max ((agg · W_rel + x · W_root) + b, 0).
  Stated at any contents `V` of the core's buffers when the region is entered: each window's block at a point, what
  the body leaves in the output window's buffer (one store covering the whole block), the body's triple, the pipeline's
  proof data, and the body obligation at every point. The region keeps nothing between points: its invariant is the
  scoped rest and the generator register, untouched.
-/
import proofs.«431281_j6751688589931_2_alg».proof.Proof.Gen.KernelIdeal.Launch
import proofs.«431281_j6751688589931_2_alg».proof.Proof.Gen.KernelIdeal.Skeleton
import proofs.«431281_j6751688589931_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, whether the point fetches it or not: the
    row blocks are fetched at every point, the weights and the bias once (their block index never moves). -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole buffer -/

abbrev rA0 : Rect S8000x4 := Rect.unit (s := S8000x4) ![0, 0] S8000x4.size inb_S8000x4_S8000x4_0_0
abbrev rW0 : Rect S4x64 := Rect.unit (s := S4x64) ![0, 0] S4x64.size inb_S4x64_S4x64_0_0
abbrev rB0 : Rect S1x64 := Rect.unit (s := S1x64) ![0, 0] S1x64.size inb_S1x64_S1x64_0_0
abbrev rO0 : Rect S8000x64 := Rect.unit (s := S8000x64) ![0, 0] S8000x64.size inb_S8000x64_S8000x64_0_0

/-! ## What the body leaves in the output window's buffer -/

/-- The output block after the body, from the five input blocks (aggregate, features, W_rel, bias, W_root, in window
    order): its one store, of the layer's value. -/
def out0_5 (x0 x1 : Vec F S8000x4 .f32) (x2 : Vec F S4x64 .f32) (x3 : Vec F S1x64 .f32) (x4 : Vec F S4x64 .f32) : Vec F S8000x64 .f32 :=
  View.canon [⟨rO0, k0_pay1 (View.ld x0 rA0) (View.ld x1 rA0) (View.ld x2 rW0) (View.ld x4 rW0) (View.ld x3 rB0)⟩]

/-- The store covers the block. -/
theorem cover0_5 (p0 : Vec F S8000x64 .f32) (y : S8000x64.Idx) :
    ∃ pc ∈ ([⟨rO0, p0⟩] : List (View.Piece (Elt F) S8000x64 .f32)), y ∈ pc.1.set :=
  View.cover_of_tiled [⟨rO0, p0⟩] S8000x64.size (by rfl) y

/-! ## The body's triple -/

set_option maxHeartbeats 1000000 in
/-- The body on whole staging memrefs, the inputs' at contents `xW` and the output's at anything, runs to the
    continuation holding the inputs' as they were and the output's at `out0_5` of them. -/
theorem sound_kernel0 (c : Dev nD) (E : Set ℕ) (i : grid0.Coords)
    (arg1 : Memref sig .tc .vmem S8000x4 .f32) (harg1 : arg1.IsWhole) (arg2 : Memref sig .tc .vmem S8000x4 .f32) (harg2 : arg2.IsWhole)
    (arg3 : Memref sig .tc .vmem S4x64 .f32) (harg3 : arg3.IsWhole) (arg4 : Memref sig .tc .vmem S1x64 .f32) (harg4 : arg4.IsWhole)
    (arg5 : Memref sig .tc .vmem S4x64 .f32) (harg5 : arg5.IsWhole) (arg6 : Memref sig .tc .vmem S8000x64 .f32) (harg6 : arg6.IsWhole)
    (x0 x1 : Vec F S8000x4 .f32) (x2 : Vec F S4x64 .f32) (x3 : Vec F S1x64 .f32) (x4 : Vec F S4x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__graph_conv_kernel i arg1 harg1 arg2 harg2 arg3 harg3 arg4 harg4 arg5 harg5 arg6 harg6) K := by
  simp only [cc0__graph_conv_kernel_eq_skeleton]; unfold cc0__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them; after the body at point `t` each
    input's buffer at its block and the output's at `out0_5` of the input blocks; nothing kept between points;
    nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1.lean ====
/-
  Region 1 of the kernel's program: graph-convolution layer 2, one grid point per block of 8000 node rows.
  At a point the body reads the block of aggregated neighbour features and the block of node features (8000 x 64
  each), the two 64 x 64 weight matrices and the 1 x 64 bias row, and stores into the output block (8000 x 64)
      max ((agg · W_rel + x · W_root) + b, 0).
  Stated at any contents `V` of the core's buffers when the region is entered: each window's block at a point, what
  the body leaves in the output window's buffer (one store covering the whole block), the body's triple, the pipeline's
  proof data, and the body obligation at every point. The region keeps nothing between points: its invariant is the
  scoped rest and the generator register, untouched.
-/
import proofs.«431281_j6751688589931_2_alg».proof.Proof.Gen.KernelIdeal.Launch
import proofs.«431281_j6751688589931_2_alg».proof.Proof.Gen.KernelIdeal.Skeleton
import proofs.«431281_j6751688589931_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, whether the point fetches it or not: the
    row blocks are fetched at every point, the weights and the bias once (their block index never moves). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole buffer -/

abbrev rA1 : Rect S8000x64 := Rect.unit (s := S8000x64) ![0, 0] S8000x64.size inb_S8000x64_S8000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0
abbrev rO1 : Rect S8000x64 := Rect.unit (s := S8000x64) ![0, 0] S8000x64.size inb_S8000x64_S8000x64_0_0

/-! ## What the body leaves in the output window's buffer -/

/-- The output block after the body, from the five input blocks (aggregate, features, W_rel, bias, W_root, in window
    order): its one store, of the layer's value. -/
def out1_5 (x0 x1 : Vec F S8000x64 .f32) (x2 : Vec F S64x64 .f32) (x3 : Vec F S1x64 .f32) (x4 : Vec F S64x64 .f32) : Vec F S8000x64 .f32 :=
  View.canon [⟨rO1, k1_pay1 (View.ld x0 rA1) (View.ld x1 rA1) (View.ld x2 rW1) (View.ld x4 rW1) (View.ld x3 rB1)⟩]

/-- The store covers the block. -/
theorem cover1_5 (p0 : Vec F S8000x64 .f32) (y : S8000x64.Idx) :
    ∃ pc ∈ ([⟨rO1, p0⟩] : List (View.Piece (Elt F) S8000x64 .f32)), y ∈ pc.1.set :=
  View.cover_of_tiled [⟨rO1, p0⟩] S8000x64.size (by rfl) y

/-! ## The body's triple -/

set_option maxHeartbeats 1000000 in
/-- The body on whole staging memrefs, the inputs' at contents `xW` and the output's at anything, runs to the
    continuation holding the inputs' as they were and the output's at `out1_5` of them. -/
theorem sound_kernel1 (c : Dev nD) (E : Set ℕ) (i : grid1.Coords)
    (arg1 : Memref sig .tc .vmem S8000x64 .f32) (harg1 : arg1.IsWhole) (arg2 : Memref sig .tc .vmem S8000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S8000x64 .f32) (harg6 : arg6.IsWhole)
    (x0 x1 : Vec F S8000x64 .f32) (x2 : Vec F S64x64 .f32) (x3 : Vec F S1x64 .f32) (x4 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__graph_conv_kernel i arg1 harg1 arg2 harg2 arg3 harg3 arg4 harg4 arg5 harg5 arg6 harg6) K := by
  simp only [cc1__graph_conv_kernel_eq_skeleton]; unfold cc1__graph_conv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them; after the body at point `t` each
    input's buffer at its block and the output's at `out1_5` of the input blocks; nothing kept between points;
    nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Data2.lean ====
/-
  Region 2 of the kernel's program: the third graph-convolution layer fused with the mean pool over graphs and the final
  linear layer, one grid point per block of 4000 node rows (20 points, run in order).
  At a point the body forms the layer's rows h3 = (agg · W_rel + h · W_root) + b for its 4000 nodes, the 64 x 4000 mask
  mask[g, j] = 1 if node j of the block belongs to graph g, else 0, and adds mask · h3 (64 x 64) to a running sum and the
  mask's row sums (64 x 1) to a running count, both kept in scratch between points and reset to zero at the first point.
  At the last point it stores (sum / max (count, 1)) · lin_W + lin_b (64 x 2) into the output block.
  Here: the definitions the region's two halves share — each window's block at a point, the two accumulators after each
  point (by recursion on the point), what the output buffer holds after the last point, and the pipeline's proof data with
  the invariant that carries the accumulators from one point to the next.
-/
import proofs.«431281_j6751688589931_2_alg».proof.Proof.Gen.KernelIdeal.Launch
import proofs.«431281_j6751688589931_2_alg».proof.Proof.Gen.KernelIdeal.Skeleton
import proofs.«431281_j6751688589931_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region2

variable (V : (c : Dev nD) → (b : Ref sig .tc) → Buf (Elt F) ((c : Thread nD τ).loc b))

/-- Window `w`'s block at point `t`, read off its array as the region finds it. Windows, in order: the aggregate's
    rows, the features' rows, the graph ids of the rows (1 x 1 x 4000), W_rel, the bias row, W_root, lin_W, lin_b, and
    the result (64 x 2). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch operands: the running sum (64 x 64) and the running count (64 x 1). -/
abbrev scSum : Memref sig .tc .vmem S64x64 .f32 := Memref.whole cc2_scratch0
abbrev scCnt : Memref sig .tc .vmem S64x1 .f32 := Memref.whole cc2_scratch1

/-- One point's update of the running sum `s` from the point's blocks. -/
def sumStep (c : Dev nD) (t : Fin cfg2.N) (s : Vec F S64x64 .f32) : Vec F S64x64 .f32 :=
  k2_pay6 (iblk2 V c 0 t) (iblk2 V c 1 t) (iblk2 V c 3 t) (iblk2 V c 5 t) (iblk2 V c 4 t) (iblk2 V c 2 t) s

/-- One point's update of the running count `n` from the point's graph ids. -/
def cntStep (c : Dev nD) (t : Fin cfg2.N) (n : Vec F S64x1 .f32) : Vec F S64x1 .f32 :=
  k2_pay1 (k2_pay5 (iblk2 V c 2 t)) n

/-- THE ACCUMULATION: the running sum and the running count after the body at position `n` — from zero at the first
    point, from what the point before left afterwards. -/
def acc2 (c : Dev nD) : (n : ℕ) → n < cfg2.N → Vec F S64x64 .f32 × Vec F S64x1 .f32
  | 0, hn => (sumStep V c ⟨0, hn⟩ (k2_pay3 (F := F)), cntStep V c ⟨0, hn⟩ (k2_pay4 (F := F)))
  | n + 1, hn => (sumStep V c ⟨n + 1, hn⟩ (acc2 c n (Nat.lt_of_succ_lt hn)).1, cntStep V c ⟨n + 1, hn⟩ (acc2 c n (Nat.lt_of_succ_lt hn)).2)

theorem acc2_zero (c : Dev nD) (hn : 0 < cfg2.N) :
    acc2 V c 0 hn = (sumStep V c ⟨0, hn⟩ (k2_pay3 (F := F)), cntStep V c ⟨0, hn⟩ (k2_pay4 (F := F))) := rfl

theorem acc2_succ (c : Dev nD) (n : ℕ) (hn : n + 1 < cfg2.N) :
    acc2 V c (n + 1) hn = (sumStep V c ⟨n + 1, hn⟩ (acc2 V c n (Nat.lt_of_succ_lt hn)).1, cntStep V c ⟨n + 1, hn⟩ (acc2 V c n (Nat.lt_of_succ_lt hn)).2) := rfl

/-- What a point that stores the result leaves in the output buffer: the pooled rows through the final linear layer, from
    the accumulators as the point leaves them. (Only the last point stores it; at the others the buffer is handed back
    untouched and is not written back, so its contents there are never read.) -/
def out2_8 (c : Dev nD) (t : Fin cfg2.N) : Vec F S64x2 .f32 :=
  k2_pay2 (acc2 V c t.val t.isLt).2 (acc2 V c t.val t.isLt).1 (iblk2 V c 6 t) (iblk2 V c 7 t)

/-- The region invariant before position `n`: before the first point the scoped rest (every scratch at anything) and the
    generator register; afterwards the running sum and the running count at what the point before left, the scoped
    buffers that are neither (the other regions' staging buffers) at anything, and the generator register. -/
def Phi2 (c : Dev nD) : (n : ℕ) → n ≤ cfg2.N → sProp 𝕄
  | 0, _ => Pipeline.ΦA spec2 c
  | n + 1, hn => iprop(owns (c : Thread nD τ) scSum fullShare (acc2 V c n hn).1 ∗ owns (c : Thread nD τ) scCnt fullShare (acc2 V c n hn).2
      ∗ (bigSep (([cc0_stg0_0, cc0_stg0_1, cc0_stg1_0, cc0_stg1_1, cc0_stg2_0, cc0_stg3_0, cc0_stg4_0, cc0_stg5_0, cc0_stg5_1, cc1_stg0_0, cc1_stg0_1, cc1_stg1_0, cc1_stg1_1, cc1_stg2_0, cc1_stg3_0, cc1_stg4_0, cc1_stg5_0, cc1_stg5_1] : List (Ref sig .tc)).toFinset)
          fun b => iprop(∃ f : Buf (Elt F) ((c : Thread nD τ).loc b), ((c : Thread nD τ).loc b) ↦{fullShare} f))
      ∗ (∃ r, prngReg c r))

theorem Phi2_zero (c : Dev nD) (n : ℕ) (h : n ≤ cfg2.N) (hz : n = 0) : Phi2 V c n h = Pipeline.ΦA spec2 c := by
  subst hz; rfl

/-- The proof data of pipeline 2 on core `c`: the arrays as the region finds them; after the body at point `t` each
    input's buffer at its block and the output's at `out2_8`; the invariant `Phi2`; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 V c t := by dsimp only [dat2]

end Region2

end Cert.KernelIdeal.Hand

end
-- ==== Proof.KI.Reg2.lean ====
/-
  Region 2 of the kernel's program, the frame half: the third graph-convolution layer fused with the mean pool and the
  final linear layer, 20 grid points run in order, the running sum (64 x 64) and the running count (64 x 1) kept in
  scratch between points.
  Every access of the body is a whole buffer at offset zero, so a load reads the buffer's contents and a buffer read
  back after a store made last holds what that store wrote. The body has three control cases, decided in closed form
  over the grid: at the first point it resets both accumulators to zero and then adds the point's contribution; at a
  middle point it adds the contribution to what the point before left; at the last point it adds the contribution and
  then stores the pooled rows through the final linear layer into the output block. The body's triple is stated for
  each case over explicit contents of the staging memrefs and the two accumulators.
  The region's invariant carries the accumulators from point to point at the values the recursion of the shared
  definitions gives; the output window is idle (handed back untouched, not written back) everywhere but at the last
  point. From these: the body obligation at every point, and that the invariant is what the launch hands the region
  before the first point and gives it back after the last.
-/
import proofs.«431281_j6751688589931_2_alg».proof.Proof.KI.Data2
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Region2

variable (V : (c : Dev nD) → (b : Ref sig .tc) → Buf (Elt F) ((c : Thread nD τ).loc b))

/-! ## The input windows' buffers hold their blocks

    An input window's current staging buffer holds its block at every point, whether the point fetches it or not: the
    row blocks and the graph ids are fetched at every point, the weights and the biases once. -/

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (Pipeline.UD sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (Pipeline.UD sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (Pipeline.UD sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body's two conditions over the grid, and where the output window is idle -/

/-- The first branch's condition (the point is the grid's first), as the body computes it from the coordinate. -/
abbrev cond2_0 (i : grid2.Coords) : Prop :=
  (Scalar.cmpi .ne (Scalar.extui (Scalar.cmpi .eq (BitVec.ofNat 32 (i 0).val) 0#32)) 0#32) = 1#1

/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second branch's condition holds at the last point only. -/
theorem hcond2_1 : ∀ t : Fin cfg2.N, k2_cond2 (grid2.coords t) = 1#1 ↔ t.val = 19 :=
  (by decide +kernel : ∀ t : Fin grid2.N, k2_cond2 (grid2.coords t) = 1#1 ↔ t.val = 19)

/-- Where the output window is idle, and where it is live. -/
theorem idleAt2_8 : ∀ t : Fin cfg2.N, ¬k2_cond2 (grid2.coords t) = 1#1 → cfg2.idle 8 (grid2.coords t) = true := by decide +kernel
theorem noFlush2_8 : ∀ t : Fin cfg2.N, ¬k2_cond2 (grid2.coords t) = 1#1 → (cfg2.win 8).flush t = false := by decide +kernel
theorem liveAt2_8 : ∀ t : Fin cfg2.N, k2_cond2 (grid2.coords t) = 1#1 → cfg2.idle 8 (grid2.coords t) = false := by decide +kernel

/-! ## Whole-buffer accesses -/

/-- The zero offsets of a rank-2 and of a rank-3 access, as constant functions. -/
theorem hz2 : (![0, 0] : Fin 2 → Nat) = fun _ => 0 := by funext a; fin_cases a <;> rfl
theorem hz3 : (![0, 0, 0] : Fin 3 → Nat) = fun _ => 0 := by funext a; fin_cases a <;> rfl

/-- A buffer read back after a store of the whole buffer made last holds what that store wrote, whatever was stored
    before it. -/
theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self .., View.mem_set_unit_zero h inb y⟩)).trans
    (View.canon_cons_unit_zero h inb w L)

/-- A load of the whole buffer reads its contents. -/
theorem readAt_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-! ## The body's triple, case by case -/

set_option maxHeartbeats 1000000 in
/-- THE FIRST POINT. On whole memrefs, the inputs' at contents `xW`, the output's at `x8`, the accumulators' at anything,
    the body runs to the continuation holding the inputs' and the output's as they were and the accumulators at one step
    from zero. -/
theorem sound_kernel2_A (c : Dev nD) (E : Set ℕ) (i : grid2.Coords) (hc0 : cond2_0 i) (hc1 : ¬k2_cond2 i = 1#1)
    (arg1 : Memref sig .tc .vmem S4000x64 .f32) (harg1 : arg1.IsWhole) (arg2 : Memref sig .tc .vmem S4000x64 .f32) (harg2 : arg2.IsWhole)
    (arg3 : Memref sig .tc .vmem S1x1x4000 .i32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x2 .f32) (harg7 : arg7.IsWhole) (arg8 : Memref sig .tc .vmem S1x2 .f32) (harg8 : arg8.IsWhole)
    (arg9 : Memref sig .tc .vmem S64x2 .f32) (harg9 : arg9.IsWhole) (arg10 : Memref sig .tc .vmem S64x64 .f32) (harg10 : arg10.IsWhole)
    (arg11 : Memref sig .tc .vmem S64x1 .f32) (harg11 : arg11.IsWhole)
    (x0 x1 : Vec F S4000x64 .f32) (x2 : Vec F S1x1x4000 .i32) (x3 : Vec F S64x64 .f32) (x4 : Vec F S1x64 .f32) (x5 : Vec F S64x64 .f32)
    (x6 : Vec F S64x2 .f32) (x7 : Vec F S1x2 .f32) (x8 : Vec F S64x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ (∃ s, owns (c : Thread nD τ) arg10 fullShare s) ∗ (∃ n, owns (c : Thread nD τ) arg11 fullShare n)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
            ∗ owns (c : Thread nD τ) arg10 fullShare (k2_pay6 x0 x1 x3 x5 x4 x2 (k2_pay3 (F := F)))
            ∗ owns (c : Thread nD τ) arg11 fullShare (k2_pay1 (k2_pay5 x2) (k2_pay4 (F := F)))) -∗ K ⟨⟩))
      ⊢ wp frame (wpE (defs₀ (F := F)) Variants.none c none) E (cc2__graph_conv3_pool_kernel i arg1 harg1 arg2 harg2 arg3 harg3 arg4 harg4 arg5 harg5 arg6 harg6 arg7 harg7 arg8 harg8 arg9 harg9 arg10 harg10 arg11 harg11) K := by
  simp only [cc2__graph_conv3_pool_kernel_eq_skeleton]; unfold cc2__graph_conv3_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%s, %fs, -, HS⟩, ⟨%n, %fn, -, HN⟩, Hk⟩
  subst hf0; subst hf1; subst hf2; subst hf3; subst hf4; subst hf5; subst hf6; subst hf7; subst hf8
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HS]
  · iexists _; isplitr
    swap; · iexact HS
    ipureintro
    refine (read_writes_whole (S := S64x64) _ _ hz2 _ _ _).trans ?_
    sl_unfold_words
    simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2, View.readCov_unit_zero (S := S64x64) _ hz2, View.readCov_unit_zero (S := S64x1) _ hz2]
  iexists _; isplitr
  swap; · iexact HN
  ipureintro
  refine (read_writes_whole (S := S64x1) _ _ hz2 _ _ _).trans ?_
  sl_unfold_words
  simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2, View.readCov_unit_zero (S := S64x64) _ hz2, View.readCov_unit_zero (S := S64x1) _ hz2]

set_option maxHeartbeats 1000000 in
/-- A MIDDLE POINT. The accumulators at `s`, `n`: the body leaves them one step further, everything else as it was. -/
theorem sound_kernel2_B (c : Dev nD) (E : Set ℕ) (i : grid2.Coords) (hc0 : ¬cond2_0 i) (hc1 : ¬k2_cond2 i = 1#1)
    (arg1 : Memref sig .tc .vmem S4000x64 .f32) (harg1 : arg1.IsWhole) (arg2 : Memref sig .tc .vmem S4000x64 .f32) (harg2 : arg2.IsWhole)
    (arg3 : Memref sig .tc .vmem S1x1x4000 .i32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x2 .f32) (harg7 : arg7.IsWhole) (arg8 : Memref sig .tc .vmem S1x2 .f32) (harg8 : arg8.IsWhole)
    (arg9 : Memref sig .tc .vmem S64x2 .f32) (harg9 : arg9.IsWhole) (arg10 : Memref sig .tc .vmem S64x64 .f32) (harg10 : arg10.IsWhole)
    (arg11 : Memref sig .tc .vmem S64x1 .f32) (harg11 : arg11.IsWhole)
    (x0 x1 : Vec F S4000x64 .f32) (x2 : Vec F S1x1x4000 .i32) (x3 : Vec F S64x64 .f32) (x4 : Vec F S1x64 .f32) (x5 : Vec F S64x64 .f32)
    (x6 : Vec F S64x2 .f32) (x7 : Vec F S1x2 .f32) (x8 : Vec F S64x2 .f32) (s : Vec F S64x64 .f32) (n : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8 ∗ owns (c : Thread nD τ) arg10 fullShare s ∗ owns (c : Thread nD τ) arg11 fullShare n
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
            ∗ owns (c : Thread nD τ) arg10 fullShare (k2_pay6 x0 x1 x3 x5 x4 x2 s)
            ∗ owns (c : Thread nD τ) arg11 fullShare (k2_pay1 (k2_pay5 x2) n)) -∗ K ⟨⟩))
      ⊢ wp frame (wpE (defs₀ (F := F)) Variants.none c none) E (cc2__graph_conv3_pool_kernel i arg1 harg1 arg2 harg2 arg3 harg3 arg4 harg4 arg5 harg5 arg6 harg6 arg7 harg7 arg8 harg8 arg9 harg9 arg10 harg10 arg11 harg11) K := by
  simp only [cc2__graph_conv3_pool_kernel_eq_skeleton]; unfold cc2__graph_conv3_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, ⟨%fn, %hfn, HN⟩, Hk⟩
  subst hf0; subst hf1; subst hf2; subst hf3; subst hf4; subst hf5; subst hf6; subst hf7; subst hf8; subst hfs; subst hfn
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [HS]
  · iexists _; isplitr
    swap; · iexact HS
    ipureintro
    refine (read_writes_whole (S := S64x64) _ _ hz2 _ _ _).trans ?_
    simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2]
  iexists _; isplitr
  swap; · iexact HN
  ipureintro
  refine (read_writes_whole (S := S64x1) _ _ hz2 _ _ _).trans ?_
  simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2]

set_option maxHeartbeats 1000000 in
/-- THE LAST POINT. The accumulators at `s`, `n`, the output at anything: the body leaves the accumulators one step
    further and the output at the pooled rows through the final linear layer, from the accumulators as it leaves them. -/
theorem sound_kernel2_C (c : Dev nD) (E : Set ℕ) (i : grid2.Coords) (hc0 : ¬cond2_0 i) (hc1 : k2_cond2 i = 1#1)
    (arg1 : Memref sig .tc .vmem S4000x64 .f32) (harg1 : arg1.IsWhole) (arg2 : Memref sig .tc .vmem S4000x64 .f32) (harg2 : arg2.IsWhole)
    (arg3 : Memref sig .tc .vmem S1x1x4000 .i32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x2 .f32) (harg7 : arg7.IsWhole) (arg8 : Memref sig .tc .vmem S1x2 .f32) (harg8 : arg8.IsWhole)
    (arg9 : Memref sig .tc .vmem S64x2 .f32) (harg9 : arg9.IsWhole) (arg10 : Memref sig .tc .vmem S64x64 .f32) (harg10 : arg10.IsWhole)
    (arg11 : Memref sig .tc .vmem S64x1 .f32) (harg11 : arg11.IsWhole)
    (x0 x1 : Vec F S4000x64 .f32) (x2 : Vec F S1x1x4000 .i32) (x3 : Vec F S64x64 .f32) (x4 : Vec F S1x64 .f32) (x5 : Vec F S64x64 .f32)
    (x6 : Vec F S64x2 .f32) (x7 : Vec F S1x2 .f32) (s : Vec F S64x64 .f32) (n : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d) ∗ owns (c : Thread nD τ) arg10 fullShare s ∗ owns (c : Thread nD τ) arg11 fullShare n
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
            ∗ owns (c : Thread nD τ) arg9 fullShare (k2_pay2 (k2_pay1 (k2_pay5 x2) n) (k2_pay6 x0 x1 x3 x5 x4 x2 s) x6 x7)
            ∗ owns (c : Thread nD τ) arg10 fullShare (k2_pay6 x0 x1 x3 x5 x4 x2 s)
            ∗ owns (c : Thread nD τ) arg11 fullShare (k2_pay1 (k2_pay5 x2) n)) -∗ K ⟨⟩))
      ⊢ wp frame (wpE (defs₀ (F := F)) Variants.none c none) E (cc2__graph_conv3_pool_kernel i arg1 harg1 arg2 harg2 arg3 harg3 arg4 harg4 arg5 harg5 arg6 harg6 arg7 harg7 arg8 harg8 arg9 harg9 arg10 harg10 arg11 harg11) K := by
  simp only [cc2__graph_conv3_pool_kernel_eq_skeleton]; unfold cc2__graph_conv3_pool_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, ⟨%fn, %hfn, HN⟩, Hk⟩
  subst hf0; subst hf1; subst hf2; subst hf3; subst hf4; subst hf5; subst hf6; subst hf7; subst hfs; subst hfn
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    refine (read_writes_whole (S := S64x2) _ _ hz2 _ _ _).trans ?_
    sl_unfold_words
    simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2, View.readCov_unit_zero (S := S64x64) _ hz2, View.readCov_unit_zero (S := S64x1) _ hz2]
  isplitl [HS]
  · iexists _; isplitr
    swap; · iexact HS
    ipureintro
    refine (read_writes_whole (S := S64x64) _ _ hz2 _ _ _).trans ?_
    sl_unfold_words
    simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2, View.readCov_unit_zero (S := S64x64) _ hz2, View.readCov_unit_zero (S := S64x1) _ hz2]
  iexists _; isplitr
  swap; · iexact HN
  ipureintro
  refine (read_writes_whole (S := S64x1) _ _ hz2 _ _ _).trans ?_
  sl_unfold_words
  simp only [readAt_whole (S := S4000x64) _ _ hz2, readAt_whole (S := S64x64) _ _ hz2, readAt_whole (S := S1x64) _ _ hz2,
      readAt_whole (S := S1x1x4000) _ _ hz3, readAt_whole (S := S64x1) _ _ hz2, readAt_whole (S := S64x2) _ _ hz2, readAt_whole (S := S1x2) _ _ hz2, View.readCov_unit_zero (S := S64x64) _ hz2, View.readCov_unit_zero (S := S64x1) _ hz2]

/-! ## The invariant: the two accumulators split off the scoped rest -/

/-- The scoped buffers of the core that are neither a staging buffer of this region nor one of its two accumulators:
    the other regions' staging buffers, each at anything. -/
def rest2 (c : Dev nD) : sProp 𝕄 :=
  bigSep (([cc0_stg0_0, cc0_stg0_1, cc0_stg1_0, cc0_stg1_1, cc0_stg2_0, cc0_stg3_0, cc0_stg4_0, cc0_stg5_0, cc0_stg5_1, cc1_stg0_0, cc1_stg0_1, cc1_stg1_0, cc1_stg1_1, cc1_stg2_0, cc1_stg3_0, cc1_stg4_0, cc1_stg5_0, cc1_stg5_1] : List (Ref sig .tc)).toFinset)
    fun b => iprop(∃ f : Buf (Elt F) ((c : Thread nD τ).loc b), ((c : Thread nD τ).loc b) ↦{fullShare} f)

/-- The scoped rest of the region is the two accumulators, each at anything, and the other regions' staging buffers. -/
theorem scopedRest2_split (c : Dev nD) :
    (Pipeline.scopedRest (Ix := Unit) (Name := ℕ) (U := Pipeline.UD sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ (∃ f : Buf (Elt F) ((c : Thread nD τ).loc cc2_scratch1), ((c : Thread nD τ).loc cc2_scratch1) ↦{fullShare} f)
          ∗ rest2 (F := F) c) := by
  unfold rest2
  rw [Pipeline.scopedRest_eq_of_list spec2 c [cc0_stg0_0, cc0_stg0_1, cc0_stg1_0, cc0_stg1_1, cc0_stg2_0, cc0_stg3_0, cc0_stg4_0, cc0_stg5_0, cc0_stg5_1, cc1_stg0_0, cc1_stg0_1, cc1_stg1_0, cc1_stg1_1, cc1_stg2_0, cc1_stg3_0, cc1_stg4_0, cc1_stg5_0, cc1_stg5_1, cc2_scratch0, cc2_scratch1] (by decide) (by decide),
    ← bigSep_eq_bigSepL [cc0_stg0_0, cc0_stg0_1, cc0_stg1_0, cc0_stg1_1, cc0_stg2_0, cc0_stg3_0, cc0_stg4_0, cc0_stg5_0, cc0_stg5_1, cc1_stg0_0, cc1_stg0_1, cc1_stg1_0, cc1_stg1_1, cc1_stg2_0, cc1_stg3_0, cc1_stg4_0, cc1_stg5_0, cc1_stg5_1, cc2_scratch0, cc2_scratch1] (by decide),
    show ([cc0_stg0_0, cc0_stg0_1, cc0_stg1_0, cc0_stg1_1, cc0_stg2_0, cc0_stg3_0, cc0_stg4_0, cc0_stg5_0, cc0_stg5_1, cc1_stg0_0, cc1_stg0_1, cc1_stg1_0, cc1_stg1_1, cc1_stg2_0, cc1_stg3_0, cc1_stg4_0, cc1_stg5_0, cc1_stg5_1, cc2_scratch0, cc2_scratch1] : List (Ref sig .tc)).toFinset
        = insert cc2_scratch0 (insert cc2_scratch1 ([cc0_stg0_0, cc0_stg0_1, cc0_stg1_0, cc0_stg1_1, cc0_stg2_0, cc0_stg3_0, cc0_stg4_0, cc0_stg5_0, cc0_stg5_1, cc1_stg0_0, cc1_stg0_1, cc1_stg1_0, cc1_stg1_1, cc1_stg2_0, cc1_stg3_0, cc1_stg4_0, cc1_stg5_0, cc1_stg5_1] : List (Ref sig .tc)).toFinset) from by decide,
    bigSep_insert (by decide), bigSep_insert (by decide)]
  rfl

/-- What the launch hands the region, with the accumulators as memrefs owned at anything. -/
theorem PhiA2_eq (c : Dev nD) :
    (Pipeline.ΦA spec2 c : sProp 𝕄)
      = iprop(((∃ d, owns (c : Thread nD τ) scSum fullShare d) ∗ (∃ d, owns (c : Thread nD τ) scCnt fullShare d) ∗ rest2 (F := F) c)
          ∗ (∃ r, prngReg c r)) := by
  unfold Pipeline.ΦA; rw [scopedRest2_split]; simp only [scSum, scCnt, owns_whole]; try rfl

/-- After point `n` the invariant holds the accumulators at what that point left. -/
theorem Phi2_succ (c : Dev nD) (n : ℕ) (hn : n < cfg2.N) :
    Phi2 V c (n + 1) hn = iprop(owns (c : Thread nD τ) scSum fullShare (acc2 V c n hn).1 ∗ owns (c : Thread nD τ) scCnt fullShare (acc2 V c n hn).2
      ∗ rest2 (F := F) c ∗ (∃ r, prngReg c r)) := rfl

/-- Before a point that is not the first it holds them at what the point before left. -/
theorem Phi2_pos (c : Dev nD) (n : ℕ) (h : n ≤ cfg2.N) (hz : n ≠ 0) :
    Phi2 V c n h = iprop(owns (c : Thread nD τ) scSum fullShare (acc2 V c (n - 1) (by omega)).1
      ∗ owns (c : Thread nD τ) scCnt fullShare (acc2 V c (n - 1) (by omega)).2
      ∗ rest2 (F := F) c ∗ (∃ r, prngReg c r)) := by
  cases n with
  | zero => exact absurd rfl hz
  | succ n => rfl

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-- The accumulators after the first point: one step from zero. -/
theorem acc2_first (c : Dev nD) (t : Fin cfg2.N) (h0 : t.val = 0) :
    acc2 V c t.val t.isLt = (sumStep V c t (k2_pay3 (F := F)), cntStep V c t (k2_pay4 (F := F))) := by
  obtain ⟨n, hn⟩ := t
  cases n with
  | zero => rfl
  | succ n => exact absurd h0 (Nat.succ_ne_zero n)

/-- The accumulators after a later point: one step from what the point before left. -/
theorem acc2_next (c : Dev nD) (t : Fin cfg2.N) (h0 : t.val ≠ 0) :
    acc2 V c t.val t.isLt = (sumStep V c t (acc2 V c (t.val - 1) (Nat.lt_of_le_of_lt (Nat.sub_le _ _) t.isLt)).1,
      cntStep V c t (acc2 V c (t.val - 1) (Nat.lt_of_le_of_lt (Nat.sub_le _ _) t.isLt)).2) := by
  obtain ⟨n, hn⟩ := t
  cases n with
  | zero => exact absurd rfl h0
  | succ n => rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns: each input's buffer at its block, the output's at what the point leaves there (at the last
    point the result; elsewhere, the window being idle and not written back, what it was handed). -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ (dat2 V c).leavesExact 8 t)

set_option maxHeartbeats 4000000 in
/-- The body at any point. The inputs' memrefs hold their blocks. At the first point the invariant hands the body the two
    accumulators at anything and the body's first-point triple applies; at a later point it hands them at what the point
    before left, and the middle or the last point's triple applies. The invariant takes the accumulators back at this
    point's values; the other scoped buffers, the generator register and the core's dues pass through unread. Where the
    output window is idle its buffer goes back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).owesAt () t.succ = (dat2 V c).owesAt () t.castSucc from rfl,
    show (dat2 V c).Φ t.succ = Phi2 V c (t.val + 1) t.isLt from rfl, Phi2_succ,
    after2_0, after2_1, after2_2, after2_3, after2_4, after2_5, after2_6, after2_7, Phi2_castSucc]
  have hN : t.val < 20 := lt_of_lt_of_eq t.isLt N_2
  by_cases h0 : t.val = 0
  · have h1 : ¬t.val = 19 := by omega
    rw [Dat.leavesExact_idle (dat2 V c) 8 t (idleAt2_8 t (fun h => h1 ((hcond2_1 t).mp h))) (noFlush2_8 t (fun h => h1 ((hcond2_1 t).mp h))),
      Phi2_zero V c _ _ h0, PhiA2_eq, acc2_first V c t h0]
    unfold sumStep cntStep; dsimp only
    iintro ⟨⟨⟨HS, HN, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel2_A c Set.univ (grid2.coords t) ((hcond2_0 t).mpr h0) (fun h => h1 ((hcond2_1 t).mp h))
      _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) ((dat2 V c).before 8 t d8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    isplitl [HN]; · iexact HN
    iintro ⟨H0, H1, H2, H3, H4, H5, H6, H7, H8, HS, HN⟩
    isplitl [HS HN HR Hg]
    · isplitl [HS]; · iexact HS
      isplitl [HN]; · iexact HN
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases h1 : t.val = 19
    · rw [show (dat2 V c).leavesExact 8 t = owns (c : Thread nD τ) (st2_8 t) fullShare ((dat2 V c).after 8 t) from by
          unfold Dat.leavesExact; rw [liveAt2_8 t ((hcond2_1 t).mpr h1)],
        after2_8, Phi2_pos V c _ _ h0]
      unfold out2_8
      rw [acc2_next V c t h0]
      unfold sumStep cntStep; dsimp only
      iintro ⟨⟨HS, HN, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_C c Set.univ (grid2.coords t) (fun h => h0 ((hcond2_0 t).mp h)) ((hcond2_1 t).mpr h1)
        _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (acc2 V c (t.val - 1) (Nat.lt_of_le_of_lt (Nat.sub_le _ _) t.isLt)).1 (acc2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      isplitl [HN]; · iexact HN
      iintro ⟨H0, H1, H2, H3, H4, H5, H6, H7, H8, HS, HN⟩
      isplitl [HS HN HR Hg]
      · isplitl [HS]; · iexact HS
        isplitl [HN]; · iexact HN
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat2 V c) 8 t (idleAt2_8 t (fun h => h1 ((hcond2_1 t).mp h))) (noFlush2_8 t (fun h => h1 ((hcond2_1 t).mp h))),
        Phi2_pos V c _ _ h0, acc2_next V c t h0]
      unfold sumStep cntStep; dsimp only
      iintro ⟨⟨HS, HN, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel2_B c Set.univ (grid2.coords t) (fun h => h0 ((hcond2_0 t).mp h)) (fun h => h1 ((hcond2_1 t).mp h))
        _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) ((dat2 V c).before 8 t d8) (acc2 V c (t.val - 1) (Nat.lt_of_le_of_lt (Nat.sub_le _ _) t.isLt)).1 (acc2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      isplitl [HN]; · iexact HN
      iintro ⟨H0, H1, H2, H3, H4, H5, H6, H7, H8, HS, HN⟩
      isplitl [HS HN HR Hg]
      · isplitl [HS]; · iexact HS
        isplitl [HN]; · iexact HN
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point the invariant gives it back: the accumulators' contents are forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 20 := N_2; omega), PhiA2_eq]
  iintro ⟨HS, HN, HR, Hg⟩
  isplitr [Hg]
  · isplitl [HS]; · iexists _; iexact HS
    isplitl [HN]; · iexists _; iexact HN
    iexact HR
  iexact Hg

end Region2

end Cert.KernelIdeal.Hand

end
-- ==== Proof.KI.Run.lean ====
/-
  The run of the kernel's program: @main is three stretches of host operations, each followed by a kernel region.
  Here: the contents of the core's unscoped buffers at every boundary between two items — the launch memory, then what a
  stretch of host operations makes of the contents before it, then those contents with a region's output array at what the
  region's write-backs leave —, every pipeline's proof data at its region's entry contents, each region as a segment
  entered from one boundary's contents and left at the next, and the run: every weakly fair execution of @main terminates
  and every final memory holds each unscoped buffer at the last boundary's contents. The arguments are written by no item,
  so they end as launched; the result array ends at what region 2 leaves.
-/
import proofs.«431281_j6751688589931_2_alg».proof.Proof.Gen.KernelIdeal.Launch
import proofs.«431281_j6751688589931_2_alg».proof.Proof.Gen.KernelIdeal.Skeleton
import proofs.«431281_j6751688589931_2_alg».proof.Proof.Gen.KernelIdeal.Points
import proofs.«431281_j6751688589931_2_alg».proof.Proof.Gen.KernelIdeal.Regions
import proofs.«431281_j6751688589931_2_alg».proof.Proof.KI.Reg0
import proofs.«431281_j6751688589931_2_alg».proof.Proof.KI.Reg1
import proofs.«431281_j6751688589931_2_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Idealize.ShloMosaic.Pipeline (Seg HostSeg RegionSeg)

variable (m : (ℓ : Loc nD τ sig) → Buf (Elt F) ℓ) (ρ : Dev nD → PrngReg)

/-! ## The buffers' contents at the boundaries -/

/-- A valuation read at the TensorCore's references: what a region's proof data take. -/
abbrev atRefs (W : Dev nD → Valuation τ sig (Elt F)) : (c : Dev nD) → (b : Ref sig .tc) → Buf (Elt F) ((c : Thread nD τ).loc b) :=
  fun c b => W c b

/-- After the first host stretch (region 0's entry). -/
abbrev U1 (c : Dev nD) : Valuation τ sig (Elt F) := V1 m c
/-- After region 0: its arrays at what the pipeline leaves (an input as entered, the output its write-backs), every
    other buffer as entered. -/
def U2 (c : Dev nD) : Valuation τ sig (Elt F) :=
  Pipeline.withArrays spec0 c (U1 m c) fun w => (dat0 (atRefs (U1 m)) c).arrAt w cfg0.N
/-- After the second host stretch (region 1's entry). -/
abbrev U3 (c : Dev nD) : Valuation τ sig (Elt F) := StableHlo.after hostOps1 (U2 m c)
/-- After region 1. -/
def U4 (c : Dev nD) : Valuation τ sig (Elt F) :=
  Pipeline.withArrays spec1 c (U3 m c) fun w => (dat1 (atRefs (U3 m)) c).arrAt w cfg1.N
/-- After the third host stretch (region 2's entry). -/
abbrev U5 (c : Dev nD) : Valuation τ sig (Elt F) := StableHlo.after hostOps2 (U4 m c)
/-- After region 2: the end of @main. -/
def U6 (c : Dev nD) : Valuation τ sig (Elt F) :=
  Pipeline.withArrays spec2 c (U5 m c) fun w => (dat2 (atRefs (U5 m)) c).arrAt w cfg2.N

/-! ### What a region changes: its arrays hold what the pipeline leaves, every other buffer what it held -/

theorem U2_arr (c : Dev nD) (w : Fin cfg0.W) :
    U2 m c (Proc.devRef .tc (Pipeline.arrRef spec0 w)) = (dat0 (atRefs (U1 m)) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m c (Proc.devRef .tc b) = U1 m c (Proc.devRef .tc b) := by
  unfold U2; exact Pipeline.withArrays_of_ne spec0 c _ _ b hb
theorem U4_arr (c : Dev nD) (w : Fin cfg1.W) :
    U4 m c (Proc.devRef .tc (Pipeline.arrRef spec1 w)) = (dat1 (atRefs (U3 m)) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m c (Proc.devRef .tc b) = U3 m c (Proc.devRef .tc b) := by
  unfold U4; exact Pipeline.withArrays_of_ne spec1 c _ _ b hb
theorem U6_arr (c : Dev nD) (w : Fin cfg2.W) :
    U6 m c (Proc.devRef .tc (Pipeline.arrRef spec2 w)) = (dat2 (atRefs (U5 m)) c).arrAt w cfg2.N := by
  unfold U6; exact Pipeline.withArrays_arr spec2 launch2.win.arr_inj c _ _ w
theorem U6_of_ne (c : Dev nD) (b : Ref sig .tc) (hb : ∀ w, Pipeline.arrRef spec2 w ≠ b) :
    U6 m c (Proc.devRef .tc b) = U5 m c (Proc.devRef .tc b) := by
  unfold U6; exact Pipeline.withArrays_of_ne spec2 c _ _ b hb

/-! ## The proof data family and the thread state -/

/-- Every pipeline's proof data, each at its region's entry contents (a literal match on the pipeline). -/
def pdats : (p : Fin 3) → (c : Dev nD) → Dat τ (Elt F) Unit ℕ (Pipeline.UD sig nD τ) ℕ (Pipeline.pin (pcfgs (F := F)) adm p) c
  | ⟨0, _⟩ => fun c => dat0 (atRefs (U1 m)) c
  | ⟨1, _⟩ => fun c => dat1 (atRefs (U3 m)) c
  | ⟨2, _⟩ => fun c => dat2 (atRefs (U5 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-- At a region's exit each of its arrays holds what the pipeline leaves and every other buffer what it held at entry. -/
theorem hF0 (c : Dev nD) (w : Fin cfg0.W) : (dat0 (atRefs (U1 m)) c).arrAt w cfg0.N = atRefs (U2 m) c (Pipeline.arrRef spec0 w) :=
  (U2_arr m c w).symm
theorem hrest0 (c : Dev nD) : ∀ b, b ∉ Finset.univ.image (Pipeline.arrRef spec0) → atRefs (U2 m) c b = atRefs (U1 m) c b :=
  fun b hb => U2_of_ne m c b fun w e => hb (Finset.mem_image.mpr ⟨w, Finset.mem_univ _, e⟩)
theorem hF1 (c : Dev nD) (w : Fin cfg1.W) : (dat1 (atRefs (U3 m)) c).arrAt w cfg1.N = atRefs (U4 m) c (Pipeline.arrRef spec1 w) :=
  (U4_arr m c w).symm
theorem hrest1 (c : Dev nD) : ∀ b, b ∉ Finset.univ.image (Pipeline.arrRef spec1) → atRefs (U4 m) c b = atRefs (U3 m) c b :=
  fun b hb => U4_of_ne m c b fun w e => hb (Finset.mem_image.mpr ⟨w, Finset.mem_univ _, e⟩)
theorem hF2 (c : Dev nD) (w : Fin cfg2.W) : (dat2 (atRefs (U5 m)) c).arrAt w cfg2.N = atRefs (U6 m) c (Pipeline.arrRef spec2 w) :=
  (U6_arr m c w).symm
theorem hrest2 (c : Dev nD) : ∀ b, b ∉ Finset.univ.image (Pipeline.arrRef spec2) → atRefs (U6 m) c b = atRefs (U5 m) c b :=
  fun b hb => U6_of_ne m c b fun w e => hb (Finset.mem_image.mpr ⟨w, Finset.mem_univ _, e⟩)

/-! ## The regions as segments -/

-- a library lemma stated over the pinned configuration unifies with the printed one only when unification may unfold plain
-- definitions in a metavariable's type
set_option backward.isDefEq.respectTransparency.types false in
/-- Region 0 over the thread state "every unscoped buffer at the boundary's contents, the generator register at some
    state, nothing owed": its arrays are split out of the unscoped buffers at entry and put back at the exit contents; the
    generator register goes into the region's invariant and comes back; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (atRefs (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (atRefs (U1 m) c) (atRefs (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state "every unscoped buffer at the boundary's contents, the generator register at some
    state, nothing owed": its arrays are split out of the unscoped buffers at entry and put back at the exit contents; the
    generator register goes into the region's invariant and comes back; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (atRefs (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (atRefs (U3 m) c) (atRefs (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state "every unscoped buffer at the boundary's contents, the generator register at some
    state, nothing owed": its arrays are split out of the unscoped buffers at entry and put back at the exit contents; the
    generator register goes into the region's invariant and comes back; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (atRefs (U5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (atRefs (U5 m)) c)
    unfold Pipeline.ΦA
    iintro ⟨Hp, -, Hr⟩
    isplitl [Hr]; · iexact Hr
    iexact Hp
  hout c := by
    rw [Pipeline.ownSems0_none]
    refine BIBase.Entails.trans (hout2 (atRefs (U5 m)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (atRefs (U5 m) c) (atRefs (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- A host stretch as a segment over the unscoped references from the contents `W`, `R` riding along: it is left with
    those references at what the stretch's operations make of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's six items in order. -/
abbrev segs : List (Pipeline.Seg (pcfgs (F := F)) adm (pdats m) () defs₀ 𝒱₀ L lv) :=
  [ .host (hseg hostOps0 hostOps0_sub hostOps0_fresh (fun c => V0 m c)),
    .region (reg0 m),
    .host (hseg hostOps1 hostOps1_sub hostOps1_fresh (U2 m)),
    .region (reg1 m),
    .host (hseg hostOps2 hostOps2_sub hostOps2_fresh (U4 m)),
    .region (reg2 m) ]

/-- @main IS the run of the segments. -/
theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents, the generator
    register at some state. -/
abbrev Tₙ (c : Dev nD) : sProp 𝕄 := iprop(StableHlo.held (c : Thread nD τ) (Pipeline.ucRefs τ sig) (U6 m c) ∗ ∃ r, prngReg c r)

set_option backward.isDefEq.respectTransparency.types false in
/-- THE RUN: from any memory with zero counters, every weakly fair execution of @main on the TensorCores terminates,
    nothing faulting, and every final memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U6 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (U6 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U6 m c b)
    (hfin := fun c s' => by
      iintro ⟨⟨Hh, -⟩, HSI⟩
      unfold StableHlo.held
      imodintro
      iapply (pointsTo_read_all (Pipeline.ucRefs τ sig) (fun b => (((c : Thread nD τ)).1, b)) (U6 m c) s')
      isplitl [Hh] <;> iassumption)
    (hQ := fun s h c => h c)

/-! ## The arguments end as launched

No host operation writes an argument and no region's output is one: through a host stretch an argument's buffer is
untouched, through a region it is either no array of the region or an input window's array, which ends as entered. -/

theorem U1_main_arg0 (c : Dev nD) : U1 m c main_arg0 = m ((c : Thread nD τ).loc main_arg0) := (V1_of m c main_arg0 (by decide)).trans rfl
theorem U2_main_arg0 (c : Dev nD) : U2 m c main_arg0 = m ((c : Thread nD τ).loc main_arg0) := (U2_of_ne m c main_arg0 (by decide)).trans (U1_main_arg0 m c)
theorem U3_main_arg0 (c : Dev nD) : U3 m c main_arg0 = m ((c : Thread nD τ).loc main_arg0) := (StableHlo.after_of_writes_sub hostOps1 _ hostOps1_writes (by decide : main_arg0 ∉ hostOps1_W)).trans (U2_main_arg0 m c)
theorem U4_main_arg0 (c : Dev nD) : U4 m c main_arg0 = m ((c : Thread nD τ).loc main_arg0) := (U4_of_ne m c main_arg0 (by decide)).trans (U3_main_arg0 m c)
theorem U5_main_arg0 (c : Dev nD) : U5 m c main_arg0 = m ((c : Thread nD τ).loc main_arg0) := (StableHlo.after_of_writes_sub hostOps2 _ hostOps2_writes (by decide : main_arg0 ∉ hostOps2_W)).trans (U4_main_arg0 m c)
theorem U6_main_arg0 (c : Dev nD) : U6 m c main_arg0 = m ((c : Thread nD τ).loc main_arg0) := (U6_of_ne m c main_arg0 (by decide)).trans (U5_main_arg0 m c)
theorem U1_main_arg1 (c : Dev nD) : U1 m c main_arg1 = m ((c : Thread nD τ).loc main_arg1) := (V1_of m c main_arg1 (by decide)).trans rfl
theorem U2_main_arg1 (c : Dev nD) : U2 m c main_arg1 = m ((c : Thread nD τ).loc main_arg1) := (U2_of_ne m c main_arg1 (by decide)).trans (U1_main_arg1 m c)
theorem U3_main_arg1 (c : Dev nD) : U3 m c main_arg1 = m ((c : Thread nD τ).loc main_arg1) := (StableHlo.after_of_writes_sub hostOps1 _ hostOps1_writes (by decide : main_arg1 ∉ hostOps1_W)).trans (U2_main_arg1 m c)
theorem U4_main_arg1 (c : Dev nD) : U4 m c main_arg1 = m ((c : Thread nD τ).loc main_arg1) := (U4_of_ne m c main_arg1 (by decide)).trans (U3_main_arg1 m c)
theorem U5_main_arg1 (c : Dev nD) : U5 m c main_arg1 = m ((c : Thread nD τ).loc main_arg1) := (StableHlo.after_of_writes_sub hostOps2 _ hostOps2_writes (by decide : main_arg1 ∉ hostOps2_W)).trans (U4_main_arg1 m c)
theorem U6_main_arg1 (c : Dev nD) : U6 m c main_arg1 = m ((c : Thread nD τ).loc main_arg1) := (U6_of_ne m c main_arg1 (by decide)).trans (U5_main_arg1 m c)
theorem U1_main_arg2 (c : Dev nD) : U1 m c main_arg2 = m ((c : Thread nD τ).loc main_arg2) := (V1_of m c main_arg2 (by decide)).trans rfl
theorem U2_main_arg2 (c : Dev nD) : U2 m c main_arg2 = m ((c : Thread nD τ).loc main_arg2) := (U2_of_ne m c main_arg2 (by decide)).trans (U1_main_arg2 m c)
theorem U3_main_arg2 (c : Dev nD) : U3 m c main_arg2 = m ((c : Thread nD τ).loc main_arg2) := (StableHlo.after_of_writes_sub hostOps1 _ hostOps1_writes (by decide : main_arg2 ∉ hostOps1_W)).trans (U2_main_arg2 m c)
theorem U4_main_arg2 (c : Dev nD) : U4 m c main_arg2 = m ((c : Thread nD τ).loc main_arg2) := (U4_of_ne m c main_arg2 (by decide)).trans (U3_main_arg2 m c)
theorem U5_main_arg2 (c : Dev nD) : U5 m c main_arg2 = m ((c : Thread nD τ).loc main_arg2) := (StableHlo.after_of_writes_sub hostOps2 _ hostOps2_writes (by decide : main_arg2 ∉ hostOps2_W)).trans (U4_main_arg2 m c)
theorem U6_main_arg2 (c : Dev nD) : U6 m c main_arg2 = m ((c : Thread nD τ).loc main_arg2) := (U6_of_ne m c main_arg2 (by decide)).trans (U5_main_arg2 m c)
theorem U1_main_arg3 (c : Dev nD) : U1 m c main_arg3 = m ((c : Thread nD τ).loc main_arg3) := (V1_of m c main_arg3 (by decide)).trans rfl
theorem U2_main_arg3 (c : Dev nD) : U2 m c main_arg3 = m ((c : Thread nD τ).loc main_arg3) := (U2_of_ne m c main_arg3 (by decide)).trans (U1_main_arg3 m c)
theorem U3_main_arg3 (c : Dev nD) : U3 m c main_arg3 = m ((c : Thread nD τ).loc main_arg3) := (StableHlo.after_of_writes_sub hostOps1 _ hostOps1_writes (by decide : main_arg3 ∉ hostOps1_W)).trans (U2_main_arg3 m c)
theorem U4_main_arg3 (c : Dev nD) : U4 m c main_arg3 = m ((c : Thread nD τ).loc main_arg3) := (U4_of_ne m c main_arg3 (by decide)).trans (U3_main_arg3 m c)
theorem U5_main_arg3 (c : Dev nD) : U5 m c main_arg3 = m ((c : Thread nD τ).loc main_arg3) := (StableHlo.after_of_writes_sub hostOps2 _ hostOps2_writes (by decide : main_arg3 ∉ hostOps2_W)).trans (U4_main_arg3 m c)
theorem U6_main_arg3 (c : Dev nD) : U6 m c main_arg3 = m ((c : Thread nD τ).loc main_arg3) := (U6_of_ne m c main_arg3 (by decide)).trans (U5_main_arg3 m c)
theorem U1_main_arg4 (c : Dev nD) : U1 m c main_arg4 = m ((c : Thread nD τ).loc main_arg4) := (V1_of m c main_arg4 (by decide)).trans rfl
theorem U2_main_arg4 (c : Dev nD) : U2 m c main_arg4 = m ((c : Thread nD τ).loc main_arg4) := (U2_of_ne m c main_arg4 (by decide)).trans (U1_main_arg4 m c)
theorem U3_main_arg4 (c : Dev nD) : U3 m c main_arg4 = m ((c : Thread nD τ).loc main_arg4) := (StableHlo.after_of_writes_sub hostOps1 _ hostOps1_writes (by decide : main_arg4 ∉ hostOps1_W)).trans (U2_main_arg4 m c)
theorem U4_main_arg4 (c : Dev nD) : U4 m c main_arg4 = m ((c : Thread nD τ).loc main_arg4) := (U4_of_ne m c main_arg4 (by decide)).trans (U3_main_arg4 m c)
theorem U5_main_arg4 (c : Dev nD) : U5 m c main_arg4 = m ((c : Thread nD τ).loc main_arg4) := (StableHlo.after_of_writes_sub hostOps2 _ hostOps2_writes (by decide : main_arg4 ∉ hostOps2_W)).trans (U4_main_arg4 m c)
theorem U6_main_arg4 (c : Dev nD) : U6 m c main_arg4 = m ((c : Thread nD τ).loc main_arg4) := (U6_of_ne m c main_arg4 (by decide)).trans (U5_main_arg4 m c)
theorem U1_main_arg5 (c : Dev nD) : U1 m c main_arg5 = m ((c : Thread nD τ).loc main_arg5) := (V1_of m c main_arg5 (by decide)).trans rfl
theorem U2_main_arg5 (c : Dev nD) : U2 m c main_arg5 = m ((c : Thread nD τ).loc main_arg5) := (U2_of_ne m c main_arg5 (by decide)).trans (U1_main_arg5 m c)
theorem U3_main_arg5 (c : Dev nD) : U3 m c main_arg5 = m ((c : Thread nD τ).loc main_arg5) := (StableHlo.after_of_writes_sub hostOps1 _ hostOps1_writes (by decide : main_arg5 ∉ hostOps1_W)).trans (U2_main_arg5 m c)
theorem U4_main_arg5 (c : Dev nD) : U4 m c main_arg5 = m ((c : Thread nD τ).loc main_arg5) := (U4_of_ne m c main_arg5 (by decide)).trans (U3_main_arg5 m c)
theorem U5_main_arg5 (c : Dev nD) : U5 m c main_arg5 = m ((c : Thread nD τ).loc main_arg5) := (StableHlo.after_of_writes_sub hostOps2 _ hostOps2_writes (by decide : main_arg5 ∉ hostOps2_W)).trans (U4_main_arg5 m c)
theorem U6_main_arg5 (c : Dev nD) : U6 m c main_arg5 = m ((c : Thread nD τ).loc main_arg5) := (U6_of_ne m c main_arg5 (by decide)).trans (U5_main_arg5 m c)
theorem U1_main_arg6 (c : Dev nD) : U1 m c main_arg6 = m ((c : Thread nD τ).loc main_arg6) := (V1_of m c main_arg6 (by decide)).trans rfl
theorem U2_main_arg6 (c : Dev nD) : U2 m c main_arg6 = m ((c : Thread nD τ).loc main_arg6) := (U2_of_ne m c main_arg6 (by decide)).trans (U1_main_arg6 m c)
theorem U3_main_arg6 (c : Dev nD) : U3 m c main_arg6 = m ((c : Thread nD τ).loc main_arg6) := (StableHlo.after_of_writes_sub hostOps1 _ hostOps1_writes (by decide : main_arg6 ∉ hostOps1_W)).trans (U2_main_arg6 m c)
theorem U4_main_arg6 (c : Dev nD) : U4 m c main_arg6 = m ((c : Thread nD τ).loc main_arg6) := (U4_of_ne m c main_arg6 (by decide)).trans (U3_main_arg6 m c)
theorem U5_main_arg6 (c : Dev nD) : U5 m c main_arg6 = m ((c : Thread nD τ).loc main_arg6) := (StableHlo.after_of_writes_sub hostOps2 _ hostOps2_writes (by decide : main_arg6 ∉ hostOps2_W)).trans (U4_main_arg6 m c)
theorem U6_main_arg6 (c : Dev nD) : U6 m c main_arg6 = m ((c : Thread nD τ).loc main_arg6) := (U6_of_ne m c main_arg6 (by decide)).trans (U5_main_arg6 m c)
theorem U1_main_arg7 (c : Dev nD) : U1 m c main_arg7 = m ((c : Thread nD τ).loc main_arg7) := (V1_of m c main_arg7 (by decide)).trans rfl
theorem U2_main_arg7 (c : Dev nD) : U2 m c main_arg7 = m ((c : Thread nD τ).loc main_arg7) := (U2_arr m c 2).trans (((dat0 (atRefs (U1 m)) c).arrAt_in 2 rfl _).trans ((A_eq0 (atRefs (U1 m)) c 2).trans (U1_main_arg7 m c)))
theorem U3_main_arg7 (c : Dev nD) : U3 m c main_arg7 = m ((c : Thread nD τ).loc main_arg7) := (StableHlo.after_of_writes_sub hostOps1 _ hostOps1_writes (by decide : main_arg7 ∉ hostOps1_W)).trans (U2_main_arg7 m c)
theorem U4_main_arg7 (c : Dev nD) : U4 m c main_arg7 = m ((c : Thread nD τ).loc main_arg7) := (U4_of_ne m c main_arg7 (by decide)).trans (U3_main_arg7 m c)
theorem U5_main_arg7 (c : Dev nD) : U5 m c main_arg7 = m ((c : Thread nD τ).loc main_arg7) := (StableHlo.after_of_writes_sub hostOps2 _ hostOps2_writes (by decide : main_arg7 ∉ hostOps2_W)).trans (U4_main_arg7 m c)
theorem U6_main_arg7 (c : Dev nD) : U6 m c main_arg7 = m ((c : Thread nD τ).loc main_arg7) := (U6_of_ne m c main_arg7 (by decide)).trans (U5_main_arg7 m c)
theorem U1_main_arg8 (c : Dev nD) : U1 m c main_arg8 = m ((c : Thread nD τ).loc main_arg8) := (V1_of m c main_arg8 (by decide)).trans rfl
theorem U2_main_arg8 (c : Dev nD) : U2 m c main_arg8 = m ((c : Thread nD τ).loc main_arg8) := (U2_of_ne m c main_arg8 (by decide)).trans (U1_main_arg8 m c)
theorem U3_main_arg8 (c : Dev nD) : U3 m c main_arg8 = m ((c : Thread nD τ).loc main_arg8) := (StableHlo.after_of_writes_sub hostOps1 _ hostOps1_writes (by decide : main_arg8 ∉ hostOps1_W)).trans (U2_main_arg8 m c)
theorem U4_main_arg8 (c : Dev nD) : U4 m c main_arg8 = m ((c : Thread nD τ).loc main_arg8) := (U4_of_ne m c main_arg8 (by decide)).trans (U3_main_arg8 m c)
theorem U5_main_arg8 (c : Dev nD) : U5 m c main_arg8 = m ((c : Thread nD τ).loc main_arg8) := (StableHlo.after_of_writes_sub hostOps2 _ hostOps2_writes (by decide : main_arg8 ∉ hostOps2_W)).trans (U4_main_arg8 m c)
theorem U6_main_arg8 (c : Dev nD) : U6 m c main_arg8 = m ((c : Thread nD τ).loc main_arg8) := (U6_of_ne m c main_arg8 (by decide)).trans (U5_main_arg8 m c)
theorem U1_main_arg9 (c : Dev nD) : U1 m c main_arg9 = m ((c : Thread nD τ).loc main_arg9) := (V1_of m c main_arg9 (by decide)).trans rfl
theorem U2_main_arg9 (c : Dev nD) : U2 m c main_arg9 = m ((c : Thread nD τ).loc main_arg9) := (U2_arr m c 4).trans (((dat0 (atRefs (U1 m)) c).arrAt_in 4 rfl _).trans ((A_eq0 (atRefs (U1 m)) c 4).trans (U1_main_arg9 m c)))
theorem U3_main_arg9 (c : Dev nD) : U3 m c main_arg9 = m ((c : Thread nD τ).loc main_arg9) := (StableHlo.after_of_writes_sub hostOps1 _ hostOps1_writes (by decide : main_arg9 ∉ hostOps1_W)).trans (U2_main_arg9 m c)
theorem U4_main_arg9 (c : Dev nD) : U4 m c main_arg9 = m ((c : Thread nD τ).loc main_arg9) := (U4_of_ne m c main_arg9 (by decide)).trans (U3_main_arg9 m c)
theorem U5_main_arg9 (c : Dev nD) : U5 m c main_arg9 = m ((c : Thread nD τ).loc main_arg9) := (StableHlo.after_of_writes_sub hostOps2 _ hostOps2_writes (by decide : main_arg9 ∉ hostOps2_W)).trans (U4_main_arg9 m c)
theorem U6_main_arg9 (c : Dev nD) : U6 m c main_arg9 = m ((c : Thread nD τ).loc main_arg9) := (U6_of_ne m c main_arg9 (by decide)).trans (U5_main_arg9 m c)
theorem U1_main_arg10 (c : Dev nD) : U1 m c main_arg10 = m ((c : Thread nD τ).loc main_arg10) := (V1_of m c main_arg10 (by decide)).trans rfl
theorem U2_main_arg10 (c : Dev nD) : U2 m c main_arg10 = m ((c : Thread nD τ).loc main_arg10) := (U2_of_ne m c main_arg10 (by decide)).trans (U1_main_arg10 m c)
theorem U3_main_arg10 (c : Dev nD) : U3 m c main_arg10 = m ((c : Thread nD τ).loc main_arg10) := (StableHlo.after_of_writes_sub hostOps1 _ hostOps1_writes (by decide : main_arg10 ∉ hostOps1_W)).trans (U2_main_arg10 m c)
theorem U4_main_arg10 (c : Dev nD) : U4 m c main_arg10 = m ((c : Thread nD τ).loc main_arg10) := (U4_arr m c 2).trans (((dat1 (atRefs (U3 m)) c).arrAt_in 2 rfl _).trans ((A_eq1 (atRefs (U3 m)) c 2).trans (U3_main_arg10 m c)))
theorem U5_main_arg10 (c : Dev nD) : U5 m c main_arg10 = m ((c : Thread nD τ).loc main_arg10) := (StableHlo.after_of_writes_sub hostOps2 _ hostOps2_writes (by decide : main_arg10 ∉ hostOps2_W)).trans (U4_main_arg10 m c)
theorem U6_main_arg10 (c : Dev nD) : U6 m c main_arg10 = m ((c : Thread nD τ).loc main_arg10) := (U6_of_ne m c main_arg10 (by decide)).trans (U5_main_arg10 m c)
theorem U1_main_arg11 (c : Dev nD) : U1 m c main_arg11 = m ((c : Thread nD τ).loc main_arg11) := (V1_of m c main_arg11 (by decide)).trans rfl
theorem U2_main_arg11 (c : Dev nD) : U2 m c main_arg11 = m ((c : Thread nD τ).loc main_arg11) := (U2_of_ne m c main_arg11 (by decide)).trans (U1_main_arg11 m c)
theorem U3_main_arg11 (c : Dev nD) : U3 m c main_arg11 = m ((c : Thread nD τ).loc main_arg11) := (StableHlo.after_of_writes_sub hostOps1 _ hostOps1_writes (by decide : main_arg11 ∉ hostOps1_W)).trans (U2_main_arg11 m c)
theorem U4_main_arg11 (c : Dev nD) : U4 m c main_arg11 = m ((c : Thread nD τ).loc main_arg11) := (U4_of_ne m c main_arg11 (by decide)).trans (U3_main_arg11 m c)
theorem U5_main_arg11 (c : Dev nD) : U5 m c main_arg11 = m ((c : Thread nD τ).loc main_arg11) := (StableHlo.after_of_writes_sub hostOps2 _ hostOps2_writes (by decide : main_arg11 ∉ hostOps2_W)).trans (U4_main_arg11 m c)
theorem U6_main_arg11 (c : Dev nD) : U6 m c main_arg11 = m ((c : Thread nD τ).loc main_arg11) := (U6_of_ne m c main_arg11 (by decide)).trans (U5_main_arg11 m c)
theorem U1_main_arg12 (c : Dev nD) : U1 m c main_arg12 = m ((c : Thread nD τ).loc main_arg12) := (V1_of m c main_arg12 (by decide)).trans rfl
theorem U2_main_arg12 (c : Dev nD) : U2 m c main_arg12 = m ((c : Thread nD τ).loc main_arg12) := (U2_of_ne m c main_arg12 (by decide)).trans (U1_main_arg12 m c)
theorem U3_main_arg12 (c : Dev nD) : U3 m c main_arg12 = m ((c : Thread nD τ).loc main_arg12) := (StableHlo.after_of_writes_sub hostOps1 _ hostOps1_writes (by decide : main_arg12 ∉ hostOps1_W)).trans (U2_main_arg12 m c)
theorem U4_main_arg12 (c : Dev nD) : U4 m c main_arg12 = m ((c : Thread nD τ).loc main_arg12) := (U4_arr m c 4).trans (((dat1 (atRefs (U3 m)) c).arrAt_in 4 rfl _).trans ((A_eq1 (atRefs (U3 m)) c 4).trans (U3_main_arg12 m c)))
theorem U5_main_arg12 (c : Dev nD) : U5 m c main_arg12 = m ((c : Thread nD τ).loc main_arg12) := (StableHlo.after_of_writes_sub hostOps2 _ hostOps2_writes (by decide : main_arg12 ∉ hostOps2_W)).trans (U4_main_arg12 m c)
theorem U6_main_arg12 (c : Dev nD) : U6 m c main_arg12 = m ((c : Thread nD τ).loc main_arg12) := (U6_of_ne m c main_arg12 (by decide)).trans (U5_main_arg12 m c)
theorem U1_main_arg13 (c : Dev nD) : U1 m c main_arg13 = m ((c : Thread nD τ).loc main_arg13) := (V1_of m c main_arg13 (by decide)).trans rfl
theorem U2_main_arg13 (c : Dev nD) : U2 m c main_arg13 = m ((c : Thread nD τ).loc main_arg13) := (U2_of_ne m c main_arg13 (by decide)).trans (U1_main_arg13 m c)
theorem U3_main_arg13 (c : Dev nD) : U3 m c main_arg13 = m ((c : Thread nD τ).loc main_arg13) := (StableHlo.after_of_writes_sub hostOps1 _ hostOps1_writes (by decide : main_arg13 ∉ hostOps1_W)).trans (U2_main_arg13 m c)
theorem U4_main_arg13 (c : Dev nD) : U4 m c main_arg13 = m ((c : Thread nD τ).loc main_arg13) := (U4_of_ne m c main_arg13 (by decide)).trans (U3_main_arg13 m c)
theorem U5_main_arg13 (c : Dev nD) : U5 m c main_arg13 = m ((c : Thread nD τ).loc main_arg13) := (StableHlo.after_of_writes_sub hostOps2 _ hostOps2_writes (by decide : main_arg13 ∉ hostOps2_W)).trans (U4_main_arg13 m c)
theorem U6_main_arg13 (c : Dev nD) : U6 m c main_arg13 = m ((c : Thread nD τ).loc main_arg13) := (U6_arr m c 3).trans (((dat2 (atRefs (U5 m)) c).arrAt_in 3 rfl _).trans ((A_eq2 (atRefs (U5 m)) c 3).trans (U5_main_arg13 m c)))
theorem U1_main_arg14 (c : Dev nD) : U1 m c main_arg14 = m ((c : Thread nD τ).loc main_arg14) := (V1_of m c main_arg14 (by decide)).trans rfl
theorem U2_main_arg14 (c : Dev nD) : U2 m c main_arg14 = m ((c : Thread nD τ).loc main_arg14) := (U2_of_ne m c main_arg14 (by decide)).trans (U1_main_arg14 m c)
theorem U3_main_arg14 (c : Dev nD) : U3 m c main_arg14 = m ((c : Thread nD τ).loc main_arg14) := (StableHlo.after_of_writes_sub hostOps1 _ hostOps1_writes (by decide : main_arg14 ∉ hostOps1_W)).trans (U2_main_arg14 m c)
theorem U4_main_arg14 (c : Dev nD) : U4 m c main_arg14 = m ((c : Thread nD τ).loc main_arg14) := (U4_of_ne m c main_arg14 (by decide)).trans (U3_main_arg14 m c)
theorem U5_main_arg14 (c : Dev nD) : U5 m c main_arg14 = m ((c : Thread nD τ).loc main_arg14) := (StableHlo.after_of_writes_sub hostOps2 _ hostOps2_writes (by decide : main_arg14 ∉ hostOps2_W)).trans (U4_main_arg14 m c)
theorem U6_main_arg14 (c : Dev nD) : U6 m c main_arg14 = m ((c : Thread nD τ).loc main_arg14) := (U6_of_ne m c main_arg14 (by decide)).trans (U5_main_arg14 m c)
theorem U1_main_arg15 (c : Dev nD) : U1 m c main_arg15 = m ((c : Thread nD τ).loc main_arg15) := (V1_of m c main_arg15 (by decide)).trans rfl
theorem U2_main_arg15 (c : Dev nD) : U2 m c main_arg15 = m ((c : Thread nD τ).loc main_arg15) := (U2_of_ne m c main_arg15 (by decide)).trans (U1_main_arg15 m c)
theorem U3_main_arg15 (c : Dev nD) : U3 m c main_arg15 = m ((c : Thread nD τ).loc main_arg15) := (StableHlo.after_of_writes_sub hostOps1 _ hostOps1_writes (by decide : main_arg15 ∉ hostOps1_W)).trans (U2_main_arg15 m c)
theorem U4_main_arg15 (c : Dev nD) : U4 m c main_arg15 = m ((c : Thread nD τ).loc main_arg15) := (U4_of_ne m c main_arg15 (by decide)).trans (U3_main_arg15 m c)
theorem U5_main_arg15 (c : Dev nD) : U5 m c main_arg15 = m ((c : Thread nD τ).loc main_arg15) := (StableHlo.after_of_writes_sub hostOps2 _ hostOps2_writes (by decide : main_arg15 ∉ hostOps2_W)).trans (U4_main_arg15 m c)
theorem U6_main_arg15 (c : Dev nD) : U6 m c main_arg15 = m ((c : Thread nD τ).loc main_arg15) := (U6_arr m c 5).trans (((dat2 (atRefs (U5 m)) c).arrAt_in 5 rfl _).trans ((A_eq2 (atRefs (U5 m)) c 5).trans (U5_main_arg15 m c)))
theorem U1_main_arg16 (c : Dev nD) : U1 m c main_arg16 = m ((c : Thread nD τ).loc main_arg16) := (V1_of m c main_arg16 (by decide)).trans rfl
theorem U2_main_arg16 (c : Dev nD) : U2 m c main_arg16 = m ((c : Thread nD τ).loc main_arg16) := (U2_of_ne m c main_arg16 (by decide)).trans (U1_main_arg16 m c)
theorem U3_main_arg16 (c : Dev nD) : U3 m c main_arg16 = m ((c : Thread nD τ).loc main_arg16) := (StableHlo.after_of_writes_sub hostOps1 _ hostOps1_writes (by decide : main_arg16 ∉ hostOps1_W)).trans (U2_main_arg16 m c)
theorem U4_main_arg16 (c : Dev nD) : U4 m c main_arg16 = m ((c : Thread nD τ).loc main_arg16) := (U4_of_ne m c main_arg16 (by decide)).trans (U3_main_arg16 m c)
theorem U5_main_arg16 (c : Dev nD) : U5 m c main_arg16 = m ((c : Thread nD τ).loc main_arg16) := (StableHlo.after_of_writes_sub hostOps2 _ hostOps2_writes (by decide : main_arg16 ∉ hostOps2_W)).trans (U4_main_arg16 m c)
theorem U6_main_arg16 (c : Dev nD) : U6 m c main_arg16 = m ((c : Thread nD τ).loc main_arg16) := (U6_arr m c 6).trans (((dat2 (atRefs (U5 m)) c).arrAt_in 6 rfl _).trans ((A_eq2 (atRefs (U5 m)) c 6).trans (U5_main_arg16 m c)))
theorem U1_main_arg17 (c : Dev nD) : U1 m c main_arg17 = m ((c : Thread nD τ).loc main_arg17) := (V1_of m c main_arg17 (by decide)).trans rfl
theorem U2_main_arg17 (c : Dev nD) : U2 m c main_arg17 = m ((c : Thread nD τ).loc main_arg17) := (U2_of_ne m c main_arg17 (by decide)).trans (U1_main_arg17 m c)
theorem U3_main_arg17 (c : Dev nD) : U3 m c main_arg17 = m ((c : Thread nD τ).loc main_arg17) := (StableHlo.after_of_writes_sub hostOps1 _ hostOps1_writes (by decide : main_arg17 ∉ hostOps1_W)).trans (U2_main_arg17 m c)
theorem U4_main_arg17 (c : Dev nD) : U4 m c main_arg17 = m ((c : Thread nD τ).loc main_arg17) := (U4_of_ne m c main_arg17 (by decide)).trans (U3_main_arg17 m c)
theorem U5_main_arg17 (c : Dev nD) : U5 m c main_arg17 = m ((c : Thread nD τ).loc main_arg17) := (StableHlo.after_of_writes_sub hostOps2 _ hostOps2_writes (by decide : main_arg17 ∉ hostOps2_W)).trans (U4_main_arg17 m c)
theorem U6_main_arg17 (c : Dev nD) : U6 m c main_arg17 = m ((c : Thread nD τ).loc main_arg17) := (U6_of_ne m c main_arg17 (by decide)).trans (U5_main_arg17 m c)

/-! ## The frame, and the run with the result named -/

/-- THE FRAME: every weakly fair execution of @main terminates, nothing faulting, and every argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (U6_main_arg0 m c),
      (h c _ (mem_uc main_arg1 (by decide))).trans (U6_main_arg1 m c),
      (h c _ (mem_uc main_arg2 (by decide))).trans (U6_main_arg2 m c),
      (h c _ (mem_uc main_arg3 (by decide))).trans (U6_main_arg3 m c),
      (h c _ (mem_uc main_arg4 (by decide))).trans (U6_main_arg4 m c),
      (h c _ (mem_uc main_arg5 (by decide))).trans (U6_main_arg5 m c),
      (h c _ (mem_uc main_arg6 (by decide))).trans (U6_main_arg6 m c),
      (h c _ (mem_uc main_arg7 (by decide))).trans (U6_main_arg7 m c),
      (h c _ (mem_uc main_arg8 (by decide))).trans (U6_main_arg8 m c),
      (h c _ (mem_uc main_arg9 (by decide))).trans (U6_main_arg9 m c),
      (h c _ (mem_uc main_arg10 (by decide))).trans (U6_main_arg10 m c),
      (h c _ (mem_uc main_arg11 (by decide))).trans (U6_main_arg11 m c),
      (h c _ (mem_uc main_arg12 (by decide))).trans (U6_main_arg12 m c),
      (h c _ (mem_uc main_arg13 (by decide))).trans (U6_main_arg13 m c),
      (h c _ (mem_uc main_arg14 (by decide))).trans (U6_main_arg14 m c),
      (h c _ (mem_uc main_arg15 (by decide))).trans (U6_main_arg15 m c),
      (h c _ (mem_uc main_arg16 (by decide))).trans (U6_main_arg16 m c),
      (h c _ (mem_uc main_arg17 (by decide))).trans (U6_main_arg17 m c)⟩) (run_all m ρ)

/-- The same run with the result array named: it ends at what region 2 leaves in it. -/
theorem run_result : θ_run defs (onTc (τ := τ) (main (F := F))) ⟨m, fun _ => 0, ρ⟩ (fun r => ∀ c : Dev nD,
      r.2.mem ((c.tc : Thread nD τ).loc main_v60) = U6 m c main_v60
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v60 (by decide)),
      (h c _ (mem_uc main_arg0 (by decide))).trans (U6_main_arg0 m c),
      (h c _ (mem_uc main_arg1 (by decide))).trans (U6_main_arg1 m c),
      (h c _ (mem_uc main_arg2 (by decide))).trans (U6_main_arg2 m c),
      (h c _ (mem_uc main_arg3 (by decide))).trans (U6_main_arg3 m c),
      (h c _ (mem_uc main_arg4 (by decide))).trans (U6_main_arg4 m c),
      (h c _ (mem_uc main_arg5 (by decide))).trans (U6_main_arg5 m c),
      (h c _ (mem_uc main_arg6 (by decide))).trans (U6_main_arg6 m c),
      (h c _ (mem_uc main_arg7 (by decide))).trans (U6_main_arg7 m c),
      (h c _ (mem_uc main_arg8 (by decide))).trans (U6_main_arg8 m c),
      (h c _ (mem_uc main_arg9 (by decide))).trans (U6_main_arg9 m c),
      (h c _ (mem_uc main_arg10 (by decide))).trans (U6_main_arg10 m c),
      (h c _ (mem_uc main_arg11 (by decide))).trans (U6_main_arg11 m c),
      (h c _ (mem_uc main_arg12 (by decide))).trans (U6_main_arg12 m c),
      (h c _ (mem_uc main_arg13 (by decide))).trans (U6_main_arg13 m c),
      (h c _ (mem_uc main_arg14 (by decide))).trans (U6_main_arg14 m c),
      (h c _ (mem_uc main_arg15 (by decide))).trans (U6_main_arg15 m c),
      (h c _ (mem_uc main_arg16 (by decide))).trans (U6_main_arg16 m c),
      (h c _ (mem_uc main_arg17 (by decide))).trans (U6_main_arg17 m c)⟩) (run_all m ρ)

end Cert.KernelIdeal.Hand

end
-- ==== Proof.Spec.lean ====
/-
  The mathematics both programs compute, index by index over the extended reals, stated over plain functions of
  row and column so that each program's arrays instantiate it.

  A graph-convolution layer at node r, output feature q:   (Σ_j A r j · W_rel j q + Σ_j H r j · W_root j q) + b q,
  where A is the aggregate of the neighbours' features and H the node's own; layers 1 and 2 take max (·, 0) of it.
  The mean pool over graphs: node n belongs to graph g when its id, a 32-bit word read as a signed integer, is g (an id
  outside 0 … 63 belongs to no graph); the pooled row of g is the sum of its nodes' rows divided by max (their number, 1);
  the result is the pooled rows through the final linear layer.
-/
import Idealize.ShloMosaic.PureOps.Ideal
import Idealize.ShloMosaic.Lib.ValueIdx

noncomputable section

namespace Cert.Spec

open Idealize.ShloMosaic Idealize.ShloMosaic.ValueIdx

/-- A rank-2 array as a function of row and column, and back. -/
def toFn {a b : ℕ} (x : (⟨2, ![a, b]⟩ : Shape).Idx → EReal) : Fin a → Fin b → EReal := fun r q => x (ix2 r q)
def ofFn {a b : ℕ} (f : Fin a → Fin b → EReal) : (⟨2, ![a, b]⟩ : Shape).Idx → EReal := fun i => f (i 0) (i 1)

theorem ofFn_apply {a b : ℕ} (f : Fin a → Fin b → EReal) (r : Fin a) (q : Fin b) : ofFn f (ix2 r q) = f r q := rfl
theorem toFn_apply {a b : ℕ} (x : (⟨2, ![a, b]⟩ : Shape).Idx → EReal) (r : Fin a) (q : Fin b) : toFn x r q = x (ix2 r q) := rfl
theorem ofFn_toFn {a b : ℕ} (x : (⟨2, ![a, b]⟩ : Shape).Idx → EReal) : ofFn (toFn x) = x := by
  funext i; exact congrArg x (eq_ix2 i).symm
theorem toFn_ofFn {a b : ℕ} (f : Fin a → Fin b → EReal) : toFn (ofFn f) = f := rfl

/-- One graph-convolution layer at node `r`, output feature `q`, before any ReLU: the aggregate through W_rel plus the
    node's own features through W_root, plus the bias. -/
def convAt (k : ℕ) (A H : Fin 80000 → Fin k → EReal) (Wr : Fin k → Fin 64 → EReal) (b : Fin 64 → EReal)
    (Wo : Fin k → Fin 64 → EReal) (r : Fin 80000) (q : Fin 64) : EReal :=
  (∑ j : Fin k, A r j * Wr j q + ∑ j : Fin k, H r j * Wo j q) + b q

/-- The same with the ReLU of layers 1 and 2. -/
def convRelu (k : ℕ) (A H : Fin 80000 → Fin k → EReal) (Wr : Fin k → Fin 64 → EReal) (b : Fin 64 → EReal)
    (Wo : Fin k → Fin 64 → EReal) (r : Fin 80000) (q : Fin 64) : EReal :=
  max (convAt k A H Wr b Wo r q) 0

/-- Node `n` belongs to graph `g`: its id, read as a signed integer, is `g`. -/
def member (batch : Fin 80000 → BitVec 32) (g : Fin 64) (n : Fin 80000) : Prop := (batch n).toInt = (g.val : ℤ)

instance (batch : Fin 80000 → BitVec 32) (g : Fin 64) : DecidablePred (member batch g) := fun _ => Int.decEq _ _

/-- The sum of the rows of graph `g`'s nodes, at feature `k`. -/
def poolSum (H : Fin 80000 → Fin 64 → EReal) (batch : Fin 80000 → BitVec 32) (g : Fin 64) (k : Fin 64) : EReal :=
  ∑ n ∈ Finset.univ.filter (member batch g), H n k

/-- The number of graph `g`'s nodes. -/
def poolCnt (batch : Fin 80000 → BitVec 32) (g : Fin 64) : EReal :=
  ∑ _n ∈ Finset.univ.filter (member batch g), (1 : EReal)

/-- The result at graph `g`, class `j`: the mean row of the graph through the final linear layer. -/
def headAt (H : Fin 80000 → Fin 64 → EReal) (batch : Fin 80000 → BitVec 32) (LW : Fin 64 → Fin 2 → EReal) (lb : Fin 2 → EReal)
    (g : Fin 64) (j : Fin 2) : EReal :=
  (∑ k : Fin 64, Ideal.div (poolSum H batch g k) (max (poolCnt batch g) 1) * LW k j) + lb j

end Cert.Spec

end
-- ==== Proof.LibBlockOps.lean ====
/-
  BLOCK OPERATIONS READ AT AN ENTRY — a general lemma file (no program is named here).

  Facts about matrices of extended reals, each at an entry given by its two coordinates:
  • the product of an m×k block by a k×n block accumulated into the zero block — the contraction over the left factor's
    second axis and the right factor's first — is the sum over the contracted coordinate of the products of the entries;
  • a column (an a×1 block) broadcast over b columns reads, at (p, c), the column's entry in row p.
-/
import Idealize.ShloMosaic.PureOps.Ideal.Laws
import Idealize.ShloMosaic.Lib.ValueIdx
import Idealize.ShloMosaic.Lib.ValueLayout

noncomputable section

open scoped BigOperators

namespace BlockOps

open Idealize.ShloMosaic Idealize.ShloMosaic.ValueIdx

variable {m k n : Nat}

/-- The dimension numbers of the plain product of an m×k by a k×n matrix: contract the left factor's axis 1 with the
    right factor's axis 0; rows of the left and columns of the right survive. The argument is their well-formedness. -/
abbrev rowCol (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left factor's index at output entry (a, b) and contracted coordinate c is (a, c). -/
theorem rowCol_lhsIdx (w : DotDims.WF ⟨2, ![m, k]⟩ ⟨2, ![k, n]⟩ ⟨2, ![m, n]⟩ [1] [0] [0] [1] [] [])
    (a : Fin m) (b : Fin n) (c : Fin k) :
    (rowCol w).lhsIdx (ix2 a b) ((contrEquiv1 (rowCol w) k rfl rfl).symm c) = ix2 a c := by
  have c2 := contrEquiv1_symm_val (rowCol w) k rfl rfl c
  funext ax; apply Fin.ext
  match ax with
  | ⟨0, _⟩ => simp [DotDims.lhsIdx]; rfl
  | ⟨1, _⟩ => simp [DotDims.lhsIdx]; exact c2

/-- The right factor's index there is (c, b). -/
theorem rowCol_rhsIdx (w : DotDims.WF ⟨2, ![m, k]⟩ ⟨2, ![k, n]⟩ ⟨2, ![m, n]⟩ [1] [0] [0] [1] [] [])
    (a : Fin m) (b : Fin n) (c : Fin k) :
    (rowCol w).rhsIdx (ix2 a b) ((contrEquiv1 (rowCol w) k rfl rfl).symm c) = ix2 c b := by
  have c2 := contrEquiv1_symm_val (rowCol w) k rfl rfl c
  funext ax; apply Fin.ext
  match ax with
  | ⟨0, _⟩ => simp [DotDims.rhsIdx]; exact c2
  | ⟨1, _⟩ => simp [DotDims.rhsIdx]; rfl

/-- The block product into the zero block, at entry (a, b): the sum over c of A[a, c] · B[c, b]. At the ideal values. -/
theorem matmul_zero_apply {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (rowCol w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (rowCol w) k rfl rfl).symm]
  refine Finset.sum_congr rfl fun c _ => ?_
  rw [rowCol_lhsIdx, rowCol_rhsIdx]

/-- An a×1 column broadcast over b columns reads, at (p, c), the column's entry in row p. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end BlockOps

end
-- ==== Proof.KI.Val0.lean ====
/-
  Region 0 (graph-convolution layer 1) read as a value, at the ideal values: what the region leaves in its output
  array, index by index.

  At a grid point the body stores, at row p and column q of the 8000-row output block,
      max ((Σ_k agg[p, k] · W_rel[k, q] + Σ_k x[p, k] · W_root[k, q]) + b[0, q], 0):
  the narrowing of the operands to bf16 and the casts to the same shape do nothing to ideal values, each block product
  into the zero block is the sum over the contracted coordinate, the bias row is repeated down the rows, and the zero
  constant is the real 0. Block t of each row window is rows 8000·t … 8000·t + 7999 of its array, and the weight and bias
  windows are their whole arrays at every point, so what point t writes back is block t of ONE function of the
  arrays as the region finds them: the layer's value at (row, column). The ten blocks cover the 80000 rows (row r is in
  block r / 8000), so the output array ends holding that function everywhere.
-/
import proofs.«431281_j6751688589931_2_alg».proof.Proof.KI.Reg0
import proofs.«431281_j6751688589931_2_alg».proof.Proof.Spec
import proofs.«431281_j6751688589931_2_alg».proof.Proof.LibBlockOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

/-! ## The body's stored value at an entry -/

/-- The block product's dimension numbers are those of the plain product of a matrix by a matrix. -/
theorem dotRec0 : dot_S8000x4_S4x64_S8000x64_1_0_0_1_n_n = BlockOps.rowCol dot_S8000x4_S4x64_S8000x64_1_0_0_1_n_n_wf := rfl

/-- The stored value at row p, column q of the block, from the five loaded blocks. -/
theorem pay0_apply (x0 x1 : Vec Ideal S8000x4 .f32) (x2 x4 : Vec Ideal S4x64 .f32) (x3 : Vec Ideal S1x64 .f32) (p : Fin 8000) (q : Fin 64) :
    k0_pay1 (F := Ideal) x0 x1 x2 x4 x3 (ix2 p q)
      = max ((∑ k : Fin 4, x0 (ix2 p k) * x2 (ix2 k q) + ∑ k : Fin 4, x1 (ix2 p k) * x4 (ix2 k q)) + x3 (ix2 (0 : Fin 1) q)) 0 := by
  unfold k0_pay1
  simp only [maximumf_apply, addf_apply, broadcast_apply, matmul, dotRec0, BlockOps.matmul_zero_apply, truncf_apply, shapeCast_self]
  have hb : broadcastTo S8000x64 x3 broadcasts_S1x64_S8000x64 (ix2 p q) = x3 (ix2 (0 : Fin 1) q) := by
    refine broadcastTo_apply x3 broadcasts_S1x64_S8000x64 (ix2 p q) (ix2 (0 : Fin 1) q) fun a => ?_
    match a with
    | ⟨0, _⟩ => rfl
    | ⟨1, _⟩ => rfl
  have hz : (FloatOps.ofBits .f32 0x00000000#32 : Ideal .f32) = 0 := Ideal.ofBits_zero_f32
  rw [hb, hz]

/-- The same when the loaded blocks are known, at the entries the value reads, to be entries of whole arrays: row p of
    the two row blocks is row r of the arrays, and the weights and the bias are the arrays themselves. It is the layer's
    value at (r, q). -/
theorem pay0_at (A H : S80000x4.Idx → EReal) (Wr Wo : S4x64.Idx → EReal) (b : S1x64.Idx → EReal)
    (x0 x1 : Vec Ideal S8000x4 .f32) (x2 x4 : Vec Ideal S4x64 .f32) (x3 : Vec Ideal S1x64 .f32)
    (p : Fin 8000) (q : Fin 64) (r : Fin 80000)
    (h0 : ∀ k : Fin 4, x0 (ix2 p k) = A (ix2 r k)) (h1 : ∀ k : Fin 4, x1 (ix2 p k) = H (ix2 r k))
    (h2 : ∀ k : Fin 4, x2 (ix2 k q) = Wr (ix2 k q)) (h4 : ∀ k : Fin 4, x4 (ix2 k q) = Wo (ix2 k q))
    (h3 : x3 (ix2 (0 : Fin 1) q) = b (ix2 (0 : Fin 1) q)) :
    k0_pay1 (F := Ideal) x0 x1 x2 x4 x3 (ix2 p q)
      = Cert.Spec.convRelu 4 (Cert.Spec.toFn A) (Cert.Spec.toFn H) (Cert.Spec.toFn Wr) (fun q => b (ix2 (0 : Fin 1) q)) (Cert.Spec.toFn Wo) r q := by
  rw [pay0_apply, h3]
  simp only [h0, h1, h2, h4]
  rfl

/-! ## What a point writes back -/

section Region0

variable (V : (c : Dev nD) → (b : Ref sig .tc) → Buf (Elt Ideal) ((c : Thread nD τ).loc b))

theorem zeroOff0 : (![0, 0] : Fin 2 → Nat) = fun _ => 0 := funext fun a => by fin_cases a <;> rfl

/-- The layer's value over the whole output array, from the arrays as the region finds them. -/
def layer0 (c : Dev nD) : S80000x64.Idx → EReal :=
  Cert.Spec.ofFn (Cert.Spec.convRelu 4 (Cert.Spec.toFn (V c main_v28)) (Cert.Spec.toFn (V c main_v16)) (Cert.Spec.toFn (V c main_arg7))
    (fun q => V c main_v29 (ix2 (0 : Fin 1) q)) (Cert.Spec.toFn (V c main_arg9)))

/-- The index maps over the ten points: the two row windows and the output are at block t on the rows and block 0 on
    the columns; the weights and the bias are at block 0 on both axes. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer's value. -/
theorem flushed0_eq (c : Dev nD) (t : Fin cfg0.N) :
    (dat0 (F := Ideal) V c).flushed 5 t = ((cfg0.win 5).blk t).view.read (Elt Ideal) (layer0 V c) := by
  show (cfg0.win 5).cut (grid0.coords t) ((dat0 (F := Ideal) V c).after 5 t) = _
  rw [after0_5]
  unfold out0_5
  rw [View.canon_unit_zero zeroOff0]
  simp only [View.ld_unit_zero (S := S8000x4) zeroOff0, View.ld_unit_zero (S := S4x64) zeroOff0, View.ld_unit_zero (S := S1x64) zeroOff0]
  obtain ⟨e00, e01, e10, e11, e20, e21, e30, e31, e40, e41, e50, e51⟩ := idx_facts0 t
  funext j
  obtain ⟨p, q, rfl⟩ : ∃ (p : Fin 8000) (q : Fin 64), j = ix2 p q := ⟨j 0, j 1, eq_ix2 j⟩
  have hq : (((cfg0.win 5).blk t).view.emb (ix2 p q)) 1 = q :=
    Fin.ext (by show win0_5.index t (1 : Fin 2) * 64 + 1 * q.val = q.val; omega)
  refine (pay0_at (V c main_v28) (V c main_v16) (V c main_arg7) (V c main_arg9) (V c main_v29) _ _ _ _ _ p q
    ((((cfg0.win 5).blk t).view.emb (ix2 p q)) 0) ?_ ?_ ?_ ?_ ?_).trans ?_
  · intro k
    show V c main_v28 (((cfg0.win 0).blk t).view.emb (ix2 p k)) = _
    refine congrArg (V c main_v28) (funext fun a => Fin.ext ?_)
    match a with
    | ⟨0, _⟩ => show win0_0.index t (0 : Fin 2) * 8000 + 1 * p.val = win0_5.index t (0 : Fin 2) * 8000 + 1 * p.val; omega
    | ⟨1, _⟩ => show win0_0.index t (1 : Fin 2) * 4 + 1 * k.val = k.val; omega
  · intro k
    show V c main_v16 (((cfg0.win 1).blk t).view.emb (ix2 p k)) = _
    refine congrArg (V c main_v16) (funext fun a => Fin.ext ?_)
    match a with
    | ⟨0, _⟩ => show win0_1.index t (0 : Fin 2) * 8000 + 1 * p.val = win0_5.index t (0 : Fin 2) * 8000 + 1 * p.val; omega
    | ⟨1, _⟩ => show win0_1.index t (1 : Fin 2) * 4 + 1 * k.val = k.val; omega
  · intro k
    show V c main_arg7 (((cfg0.win 2).blk t).view.emb (ix2 k q)) = _
    refine congrArg (V c main_arg7) (funext fun a => Fin.ext ?_)
    match a with
    | ⟨0, _⟩ => show win0_2.index t (0 : Fin 2) * 4 + 1 * k.val = k.val; omega
    | ⟨1, _⟩ => show win0_2.index t (1 : Fin 2) * 64 + 1 * q.val = q.val; omega
  · intro k
    show V c main_arg9 (((cfg0.win 4).blk t).view.emb (ix2 k q)) = _
    refine congrArg (V c main_arg9) (funext fun a => Fin.ext ?_)
    match a with
    | ⟨0, _⟩ => show win0_4.index t (0 : Fin 2) * 4 + 1 * k.val = k.val; omega
    | ⟨1, _⟩ => show win0_4.index t (1 : Fin 2) * 64 + 1 * q.val = q.val; omega
  · show V c main_v29 (((cfg0.win 3).blk t).view.emb (ix2 (0 : Fin 1) q)) = _
    refine congrArg (V c main_v29) (funext fun a => Fin.ext ?_)
    match a with
    | ⟨0, _⟩ => show win0_3.index t (0 : Fin 2) * 1 + 1 * 0 = 0; omega
    | ⟨1, _⟩ => show win0_3.index t (1 : Fin 2) * 64 + 1 * q.val = q.val; omega
  · show _ = Cert.Spec.convRelu 4 _ _ _ _ _ ((((cfg0.win 5).blk t).view.emb (ix2 p q)) 0) ((((cfg0.win 5).blk t).view.emb (ix2 p q)) 1)
    rw [hq]

/-! ## The blocks cover the array -/

/-- An index of the output array is in point t's block iff each coordinate is in the block's range on its axis. -/
theorem mem_blk0 (t : Fin cfg0.N) (i : S80000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v30).slice (win0_5.rect t)).set ↔ _
  rw [View.set_slice_whole, Rect.mem_set_unit]
  exact Iff.rfl

/-- Row r of the output is in the block of point r / 8000. -/
theorem cover0 (i : S80000x64.Idx) : ∃ t : Fin cfg0.N, (cfg0.win 5).flush t = true ∧ i ∈ ((cfg0.win 5).blk t).view.set := by
  have hi0 : (i 0).val < 80000 := (i 0).isLt
  have hi1 : (i 1).val < 64 := (i 1).isLt
  have hlt : (i 0).val / 8000 < grid0.N := by rw [N_0]; omega
  obtain ⟨e00, e01, e10, e11, e20, e21, e30, e31, e40, e41, e50, e51⟩ := idx_facts0 ⟨(i 0).val / 8000, hlt⟩
  have e50' : win0_5.index ⟨(i 0).val / 8000, hlt⟩ (0 : Fin 2) = (i 0).val / 8000 := e50
  refine ⟨⟨(i 0).val / 8000, hlt⟩, flush0_5 _, ?_⟩
  rw [mem_blk0]
  intro a
  match a with
  | ⟨0, _⟩ =>
    show win0_5.index ⟨(i 0).val / 8000, hlt⟩ (0 : Fin 2) * 8000 ≤ (i 0).val ∧ (i 0).val < win0_5.index ⟨(i 0).val / 8000, hlt⟩ (0 : Fin 2) * 8000 + 8000
    omega
  | ⟨1, _⟩ =>
    show win0_5.index ⟨(i 0).val / 8000, hlt⟩ (1 : Fin 2) * 64 ≤ (i 1).val ∧ (i 1).val < win0_5.index ⟨(i 0).val / 8000, hlt⟩ (1 : Fin 2) * 64 + 64
    omega

/-! ## The output array after the region -/

/-- The output array ends holding the layer's value at every index. -/
theorem arr0_eq (c : Dev nD) : (dat0 (F := Ideal) V c).arrAt 5 cfg0.N = layer0 V c :=
  (dat0 (F := Ideal) V c).arrAt_eq_of_cover 5 (layer0 V c) (fun t _ => flushed0_eq V c t) cover0

theorem arr0_apply (c : Dev nD) (r : Fin 80000) (q : Fin 64) :
    (dat0 (F := Ideal) V c).arrAt 5 cfg0.N (ValueIdx.ix2 r q)
      = Cert.Spec.convRelu 4 (Cert.Spec.toFn (V c main_v28)) (Cert.Spec.toFn (V c main_v16)) (Cert.Spec.toFn (V c main_arg7))
          (fun q => V c main_v29 (ValueIdx.ix2 0 q)) (Cert.Spec.toFn (V c main_arg9)) r q :=
  (congrFun (arr0_eq V c) (ValueIdx.ix2 r q)).trans rfl

end Region0

end Cert.KernelIdeal.Hand

end
-- ==== Proof.KI.Val1.lean ====
/-
  Region 1 (graph-convolution layer 2) read as a value, at the ideal values: what the region leaves in its output
  array, index by index.

  At a grid point the body stores, at row p and column q of the 8000-row output block,
      max ((Σ_k agg[p, k] · W_rel[k, q] + Σ_k x[p, k] · W_root[k, q]) + b[0, q], 0):
  the narrowing of the operands to bf16 and the casts to the same shape do nothing to ideal values, each block product
  into the zero block is the sum over the contracted coordinate, the bias row is repeated down the rows, and the zero
  constant is the real 0. Block t of each row window is rows 8000·t … 8000·t + 7999 of its array, and the weight and bias
  windows are their whole arrays at every point, so what point t writes back is block t of ONE function of the
  arrays as the region finds them: the layer's value at (row, column). The ten blocks cover the 80000 rows (row r is in
  block r / 8000), so the output array ends holding that function everywhere.
-/
import proofs.«431281_j6751688589931_2_alg».proof.Proof.KI.Reg1
import proofs.«431281_j6751688589931_2_alg».proof.Proof.Spec
import proofs.«431281_j6751688589931_2_alg».proof.Proof.LibBlockOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open scoped BigOperators

/-! ## The body's stored value at an entry -/

/-- The block product's dimension numbers are those of the plain product of a matrix by a matrix. -/
theorem dotRec1 : dot_S8000x64_S64x64_S8000x64_1_0_0_1_n_n = BlockOps.rowCol dot_S8000x64_S64x64_S8000x64_1_0_0_1_n_n_wf := rfl

/-- The stored value at row p, column q of the block, from the five loaded blocks. -/
theorem pay1_apply (x0 x1 : Vec Ideal S8000x64 .f32) (x2 x4 : Vec Ideal S64x64 .f32) (x3 : Vec Ideal S1x64 .f32) (p : Fin 8000) (q : Fin 64) :
    k1_pay1 (F := Ideal) x0 x1 x2 x4 x3 (ix2 p q)
      = max ((∑ k : Fin 64, x0 (ix2 p k) * x2 (ix2 k q) + ∑ k : Fin 64, x1 (ix2 p k) * x4 (ix2 k q)) + x3 (ix2 (0 : Fin 1) q)) 0 := by
  unfold k1_pay1
  simp only [maximumf_apply, addf_apply, broadcast_apply, matmul, dotRec1, BlockOps.matmul_zero_apply, truncf_apply, shapeCast_self]
  have hb : broadcastTo S8000x64 x3 broadcasts_S1x64_S8000x64 (ix2 p q) = x3 (ix2 (0 : Fin 1) q) := by
    refine broadcastTo_apply x3 broadcasts_S1x64_S8000x64 (ix2 p q) (ix2 (0 : Fin 1) q) fun a => ?_
    match a with
    | ⟨0, _⟩ => rfl
    | ⟨1, _⟩ => rfl
  have hz : (FloatOps.ofBits .f32 0x00000000#32 : Ideal .f32) = 0 := Ideal.ofBits_zero_f32
  rw [hb, hz]

/-- The same when the loaded blocks are known, at the entries the value reads, to be entries of whole arrays: row p of
    the two row blocks is row r of the arrays, and the weights and the bias are the arrays themselves. It is the layer's
    value at (r, q). -/
theorem pay1_at (A H : S80000x64.Idx → EReal) (Wr Wo : S64x64.Idx → EReal) (b : S1x64.Idx → EReal)
    (x0 x1 : Vec Ideal S8000x64 .f32) (x2 x4 : Vec Ideal S64x64 .f32) (x3 : Vec Ideal S1x64 .f32)
    (p : Fin 8000) (q : Fin 64) (r : Fin 80000)
    (h0 : ∀ k : Fin 64, x0 (ix2 p k) = A (ix2 r k)) (h1 : ∀ k : Fin 64, x1 (ix2 p k) = H (ix2 r k))
    (h2 : ∀ k : Fin 64, x2 (ix2 k q) = Wr (ix2 k q)) (h4 : ∀ k : Fin 64, x4 (ix2 k q) = Wo (ix2 k q))
    (h3 : x3 (ix2 (0 : Fin 1) q) = b (ix2 (0 : Fin 1) q)) :
    k1_pay1 (F := Ideal) x0 x1 x2 x4 x3 (ix2 p q)
      = Cert.Spec.convRelu 64 (Cert.Spec.toFn A) (Cert.Spec.toFn H) (Cert.Spec.toFn Wr) (fun q => b (ix2 (0 : Fin 1) q)) (Cert.Spec.toFn Wo) r q := by
  rw [pay1_apply, h3]
  simp only [h0, h1, h2, h4]
  rfl

/-! ## What a point writes back -/

section Region1

variable (V : (c : Dev nD) → (b : Ref sig .tc) → Buf (Elt Ideal) ((c : Thread nD τ).loc b))

theorem zeroOff1 : (![0, 0] : Fin 2 → Nat) = fun _ => 0 := funext fun a => by fin_cases a <;> rfl

/-- The layer's value over the whole output array, from the arrays as the region finds them. -/
def layer1 (c : Dev nD) : S80000x64.Idx → EReal :=
  Cert.Spec.ofFn (Cert.Spec.convRelu 64 (Cert.Spec.toFn (V c main_v42)) (Cert.Spec.toFn (V c main_v30)) (Cert.Spec.toFn (V c main_arg10))
    (fun q => V c main_v43 (ix2 (0 : Fin 1) q)) (Cert.Spec.toFn (V c main_arg12)))

/-- The index maps over the ten points: the two row windows and the output are at block t on the rows and block 0 on
    the columns; the weights and the bias are at block 0 on both axes. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer's value. -/
theorem flushed1_eq (c : Dev nD) (t : Fin cfg1.N) :
    (dat1 (F := Ideal) V c).flushed 5 t = ((cfg1.win 5).blk t).view.read (Elt Ideal) (layer1 V c) := by
  show (cfg1.win 5).cut (grid1.coords t) ((dat1 (F := Ideal) V c).after 5 t) = _
  rw [after1_5]
  unfold out1_5
  rw [View.canon_unit_zero zeroOff1]
  simp only [View.ld_unit_zero (S := S8000x64) zeroOff1, View.ld_unit_zero (S := S64x64) zeroOff1, View.ld_unit_zero (S := S1x64) zeroOff1]
  obtain ⟨e00, e01, e10, e11, e20, e21, e30, e31, e40, e41, e50, e51⟩ := idx_facts1 t
  funext j
  obtain ⟨p, q, rfl⟩ : ∃ (p : Fin 8000) (q : Fin 64), j = ix2 p q := ⟨j 0, j 1, eq_ix2 j⟩
  have hq : (((cfg1.win 5).blk t).view.emb (ix2 p q)) 1 = q :=
    Fin.ext (by show win1_5.index t (1 : Fin 2) * 64 + 1 * q.val = q.val; omega)
  refine (pay1_at (V c main_v42) (V c main_v30) (V c main_arg10) (V c main_arg12) (V c main_v43) _ _ _ _ _ p q
    ((((cfg1.win 5).blk t).view.emb (ix2 p q)) 0) ?_ ?_ ?_ ?_ ?_).trans ?_
  · intro k
    show V c main_v42 (((cfg1.win 0).blk t).view.emb (ix2 p k)) = _
    refine congrArg (V c main_v42) (funext fun a => Fin.ext ?_)
    match a with
    | ⟨0, _⟩ => show win1_0.index t (0 : Fin 2) * 8000 + 1 * p.val = win1_5.index t (0 : Fin 2) * 8000 + 1 * p.val; omega
    | ⟨1, _⟩ => show win1_0.index t (1 : Fin 2) * 64 + 1 * k.val = k.val; omega
  · intro k
    show V c main_v30 (((cfg1.win 1).blk t).view.emb (ix2 p k)) = _
    refine congrArg (V c main_v30) (funext fun a => Fin.ext ?_)
    match a with
    | ⟨0, _⟩ => show win1_1.index t (0 : Fin 2) * 8000 + 1 * p.val = win1_5.index t (0 : Fin 2) * 8000 + 1 * p.val; omega
    | ⟨1, _⟩ => show win1_1.index t (1 : Fin 2) * 64 + 1 * k.val = k.val; omega
  · intro k
    show V c main_arg10 (((cfg1.win 2).blk t).view.emb (ix2 k q)) = _
    refine congrArg (V c main_arg10) (funext fun a => Fin.ext ?_)
    match a with
    | ⟨0, _⟩ => show win1_2.index t (0 : Fin 2) * 64 + 1 * k.val = k.val; omega
    | ⟨1, _⟩ => show win1_2.index t (1 : Fin 2) * 64 + 1 * q.val = q.val; omega
  · intro k
    show V c main_arg12 (((cfg1.win 4).blk t).view.emb (ix2 k q)) = _
    refine congrArg (V c main_arg12) (funext fun a => Fin.ext ?_)
    match a with
    | ⟨0, _⟩ => show win1_4.index t (0 : Fin 2) * 64 + 1 * k.val = k.val; omega
    | ⟨1, _⟩ => show win1_4.index t (1 : Fin 2) * 64 + 1 * q.val = q.val; omega
  · show V c main_v43 (((cfg1.win 3).blk t).view.emb (ix2 (0 : Fin 1) q)) = _
    refine congrArg (V c main_v43) (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  · show _ = Cert.Spec.convRelu 64 _ _ _ _ _ ((((cfg1.win 5).blk t).view.emb (ix2 p q)) 0) ((((cfg1.win 5).blk t).view.emb (ix2 p q)) 1)
    rw [hq]

/-! ## The blocks cover the array -/

/-- An index of the output array is in point t's block iff each coordinate is in the block's range on its axis. -/
theorem mem_blk1 (t : Fin cfg1.N) (i : S80000x64.Idx) :
    i ∈ ((cfg1.win 5).blk t).view.set ↔ ∀ a : Fin 2, win1_5.index t a * S8000x64.size a ≤ (i a).val ∧ (i a).val < win1_5.index t a * S8000x64.size a + S8000x64.size a := by
  show i ∈ ((View.whole main_v44).slice (win1_5.rect t)).set ↔ _
  rw [View.set_slice_whole, Rect.mem_set_unit]
  exact Iff.rfl

/-- Row r of the output is in the block of point r / 8000. -/
theorem cover1 (i : S80000x64.Idx) : ∃ t : Fin cfg1.N, (cfg1.win 5).flush t = true ∧ i ∈ ((cfg1.win 5).blk t).view.set := by
  have hi0 : (i 0).val < 80000 := (i 0).isLt
  have hi1 : (i 1).val < 64 := (i 1).isLt
  have hlt : (i 0).val / 8000 < grid1.N := by rw [N_1]; omega
  obtain ⟨e00, e01, e10, e11, e20, e21, e30, e31, e40, e41, e50, e51⟩ := idx_facts1 ⟨(i 0).val / 8000, hlt⟩
  have e50' : win1_5.index ⟨(i 0).val / 8000, hlt⟩ (0 : Fin 2) = (i 0).val / 8000 := e50
  refine ⟨⟨(i 0).val / 8000, hlt⟩, flush1_5 _, ?_⟩
  rw [mem_blk1]
  intro a
  match a with
  | ⟨0, _⟩ =>
    show win1_5.index ⟨(i 0).val / 8000, hlt⟩ (0 : Fin 2) * 8000 ≤ (i 0).val ∧ (i 0).val < win1_5.index ⟨(i 0).val / 8000, hlt⟩ (0 : Fin 2) * 8000 + 8000
    omega
  | ⟨1, _⟩ =>
    show win1_5.index ⟨(i 0).val / 8000, hlt⟩ (1 : Fin 2) * 64 ≤ (i 1).val ∧ (i 1).val < win1_5.index ⟨(i 0).val / 8000, hlt⟩ (1 : Fin 2) * 64 + 64
    omega

/-! ## The output array after the region -/

/-- The output array ends holding the layer's value at every index. -/
theorem arr1_eq (c : Dev nD) : (dat1 (F := Ideal) V c).arrAt 5 cfg1.N = layer1 V c :=
  (dat1 (F := Ideal) V c).arrAt_eq_of_cover 5 (layer1 V c) (fun t _ => flushed1_eq V c t) cover1

theorem arr1_apply (c : Dev nD) (r : Fin 80000) (q : Fin 64) :
    (dat1 (F := Ideal) V c).arrAt 5 cfg1.N (ValueIdx.ix2 r q)
      = Cert.Spec.convRelu 64 (Cert.Spec.toFn (V c main_v42)) (Cert.Spec.toFn (V c main_v30)) (Cert.Spec.toFn (V c main_arg10))
          (fun q => V c main_v43 (ValueIdx.ix2 0 q)) (Cert.Spec.toFn (V c main_arg12)) r q :=
  (congrFun (arr1_eq V c) (ValueIdx.ix2 r q)).trans rfl

end Region1

end Cert.KernelIdeal.Hand

end
-- ==== Proof.KI.Val2.lean ====
/-
  Region 2 at the ideal values: what its result array (64 x 2) holds after the run, entry by entry.

  At a point the body forms, for its block of 4000 nodes, the mask (entry (g, p) is one if node p of the block belongs to
  graph g, else zero: the comparison of g's word with the node's id word, which for g below 64 says the id read as a signed
  integer is g) and the third layer's rows; it adds mask · rows to the running sum and the mask's row sums to the running
  count. Since 1 · x = x and 0 · x = 0 on the extended reals, after point n these are the sums, over the nodes of blocks
  0 … n that belong to the graph, of the rows and of ones (by induction on the point); the 20 blocks of 4000 nodes are the
  80000 nodes (row p of block t is node 4000·t + p), so after the last point they are the sum over the graph's nodes and
  their number. The last point stores (sum / max (count, 1)) · lin_W + lin_b, the window's one block is the whole result
  array and is written back after the last point only: the array ends holding the mean row of each graph through the final
  linear layer. Only commutativity and associativity of + are used on the sums; no distributivity.
-/
import proofs.«431281_j6751688589931_2_alg».proof.Proof.KI.Data2
import proofs.«431281_j6751688589931_2_alg».proof.Proof.Spec
import proofs.«431281_j6751688589931_2_alg».proof.Proof.LibBlockOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen
open scoped BigOperators

/-! ## Words: the mask's entries -/

/-- A 32-bit word is the word of a number below 64 exactly when, read as a signed integer, it is that number. -/
theorem word_eq_iff (w : BitVec 32) (g : Fin 64) : BitVec.ofNat 32 g.val = w ↔ w.toInt = (g.val : ℤ) := by
  have hg := g.isLt
  have hw := w.isLt
  rw [BitVec.toInt_eq_toNat_cond]
  constructor
  · rintro rfl
    rw [BitVec.toNat_ofNat, Nat.mod_eq_of_lt (by omega)]
    split <;> omega
  · intro h
    apply BitVec.eq_of_toNat_eq
    rw [BitVec.toNat_ofNat, Nat.mod_eq_of_lt (by omega)]
    split at h <;> omega

/-- The mask's entry for graph `g` at a node whose id word is `w`: one if the node belongs to the graph, else zero. -/
def maskAt (w : BitVec 32) (g : Fin 64) : EReal := if w.toInt = (g.val : ℤ) then 1 else 0

/-- The comparison of the graph's number with the id word, widened and converted, is that entry. -/
theorem mask_word (w : BitVec 32) (g : Fin 64) :
    (FloatOps.sitofp (F := Ideal) .f32 ((IntOp.cmpi .eq (BitVec.ofNat 32 g.val) w).setWidth 32) : EReal) = maskAt w g := by
  unfold maskAt
  by_cases h : w.toInt = (g.val : ℤ)
  · have e : BitVec.ofNat 32 g.val = w := (word_eq_iff w g).mpr h
    have c : IntOp.cmpi .eq (BitVec.ofNat 32 g.val) w = 1#1 := by rw [e]; simp [IntOp.cmpi]
    rw [if_pos h, c]
    show (((((1#1 : BitVec 1).setWidth 32).toInt : ℤ) : ℝ) : EReal) = 1
    rw [show ((1#1 : BitVec 1).setWidth 32).toInt = 1 from by decide]
    simp
  · have e : ¬BitVec.ofNat 32 g.val = w := fun e => h ((word_eq_iff w g).mp e)
    have c : IntOp.cmpi .eq (BitVec.ofNat 32 g.val) w = 0#1 := by
      show BitVec.ofBool (BitVec.ofNat 32 g.val == w) = 0#1
      rw [beq_eq_false_iff_ne.mpr e]; rfl
    rw [if_neg h, c]
    show (((((0#1 : BitVec 1).setWidth 32).toInt : ℤ) : ℝ) : EReal) = 0
    rw [show ((0#1 : BitVec 1).setWidth 32).toInt = 0 from by decide]
    simp

/-- The mask block at (g, p): the entry of graph `g` at the block's node `p`. -/
theorem pay5_apply (ids : Vec Ideal S1x1x4000 .i32) (g : Fin 64) (p : Fin 4000) :
    k2_pay5 (F := Ideal) ids (ix2 g p) = maskAt (ids (ix3 (0 : Fin 1) (0 : Fin 1) p)) g := by
  unfold k2_pay5
  show FloatOps.sitofp (F := Ideal) .f32 ((IntOp.cmpi .eq (iota .tc S64x4000 32 [0] iota_S64x4000_d0_w32 (ix2 g p))
    (broadcastTo S64x4000 (shapeCast S1x4000 ids shapeCasts_S1x1x4000_S1x4000) broadcasts_S1x4000_S64x4000 (ix2 g p))).setWidth 32) = _
  rw [iota_single_apply, broadcastTo_1b_ab_apply, shapeCast_1ab_ab_apply]
  exact mask_word _ g

/-! ## The payloads read at an entry -/

/-- Row `p` of the layer at feature `q`, from the block's rows of the aggregate `A` and of the features `H`. -/
def rowAt (A H : Vec Ideal S4000x64 .f32) (Wr Wo : Vec Ideal S64x64 .f32) (b : Vec Ideal S1x64 .f32) (p : Fin 4000) (q : Fin 64) : EReal :=
  (∑ j : Fin 64, A (ix2 p j) * Wr (ix2 j q) + ∑ j : Fin 64, H (ix2 p j) * Wo (ix2 j q)) + b (ix2 (0 : Fin 1) q)

/-- One point's new running sum at (g, q): the old one plus the sum over the block's nodes of mask entry times row. -/
theorem pay6_apply (A H : Vec Ideal S4000x64 .f32) (Wr Wo : Vec Ideal S64x64 .f32) (b : Vec Ideal S1x64 .f32)
    (ids : Vec Ideal S1x1x4000 .i32) (s : Vec Ideal S64x64 .f32) (g q : Fin 64) :
    k2_pay6 (F := Ideal) A H Wr Wo b ids s (ix2 g q)
      = s (ix2 g q) + ∑ p : Fin 4000, maskAt (ids (ix3 (0 : Fin 1) (0 : Fin 1) p)) g * rowAt A H Wr Wo b p q := by
  unfold k2_pay6
  simp only [shapeCast_self]
  rw [addf_apply]
  congr 1
  refine (BlockOps.matmul_zero_apply dot_S64x4000_S4000x64_S64x64_1_0_0_1_n_n_wf none _ _ g q).trans ?_
  refine Finset.sum_congr rfl fun p _ => ?_
  rw [truncf_apply, truncf_apply, pay5_apply]
  congr 1
  rw [addf_apply, addf_apply, broadcastTo_1b_ab_apply]
  unfold rowAt
  congr 2
  · exact BlockOps.matmul_zero_apply dot_S4000x64_S64x64_S4000x64_1_0_0_1_n_n_wf none _ _ p q
  · exact BlockOps.matmul_zero_apply dot_S4000x64_S64x64_S4000x64_1_0_0_1_n_n_wf none _ _ p q

/-- One point's new running count at g: the old one plus the sum of the mask's row. -/
theorem payCnt_apply (m : FVec Ideal S64x4000 .f32) (n : Vec Ideal S64x1 .f32) (g : Fin 64) :
    k2_pay1 (F := Ideal) m n (ix2 g (0 : Fin 1)) = n (ix2 g (0 : Fin 1)) + ∑ p : Fin 4000, m (ix2 g p) := by
  unfold k2_pay1
  simp only [shapeCast_self]
  rw [addf_apply]
  congr 1
  rw [shapeCast_apply _ shapeCasts_S64_S64x1 (ix2 g (0 : Fin 1)) (ix1 g)
    (by rw [Shape.rowMajor_val_one, Shape.rowMajor_val_two]; show g.val = g.val * 1 + 0; omega)]
  refine (Ideal.multiReduction_add_single _ 0x00000000#32 reduces_S64x4000_S64 (.inl rfl) rfl (ix1 g)).trans ?_
  refine Finset.sum_congr rfl fun p _ => congrArg m ?_
  funext a
  match a with
  | ⟨0, _⟩ => rfl
  | ⟨1, _⟩ => rfl

/-- The word of the float one is one. -/
theorem one_f32 : Ideal.ofBits .f32 0x3F800000#32 = (1 : EReal) := IdealRules.sign_bit.ideal_onePat .f32

/-- The stored result at (g, j): the mean row (running sum over the count, at least one) through the final linear layer. -/
theorem pay2_apply (n : Vec Ideal S64x1 .f32) (s : Vec Ideal S64x64 .f32) (LW : Vec Ideal S64x2 .f32) (lb : Vec Ideal S1x2 .f32)
    (g : Fin 64) (j : Fin 2) :
    k2_pay2 (F := Ideal) n s LW lb (ix2 g j)
      = (∑ k : Fin 64, Ideal.div (s (ix2 g k)) (max (n (ix2 g (0 : Fin 1))) 1) * LW (ix2 k j)) + lb (ix2 (0 : Fin 1) j) := by
  unfold k2_pay2
  simp only [shapeCast_self]
  rw [addf_apply, broadcastTo_1b_ab_apply]
  congr 1
  refine (BlockOps.matmul_zero_apply dot_S64x64_S64x2_S64x2_1_0_0_1_n_n_wf none _ _ g j).trans ?_
  refine Finset.sum_congr rfl fun k _ => ?_
  rw [truncf_apply, truncf_apply, divf_apply, BlockOps.broadcastTo_a1_ab_apply, maximumf_apply, broadcast_apply]
  show Ideal.div (s (ix2 g k)) (max (n (ix2 g (0 : Fin 1))) (Ideal.ofBits .f32 0x3F800000#32)) * LW (ix2 k j) = _
  rw [one_f32]

/-- The running sum starts at zero, -/
theorem pay3_apply (g q : Fin 64) : k2_pay3 (F := Ideal) (ix2 g q) = 0 := by
  unfold k2_pay3
  simp only [shapeCast_self]
  exact Ideal.ofBits_zero_f32

/-- and so does the running count. -/
theorem pay4_apply (g : Fin 64) : k2_pay4 (F := Ideal) (ix2 g (0 : Fin 1)) = 0 := by
  unfold k2_pay4
  simp only [shapeCast_self]
  exact Ideal.ofBits_zero_f32

/-! ## The blocks as parts of the arrays -/

theorem N2 : cfg2.N = 20 := N_2

/-- A point of the grid as a number below 20. -/
def pt (t : Fin cfg2.N) : Fin 20 := ⟨t.val, by have := t.isLt; have h := N2; omega⟩

/-- The last point. -/
abbrev t19 : Fin cfg2.N := ⟨19, by rw [N2]; decide⟩

/-- Row `p` of block `t` is row 4000·t + p of the whole: the 20 blocks of 4000 rows are the 80000 rows. -/
def rowEquiv : Fin 20 × Fin 4000 ≃ Fin 80000 where
  toFun x := ⟨4000 * x.1.val + x.2.val, by have := x.1.isLt; have := x.2.isLt; omega⟩
  invFun r := (⟨r.val / 4000, by have := r.isLt; omega⟩, ⟨r.val % 4000, Nat.mod_lt _ (by decide)⟩)
  left_inv x := by
    rcases x with ⟨t, p⟩
    have := t.isLt
    have := p.isLt
    refine Prod.ext (Fin.ext ?_) (Fin.ext ?_)
    · show (4000 * t.val + p.val) / 4000 = t.val
      omega
    · show (4000 * t.val + p.val) % 4000 = p.val
      omega
  right_inv r := by
    refine Fin.ext ?_
    show 4000 * (r.val / 4000) + r.val % 4000 = r.val
    omega

theorem rowEquiv_val (t : Fin 20) (p : Fin 4000) : (rowEquiv (t, p)).val = 4000 * t.val + p.val := rfl

/-- Where each window's block sits at point `t`: windows 0, 1 and 2 move with the point along their first axis, the
    others stay. -/
theorem index2_0 : ∀ t : Fin cfg2.N, (cfg2.win 0).index t 0 = t.val ∧ (cfg2.win 0).index t 1 = 0 :=
  (by decide +kernel : ∀ t : Fin grid2.N, win2_0.index t 0 = t.val ∧ win2_0.index t 1 = 0)
theorem index2_1 : ∀ t : Fin cfg2.N, (cfg2.win 1).index t 0 = t.val ∧ (cfg2.win 1).index t 1 = 0 :=
  (by decide +kernel : ∀ t : Fin grid2.N, win2_1.index t 0 = t.val ∧ win2_1.index t 1 = 0)
theorem index2_2 : ∀ t : Fin cfg2.N, (cfg2.win 2).index t 0 = t.val ∧ (cfg2.win 2).index t 1 = 0 ∧ (cfg2.win 2).index t 2 = 0 :=
  (by decide +kernel : ∀ t : Fin grid2.N, win2_2.index t 0 = t.val ∧ win2_2.index t 1 = 0 ∧ win2_2.index t 2 = 0)
theorem index2_3 : ∀ t : Fin cfg2.N, (cfg2.win 3).index t 0 = 0 ∧ (cfg2.win 3).index t 1 = 0 :=
  (by decide +kernel : ∀ t : Fin grid2.N, win2_3.index t 0 = 0 ∧ win2_3.index t 1 = 0)
theorem index2_4 : ∀ t : Fin cfg2.N, (cfg2.win 4).index t 0 = 0 ∧ (cfg2.win 4).index t 1 = 0 :=
  (by decide +kernel : ∀ t : Fin grid2.N, win2_4.index t 0 = 0 ∧ win2_4.index t 1 = 0)
theorem index2_5 : ∀ t : Fin cfg2.N, (cfg2.win 5).index t 0 = 0 ∧ (cfg2.win 5).index t 1 = 0 :=
  (by decide +kernel : ∀ t : Fin grid2.N, win2_5.index t 0 = 0 ∧ win2_5.index t 1 = 0)
theorem index2_6 : ∀ t : Fin cfg2.N, (cfg2.win 6).index t 0 = 0 ∧ (cfg2.win 6).index t 1 = 0 :=
  (by decide +kernel : ∀ t : Fin grid2.N, win2_6.index t 0 = 0 ∧ win2_6.index t 1 = 0)
theorem index2_7 : ∀ t : Fin cfg2.N, (cfg2.win 7).index t 0 = 0 ∧ (cfg2.win 7).index t 1 = 0 :=
  (by decide +kernel : ∀ t : Fin grid2.N, win2_7.index t 0 = 0 ∧ win2_7.index t 1 = 0)

section Blocks

variable (V : (c : Dev nD) → (b : Ref sig .tc) → Buf (Elt Ideal) ((c : Thread nD τ).loc b))

/-- The aggregate's block at point `t`, entry (p, j): the aggregate at row 4000·t + p. -/
theorem iblk2_0_apply (c : Dev nD) (t : Fin cfg2.N) (p : Fin 4000) (j : Fin 64) :
    (iblk2 (F := Ideal) V c 0 t : Vec Ideal S4000x64 .f32) (ix2 p j)
      = (V c main_v56 : Vec Ideal S80000x64 .f32) (ix2 (rowEquiv (pt t, p)) j) := by
  unfold iblk2
  rw [View.read_apply]
  show V c main_v56 _ = V c main_v56 _
  congr 1
  funext a
  apply Fin.ext
  match a with
  | ⟨0, _⟩ => show win2_0.index t 0 * 4000 + 1 * p.val = 4000 * t.val + p.val; rw [(index2_0 t).1]; omega
  | ⟨1, _⟩ => show win2_0.index t 1 * 64 + 1 * j.val = j.val; rw [(index2_0 t).2]; omega

/-- The features' block likewise. -/
theorem iblk2_1_apply (c : Dev nD) (t : Fin cfg2.N) (p : Fin 4000) (j : Fin 64) :
    (iblk2 (F := Ideal) V c 1 t : Vec Ideal S4000x64 .f32) (ix2 p j)
      = (V c main_v44 : Vec Ideal S80000x64 .f32) (ix2 (rowEquiv (pt t, p)) j) := by
  unfold iblk2
  rw [View.read_apply]
  show V c main_v44 _ = V c main_v44 _
  congr 1
  funext a
  apply Fin.ext
  match a with
  | ⟨0, _⟩ => show win2_1.index t 0 * 4000 + 1 * p.val = 4000 * t.val + p.val; rw [(index2_1 t).1]; omega
  | ⟨1, _⟩ => show win2_1.index t 1 * 64 + 1 * j.val = j.val; rw [(index2_1 t).2]; omega

/-- The graph ids' block at point `t` is row `t` of the 20 x 1 x 4000 array. -/
theorem iblk2_2_apply (c : Dev nD) (t : Fin cfg2.N) (p : Fin 4000) :
    (iblk2 (F := Ideal) V c 2 t : Vec Ideal S1x1x4000 .i32) (ix3 (0 : Fin 1) (0 : Fin 1) p)
      = (V c main_v59 : Vec Ideal S20x1x4000 .i32) (ix3 (pt t) (0 : Fin 1) p) := by
  unfold iblk2
  rw [View.read_apply]
  show V c main_v59 _ = V c main_v59 _
  congr 1
  funext a
  apply Fin.ext
  match a with
  | ⟨0, _⟩ => show win2_2.index t 0 * 1 + 1 * 0 = t.val; rw [(index2_2 t).1]; omega
  | ⟨1, _⟩ => show win2_2.index t 1 * 1 + 1 * 0 = 0; rw [(index2_2 t).2.1]
  | ⟨2, _⟩ => show win2_2.index t 2 * 4000 + 1 * p.val = p.val; rw [(index2_2 t).2.2]; omega

/-- The small arrays' blocks are the arrays. -/
theorem iblk2_3_apply (c : Dev nD) (t : Fin cfg2.N) (a b : Fin 64) :
    (iblk2 (F := Ideal) V c 3 t : Vec Ideal S64x64 .f32) (ix2 a b) = (V c main_arg13 : Vec Ideal S64x64 .f32) (ix2 a b) := by
  unfold iblk2
  rw [View.read_apply]
  show V c main_arg13 _ = V c main_arg13 _
  congr 1
  funext x
  apply Fin.ext
  match x with
  | ⟨0, _⟩ => show win2_3.index t 0 * 64 + 1 * a.val = a.val; rw [(index2_3 t).1]; omega
  | ⟨1, _⟩ => show win2_3.index t 1 * 64 + 1 * b.val = b.val; rw [(index2_3 t).2]; omega

theorem iblk2_4_apply (c : Dev nD) (t : Fin cfg2.N) (b : Fin 64) :
    (iblk2 (F := Ideal) V c 4 t : Vec Ideal S1x64 .f32) (ix2 (0 : Fin 1) b) = (V c main_v57 : Vec Ideal S1x64 .f32) (ix2 (0 : Fin 1) b) := by
  unfold iblk2
  rw [View.read_apply]
  show V c main_v57 _ = V c main_v57 _
  congr 1
  funext x
  apply Fin.ext
  match x with
  | ⟨0, _⟩ => show win2_4.index t 0 * 1 + 1 * 0 = 0; rw [(index2_4 t).1]
  | ⟨1, _⟩ => show win2_4.index t 1 * 64 + 1 * b.val = b.val; rw [(index2_4 t).2]; omega

theorem iblk2_5_apply (c : Dev nD) (t : Fin cfg2.N) (a b : Fin 64) :
    (iblk2 (F := Ideal) V c 5 t : Vec Ideal S64x64 .f32) (ix2 a b) = (V c main_arg15 : Vec Ideal S64x64 .f32) (ix2 a b) := by
  unfold iblk2
  rw [View.read_apply]
  show V c main_arg15 _ = V c main_arg15 _
  congr 1
  funext x
  apply Fin.ext
  match x with
  | ⟨0, _⟩ => show win2_5.index t 0 * 64 + 1 * a.val = a.val; rw [(index2_5 t).1]; omega
  | ⟨1, _⟩ => show win2_5.index t 1 * 64 + 1 * b.val = b.val; rw [(index2_5 t).2]; omega

theorem iblk2_6_apply (c : Dev nD) (t : Fin cfg2.N) (a : Fin 64) (b : Fin 2) :
    (iblk2 (F := Ideal) V c 6 t : Vec Ideal S64x2 .f32) (ix2 a b) = (V c main_arg16 : Vec Ideal S64x2 .f32) (ix2 a b) := by
  unfold iblk2
  rw [View.read_apply]
  show V c main_arg16 _ = V c main_arg16 _
  congr 1
  funext x
  apply Fin.ext
  match x with
  | ⟨0, _⟩ => show win2_6.index t 0 * 64 + 1 * a.val = a.val; rw [(index2_6 t).1]; omega
  | ⟨1, _⟩ => show win2_6.index t 1 * 2 + 1 * b.val = b.val; rw [(index2_6 t).2]; omega

theorem iblk2_7_apply (c : Dev nD) (t : Fin cfg2.N) (b : Fin 2) :
    (iblk2 (F := Ideal) V c 7 t : Vec Ideal S1x2 .f32) (ix2 (0 : Fin 1) b) = (V c main_v58 : Vec Ideal S1x2 .f32) (ix2 (0 : Fin 1) b) := by
  unfold iblk2
  rw [View.read_apply]
  show V c main_v58 _ = V c main_v58 _
  congr 1
  funext x
  apply Fin.ext
  match x with
  | ⟨0, _⟩ => show win2_7.index t 0 * 1 + 1 * 0 = 0; rw [(index2_7 t).1]
  | ⟨1, _⟩ => show win2_7.index t 1 * 2 + 1 * b.val = b.val; rw [(index2_7 t).2]; omega

end Blocks

/-! ## The accumulation over the points, and the result -/

section Region2Value

variable (V : (c : Dev nD) → (b : Ref sig .tc) → Buf (Elt Ideal) ((c : Thread nD τ).loc b))

/-- The third layer's rows over all 80000 nodes, from the arrays as the region finds them. -/
def H2 (c : Dev nD) : Fin 80000 → Fin 64 → EReal :=
  Cert.Spec.convAt 64 (Cert.Spec.toFn (V c main_v56)) (Cert.Spec.toFn (V c main_v44)) (Cert.Spec.toFn (V c main_arg13))
    (fun q => V c main_v57 (ix2 0 q)) (Cert.Spec.toFn (V c main_arg15))

/-- The nodes' graph ids, in node order: node n's id is entry (n / 4000, 0, n % 4000) of the 20 x 1 x 4000 array. -/
def batch2 (c : Dev nD) : Fin 80000 → BitVec 32 :=
  fun n : Fin 80000 => V c main_v59 (ix3 (⟨n.val / 4000, by omega⟩ : Fin 20) (0 : Fin 1) (⟨n.val % 4000, Nat.mod_lt _ (by decide)⟩ : Fin 4000))

/-- A block's row is the layer's row of the node it is. -/
theorem rowAt_blk (c : Dev nD) (t : Fin cfg2.N) (p : Fin 4000) (q : Fin 64) :
    rowAt (iblk2 V c 0 t) (iblk2 V c 1 t) (iblk2 V c 3 t) (iblk2 V c 5 t) (iblk2 V c 4 t) p q = H2 V c (rowEquiv (pt t, p)) q := by
  unfold rowAt H2 Cert.Spec.convAt Cert.Spec.toFn
  simp only [iblk2_0_apply, iblk2_1_apply, iblk2_3_apply, iblk2_5_apply, iblk2_4_apply]

/-- A block's id is the id of the node it is. -/
theorem ids_blk (c : Dev nD) (t : Fin cfg2.N) (p : Fin 4000) :
    (iblk2 (F := Ideal) V c 2 t : Vec Ideal S1x1x4000 .i32) (ix3 (0 : Fin 1) (0 : Fin 1) p) = batch2 V c (rowEquiv (pt t, p)) := by
  rw [iblk2_2_apply]
  unfold batch2
  have ht := (pt t).isLt
  have hp := p.isLt
  refine congrArg (V c main_v59 : Vec Ideal S20x1x4000 .i32) (funext fun a => Fin.ext ?_)
  match a with
  | ⟨0, _⟩ => show (pt t).val = (4000 * (pt t).val + p.val) / 4000; omega
  | ⟨1, _⟩ => rfl
  | ⟨2, _⟩ => show p.val = (4000 * (pt t).val + p.val) % 4000; omega

/-- One point adds to the running sum, at (g, q), the sum over its block's nodes that belong to graph g of their rows. -/
theorem sumStep_apply (c : Dev nD) (t : Fin cfg2.N) (s : Vec Ideal S64x64 .f32) (g q : Fin 64) :
    sumStep V c t s (ix2 g q)
      = s (ix2 g q) + ∑ p : Fin 4000, maskAt (batch2 V c (rowEquiv (pt t, p))) g * H2 V c (rowEquiv (pt t, p)) q := by
  unfold sumStep
  refine (pay6_apply (iblk2 V c 0 t) (iblk2 V c 1 t) (iblk2 V c 3 t) (iblk2 V c 5 t) (iblk2 V c 4 t) (iblk2 V c 2 t) s g q).trans ?_
  refine congrArg (s (ix2 g q) + ·) ?_
  refine Finset.sum_congr rfl fun p _ => ?_
  rw [rowAt_blk, ids_blk]

/-- One point adds to the running count, at g, the number of its block's nodes that belong to graph g. -/
theorem cntStep_apply (c : Dev nD) (t : Fin cfg2.N) (n : Vec Ideal S64x1 .f32) (g : Fin 64) :
    cntStep V c t n (ix2 g (0 : Fin 1))
      = n (ix2 g (0 : Fin 1)) + ∑ p : Fin 4000, maskAt (batch2 V c (rowEquiv (pt t, p))) g := by
  unfold cntStep
  refine (payCnt_apply (k2_pay5 (iblk2 V c 2 t)) n g).trans ?_
  refine congrArg (n (ix2 g (0 : Fin 1)) + ·) ?_
  refine Finset.sum_congr rfl fun p _ => ?_
  rw [pay5_apply, ids_blk]

/-- Block t's share of graph g's sum at feature q (zero past the grid), -/
def blkSum (c : Dev nD) (g q : Fin 64) (t : ℕ) : EReal :=
  if h : t < 20 then ∑ p : Fin 4000, (fun r => maskAt (batch2 V c r) g * H2 V c r q) (rowEquiv (⟨t, h⟩, p)) else 0

/-- and of its count. -/
def blkCnt (c : Dev nD) (g : Fin 64) (t : ℕ) : EReal :=
  if h : t < 20 then ∑ p : Fin 4000, (fun r => maskAt (batch2 V c r) g) (rowEquiv (⟨t, h⟩, p)) else 0

/-- THE INVARIANT: after point n the running sum and count are the sums of the shares of blocks 0 … n. -/
theorem acc2_apply (c : Dev nD) (g q : Fin 64) : ∀ (n : ℕ) (hn : n < cfg2.N),
    (acc2 V c n hn).1 (ix2 g q) = ∑ t ∈ Finset.range (n + 1), blkSum V c g q t
      ∧ (acc2 V c n hn).2 (ix2 g (0 : Fin 1)) = ∑ t ∈ Finset.range (n + 1), blkCnt V c g t
  | 0, hn => by
    rw [acc2_zero]
    constructor
    · show sumStep V c ⟨0, hn⟩ (k2_pay3 (F := Ideal)) (ix2 g q) = _
      rw [sumStep_apply, Finset.sum_range_one, pay3_apply, zero_add]
      unfold blkSum
      rw [dif_pos (by omega)]
      rfl
    · show cntStep V c ⟨0, hn⟩ (k2_pay4 (F := Ideal)) (ix2 g (0 : Fin 1)) = _
      rw [cntStep_apply, Finset.sum_range_one, pay4_apply, zero_add]
      unfold blkCnt
      rw [dif_pos (by omega)]
      rfl
  | n + 1, hn => by
    have hN := N2
    obtain ⟨ih1, ih2⟩ := acc2_apply c g q n (Nat.lt_of_succ_lt hn)
    rw [acc2_succ]
    constructor
    · show sumStep V c ⟨n + 1, hn⟩ (acc2 V c n (Nat.lt_of_succ_lt hn)).1 (ix2 g q) = _
      rw [sumStep_apply, ih1, Finset.sum_range_succ _ (n + 1)]
      refine congrArg (_ + ·) ?_
      unfold blkSum
      rw [dif_pos (by omega)]
      rfl
    · show cntStep V c ⟨n + 1, hn⟩ (acc2 V c n (Nat.lt_of_succ_lt hn)).2 (ix2 g (0 : Fin 1)) = _
      rw [cntStep_apply, ih2, Finset.sum_range_succ _ (n + 1)]
      refine congrArg (_ + ·) ?_
      unfold blkCnt
      rw [dif_pos (by omega)]
      rfl

end Region2Value

/-- The 20 blocks' shares of a sum over the nodes add up to the sum over all 80000 nodes. -/
theorem sum_blocks (f : Fin 80000 → EReal) :
    ∑ t ∈ Finset.range 20, (if h : t < 20 then ∑ p : Fin 4000, f (rowEquiv (⟨t, h⟩, p)) else 0) = ∑ r : Fin 80000, f r := by
  rw [← Fin.sum_univ_eq_sum_range (fun t => if h : t < 20 then ∑ p : Fin 4000, f (rowEquiv (⟨t, h⟩, p)) else 0) 20,
    ← Equiv.sum_comp rowEquiv f, Fintype.sum_prod_type]
  refine Finset.sum_congr rfl fun t _ => ?_
  rw [dif_pos t.isLt]

/-- A sum over a graph's nodes is the sum over all nodes of mask entry times term, -/
theorem poolSum_eq (H : Fin 80000 → Fin 64 → EReal) (batch : Fin 80000 → BitVec 32) (g k : Fin 64) :
    Cert.Spec.poolSum H batch g k = ∑ r : Fin 80000, maskAt (batch r) g * H r k := by
  unfold Cert.Spec.poolSum
  rw [Finset.sum_filter]
  refine Finset.sum_congr rfl fun r _ => ?_
  unfold maskAt
  by_cases h : (batch r).toInt = (g.val : ℤ)
  · rw [if_pos (show Cert.Spec.member batch g r from h), if_pos h, one_mul]
  · rw [if_neg (show ¬Cert.Spec.member batch g r from h), if_neg h, zero_mul]

/-- and the number of a graph's nodes is the sum of its mask entries. -/
theorem poolCnt_eq (batch : Fin 80000 → BitVec 32) (g : Fin 64) :
    Cert.Spec.poolCnt batch g = ∑ r : Fin 80000, maskAt (batch r) g := by
  unfold Cert.Spec.poolCnt
  rw [Finset.sum_filter]
  refine Finset.sum_congr rfl fun r _ => ?_
  unfold maskAt
  by_cases h : (batch r).toInt = (g.val : ℤ)
  · rw [if_pos (show Cert.Spec.member batch g r from h), if_pos h]
  · rw [if_neg (show ¬Cert.Spec.member batch g r from h), if_neg h]

/-! ## The result array -/

section Region2Array

variable (V : (c : Dev nD) → (b : Ref sig .tc) → Buf (Elt Ideal) ((c : Thread nD τ).loc b))

/-- What the last point stores, entry by entry: the mean row of each graph through the final linear layer. -/
theorem out2_8_apply (c : Dev nD) (g : Fin 64) (j : Fin 2) :
    out2_8 V c t19 (ix2 g j)
      = Cert.Spec.headAt (H2 V c) (batch2 V c) (Cert.Spec.toFn (V c main_arg16)) (fun j => V c main_v58 (ix2 0 j)) g j := by
  have hs : ∀ k : Fin 64, (acc2 V c 19 t19.isLt).1 (ix2 g k) = Cert.Spec.poolSum (H2 V c) (batch2 V c) g k := fun k => by
    rw [(acc2_apply V c g k 19 t19.isLt).1, poolSum_eq]
    exact sum_blocks (fun r => maskAt (batch2 V c r) g * H2 V c r k)
  have hc : (acc2 V c 19 t19.isLt).2 (ix2 g (0 : Fin 1)) = Cert.Spec.poolCnt (batch2 V c) g := by
    rw [(acc2_apply V c g g 19 t19.isLt).2, poolCnt_eq]
    exact sum_blocks (fun r => maskAt (batch2 V c r) g)
  unfold out2_8
  refine (pay2_apply (acc2 V c 19 t19.isLt).2 (acc2 V c 19 t19.isLt).1 (iblk2 V c 6 t19) (iblk2 V c 7 t19) g j).trans ?_
  unfold Cert.Spec.headAt Cert.Spec.toFn
  rw [hc, iblk2_7_apply]
  refine congrArg (· + (V c main_v58 : Vec Ideal S1x2 .f32) (ix2 (0 : Fin 1) j)) ?_
  refine Finset.sum_congr rfl fun k _ => ?_
  rw [hs k, iblk2_6_apply]

/-- The result array's contents after the run: what the last point stored. -/
abbrev res2 (c : Dev nD) : Buf (Elt Ideal) ((c : Thread nD τ).loc main_v60) := out2_8 V c t19

/-- The one write-back, at the last point, writes it: the window's one block, at zero offsets, is the whole array. -/
theorem flushed_eq2 (c : Dev nD) (t : Fin cfg2.N) (hf : (cfg2.win 8).flush t = true) :
    (dat2 V c).flushed 8 t = ((cfg2.win 8).blk t).view.read (Elt Ideal) (res2 V c) := by
  have hN : cfg2.N = 20 := N2
  have h19 : t.val = 19 := by have := (flush2_8 t).mp hf; have := t.isLt; omega
  obtain rfl : t = t19 := Fin.ext h19
  show (cfg2.win 8).cut (grid2.coords t19) ((dat2 V c).after 8 t19) = _
  rw [after2_8]
  have hz' : (fun a => win2_8.index t19 a * main_v60.ty.shape.size a) = fun _ => 0 := funext fun a => by fin_cases a <;> decide +kernel
  exact (Memref.read_access_unit_zero (Elt Ideal) main_v60 hz' (fun a => by rw [congrFun hz' a]; simp) (res2 V c)).symm

/-- So the result array ends holding it: the last point's block covers the array. -/
theorem final2 (c : Dev nD) : (dat2 V c).arrAt 8 cfg2.N = res2 V c :=
  (dat2 V c).arrAt_eq_of_cover 8 (res2 V c) (flushed_eq2 V c) fun i =>
    ⟨t19, (flush2_8 t19).mpr rfl, by
      show i ∈ ((View.whole main_v60).slice (win2_8.rect t19)).set
      rw [View.set_slice_whole, Rect.mem_set_unit]
      intro a
      have h0 : (i 0 : Nat) < 64 := (i 0).isLt
      have h1 : (i 1 : Nat) < 2 := (i 1).isLt
      match a with
      | ⟨0, _⟩ => show win2_8.index t19 0 * win2_8.size 0 ≤ (i 0 : Nat) ∧ (i 0 : Nat) < win2_8.index t19 0 * win2_8.size 0 + win2_8.xsize (grid2.coords t19) 0
                  rw [show win2_8.index t19 0 * win2_8.size 0 = 0 from by decide +kernel, show win2_8.xsize (grid2.coords t19) 0 = 64 from by decide +kernel]; omega
      | ⟨1, _⟩ => show win2_8.index t19 1 * win2_8.size 1 ≤ (i 1 : Nat) ∧ (i 1 : Nat) < win2_8.index t19 1 * win2_8.size 1 + win2_8.xsize (grid2.coords t19) 1
                  rw [show win2_8.index t19 1 * win2_8.size 1 = 0 from by decide +kernel, show win2_8.xsize (grid2.coords t19) 1 = 2 from by decide +kernel]; omega⟩

end Region2Array

/-- THE RESULT ARRAY OF REGION 2, index by index: entry (g, j) is the mean over graph g's nodes of the third layer's
    rows, through the final linear layer. -/
theorem arr2_apply (V : (c : Dev nD) → (b : Ref sig .tc) → Buf (Elt Ideal) ((c : Thread nD τ).loc b)) (c : Dev nD) (g : Fin 64) (j : Fin 2) :
    (dat2 (F := Ideal) V c).arrAt 8 cfg2.N (ValueIdx.ix2 g j)
      = Cert.Spec.headAt
          (Cert.Spec.convAt 64 (Cert.Spec.toFn (V c main_v56)) (Cert.Spec.toFn (V c main_v44)) (Cert.Spec.toFn (V c main_arg13))
            (fun q => V c main_v57 (ValueIdx.ix2 0 q)) (Cert.Spec.toFn (V c main_arg15)))
          (fun n : Fin 80000 => V c main_v59 (ValueIdx.ix3 (⟨n.val / 4000, by omega⟩ : Fin 20) (0 : Fin 1) (⟨n.val % 4000, Nat.mod_lt _ (by decide)⟩ : Fin 4000)))
          (Cert.Spec.toFn (V c main_arg16)) (fun j => V c main_v58 (ValueIdx.ix2 0 j)) g j :=
  (congrFun (final2 V c) (ValueIdx.ix2 g j)).trans (out2_8_apply V c g j)

end Cert.KernelIdeal.Hand

end
-- ==== Proof.Chain.lean ====
/-
  The host chains the two programs share, named once, at the ideal instance and in the reference program's vocabulary:
  the batch normalisation of the node features, (x - mean) · (gamma · rsqrt (var + eps)) + beta, and the aggregation of
  neighbours' rows, out[d] = Σ over edges (s, d) of h[s] — a row gather by the edges' sources (a negative source counted
  from the end, as indexing does) followed by a scatter-add by their targets into zeros.
-/
import proofs.«431281_j6751688589931_2_alg».proof.ReferenceIdeal
import Idealize.ShloMosaic.PureOps.Ideal

noncomputable section

namespace Cert.Chain

open Idealize.ShloMosaic Cert.ReferenceIdeal Cert.ReferenceIdeal.Facts₀ Cert.ReferenceIdeal.Facts

variable [Cert.ReferenceIdeal.Facts]

/-- Batch normalisation with running statistics: `x` the node features, then gamma, beta, mean, variance. -/
def bn (x : FVec Ideal S80000x4 .f32) (gamma beta mean var : FVec Ideal S4 .f32) : FVec Ideal S80000x4 .f32 :=
  addf (mulf (subf x (broadcastInDim S80000x4 ![0, 1] bcast_S1x4_S80000x4_0_1 (broadcastInDim S1x4 ![1] bcast_S4_S1x4_1 mean)))
      (broadcastInDim S80000x4 ![0, 1] bcast_S1x4_S80000x4_0_1 (broadcastInDim S1x4 ![1] bcast_S4_S1x4_1
        (mulf gamma (Host.rsqrt (addf var (broadcastInDim S4 ![] bcast_S_S4 (constant S_ .f32 0x3727C5AC#32))))))))
    (broadcastInDim S80000x4 ![0, 1] bcast_S1x4_S80000x4_0_1 (broadcastInDim S1x4 ![1] bcast_S4_S1x4_1 beta))

/-- The edges' sources as a column of row indices, a negative one counted from the end. -/
def srcCol (ei : IVec S2x1280000 32) : IVec S1280000x1 32 :=
  broadcastInDim S1280000x1 ![0] bcast_S1280000_S1280000x1_0
    (select (cmpi .slt (shapeCast _ (extractStridedSlice S1x1280000 ![0, 0] ei slices_S2x1280000_S1x1280000_0_0) shapeCasts_S1x1280000_S1280000)
        (broadcastInDim S1280000 ![] bcast_S_S1280000 (constantI S_ 32 0#32)))
      (addi (shapeCast _ (extractStridedSlice S1x1280000 ![0, 0] ei slices_S2x1280000_S1x1280000_0_0) shapeCasts_S1x1280000_S1280000)
        (broadcastInDim S1280000 ![] bcast_S_S1280000 (constantI S_ 32 80000#32)))
      (shapeCast _ (extractStridedSlice S1x1280000 ![0, 0] ei slices_S2x1280000_S1x1280000_0_0) shapeCasts_S1x1280000_S1280000))

/-- The edges' targets as a column of row indices. -/
def dstCol (ei : IVec S2x1280000 32) : IVec S1280000x1 32 :=
  broadcastInDim S1280000x1 ![0] bcast_S1280000_S1280000x1_0
    (shapeCast _ (extractStridedSlice S1x1280000 ![1, 0] ei slices_S2x1280000_S1x1280000_1_0) shapeCasts_S1x1280000_S1280000)

/-- The neighbours' aggregate of 4-feature rows. -/
def agg4 (h : FVec Ideal S80000x4 .f32) (ei : IVec S2x1280000 32) : FVec Ideal S80000x4 .f32 :=
  Host.scatterAdd scatter_S80000x4_S1280000x1_S1280000x4_1_0_0_1 (broadcastInDim S80000x4 ![] bcast_S_S80000x4 (constant S_ .f32 0x00000000#32))
    (dstCol ei) (Host.gather gather_S80000x4_S1280000x1_S1280000x4_1_0_n_n_0_1_14 h (srcCol ei))

/-- The neighbours' aggregate of 64-feature rows. -/
def agg64 (h : FVec Ideal S80000x64 .f32) (ei : IVec S2x1280000 32) : FVec Ideal S80000x64 .f32 :=
  Host.scatterAdd scatter_S80000x64_S1280000x1_S1280000x64_1_0_0_1 (broadcastInDim S80000x64 ![] bcast_S_S80000x64 (constant S_ .f32 0x00000000#32))
    (dstCol ei) (Host.gather gather_S80000x64_S1280000x1_S1280000x64_1_0_n_n_0_1_164 h (srcCol ei))

end Cert.Chain

end
-- ==== Proof.Model.lean ====
/-
  The whole network as one function of the argument arrays, over the extended reals: batch-normalise the node features;
  three graph-convolution layers, each fed the neighbours' aggregate of the layer before, the first two followed by a ReLU;
  the mean pool over graphs and the final linear layer. Both programs' results are proved equal to this, entry by entry.
-/
import proofs.«431281_j6751688589931_2_alg».proof.Proof.Chain
import proofs.«431281_j6751688589931_2_alg».proof.Proof.Spec
import Idealize.ShloMosaic.Lib.ValueIdx

noncomputable section

namespace Cert.Model

open Idealize.ShloMosaic Idealize.ShloMosaic.ValueIdx Cert.ReferenceIdeal Cert.Spec Cert.Chain

variable [Cert.ReferenceIdeal.Facts]

/-- A length-`n` vector as a function of its one coordinate. -/
def vecFn {n : ℕ} {α : Type} (v : (⟨1, ![n]⟩ : Shape).Idx → α) : Fin n → α := fun q => v (ix1 q)

/-- The features after layer 1. -/
def h1 (x : FVec Ideal S80000x4 .f32) (ei : IVec S2x1280000 32) (gamma beta mean var : FVec Ideal S4 .f32)
    (W1r : FVec Ideal S4x64 .f32) (b1 : FVec Ideal S64 .f32) (W1o : FVec Ideal S4x64 .f32) : FVec Ideal S80000x64 .f32 :=
  ofFn (convRelu 4 (toFn (agg4 (bn x gamma beta mean var) ei)) (toFn (bn x gamma beta mean var)) (toFn W1r) (vecFn b1) (toFn W1o))

/-- The features after a 64-to-64 layer with ReLU, from the features before it. -/
def hNext (h : FVec Ideal S80000x64 .f32) (ei : IVec S2x1280000 32)
    (Wr : FVec Ideal S64x64 .f32) (b : FVec Ideal S64 .f32) (Wo : FVec Ideal S64x64 .f32) : FVec Ideal S80000x64 .f32 :=
  ofFn (convRelu 64 (toFn (agg64 h ei)) (toFn h) (toFn Wr) (vecFn b) (toFn Wo))

/-- The result at graph `g`, class `j`. -/
def result (x : FVec Ideal S80000x4 .f32) (ei : IVec S2x1280000 32) (batch : IVec S80000 32) (gamma beta mean var : FVec Ideal S4 .f32)
    (W1r : FVec Ideal S4x64 .f32) (b1 : FVec Ideal S64 .f32) (W1o : FVec Ideal S4x64 .f32)
    (W2r : FVec Ideal S64x64 .f32) (b2 : FVec Ideal S64 .f32) (W2o : FVec Ideal S64x64 .f32)
    (W3r : FVec Ideal S64x64 .f32) (b3 : FVec Ideal S64 .f32) (W3o : FVec Ideal S64x64 .f32)
    (LW : FVec Ideal S64x2 .f32) (lb : FVec Ideal S2 .f32) (g : Fin 64) (j : Fin 2) : EReal :=
  headAt
    (convAt 64 (toFn (agg64 (hNext (h1 x ei gamma beta mean var W1r b1 W1o) ei W2r b2 W2o) ei))
      (toFn (hNext (h1 x ei gamma beta mean var W1r b1 W1o) ei W2r b2 W2o)) (toFn W3r) (vecFn b3) (toFn W3o))
    (vecFn batch) (toFn LW) (vecFn lb) g j

end Cert.Model

end
-- ==== Proof.KI.KHost.lean ====
/-
  What the host operations of the kernel program leave in the arrays its three regions read, at the ideal instance.
  Before the first region: the batch-normalised node features, their neighbours' aggregate, and the first bias as a row.
  Between regions, from whatever contents the stretch starts: the neighbours' aggregate of the features it finds in place,
  and the next bias as a row; before the last region also the head's bias as a row and the graph ids as twenty rows of four
  thousand. The edges' two index rows are computed once, before the first region, and read again by the later stretches.
  The program rounds the features to a narrower format before each row gather and widens them after it; over the extended
  reals both steps are the identity, so each aggregate is the shared chain's gather and scatter-add.
-/
import proofs.«431281_j6751688589931_2_alg».proof.Proof.Gen.KernelIdeal.Regions
import proofs.«431281_j6751688589931_2_alg».proof.Proof.Model
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.TcCoe Idealize.ShloMosaic.StableHlo Idealize.ShloMosaic.ValueIdx
open Cert.KernelIdeal Cert.KernelIdeal.Gen

variable [Cert.ReferenceIdeal.Facts]
variable (m : (ℓ : Loc nD τ sig) → Buf (Elt Ideal) ℓ) (outs : Outs (F := Ideal)) (c : Dev nD)

/-- A vector of eighty thousand read as twenty rows of four thousand: row a, place b is entry 4000 a + b. -/
theorem cast_rows {α : Type} (x : S80000.Idx → α) (h : S80000.ShapeCasts S20x1x4000) (a : Fin 20) (b : Fin 4000) :
    shapeCast S20x1x4000 x h (ix3 a (0 : Fin 1) b) = x (ix1 (⟨4000 * a.val + b.val, by omega⟩ : Fin 80000)) := by
  refine shapeCast_apply x h _ _ ?_
  rw [Shape.rowMajor_val_three, Shape.rowMajor_val_one]
  show 4000 * a.val + b.val = (a.val * 1 + 0) * 4000 + b.val
  omega

/-! ## The shared chain from the two flat index rows -/

/-- The edges' sources as a flat row: the first row of the edge array. -/
def srcRow (ei : IVec S2x1280000 32) : IVec S1280000 32 :=
  shapeCast _ (extractStridedSlice S1x1280000 ![0, 0] ei slices_S2x1280000_S1x1280000_0_0) shapeCasts_S1x1280000_S1280000

/-- The edges' targets as a flat row: the second row of the edge array. -/
def dstRow (ei : IVec S2x1280000 32) : IVec S1280000 32 :=
  shapeCast _ (extractStridedSlice S1x1280000 ![1, 0] ei slices_S2x1280000_S1x1280000_1_0) shapeCasts_S1x1280000_S1280000

/-- The neighbours' aggregate of 64-feature rows from the two flat rows: gather the rows at the sources (a negative source
    counted from the end), add each into its target's row of a zero array. -/
def aggOf64 (h : FVec Ideal S80000x64 .f32) (v1 v3 : IVec S1280000 32) : FVec Ideal S80000x64 .f32 :=
  Host.scatterAdd scatter_S80000x64_S1280000x1_S1280000x64_1_0_0_1
    (broadcastInDim S80000x64 ![] bcast_S_S80000x64 (constant (F := Ideal) S_ .f32 0x00000000#32))
    (broadcastInDim S1280000x1 ![0] bcast_S1280000_S1280000x1_0 v3)
    (Host.gather gather_S80000x64_S1280000x1_S1280000x64_1_0_n_n_0_1_164 h
      (broadcastInDim S1280000x1 ![0] bcast_S1280000_S1280000x1_0
        (select (cmpi .slt v1 (broadcastInDim S1280000 ![] bcast_S_S1280000 (constantI S_ 32 0#32)))
          (addi v1 (broadcastInDim S1280000 ![] bcast_S_S1280000 (constantI S_ 32 80000#32))) v1)))

/-- On the two rows of an edge array it is the shared chain's aggregate. -/
theorem agg64_eq (h : FVec Ideal S80000x64 .f32) (ei : IVec S2x1280000 32) :
    Cert.Chain.agg64 h ei = aggOf64 h (srcRow ei) (dstRow ei) := rfl

/-! ## Before region 0 -/

/-- The edges' sources as a flat row. -/
theorem V1_v1 : V1 m c main_v1 = srcRow (m ((c : Thread nD τ).loc main_arg1)) := by
  dsimp only [V1, V0, hostOps0]
  after_results_simp
  all_goals rfl

/-- The edges' targets as a flat row. -/
theorem V1_v3 : V1 m c main_v3 = dstRow (m ((c : Thread nD τ).loc main_arg1)) := by
  dsimp only [V1, V0, hostOps0]
  after_results_simp
  all_goals rfl

/-- The batch-normalised node features. -/
theorem V1_v16 : V1 m c main_v16 = Cert.Chain.bn (m ((c : Thread nD τ).loc main_arg0)) (m ((c : Thread nD τ).loc main_arg3)) (m ((c : Thread nD τ).loc main_arg4)) (m ((c : Thread nD τ).loc main_arg5)) (m ((c : Thread nD τ).loc main_arg6)) := by
  dsimp only [V1, V0, hostOps0]
  after_results_simp
  all_goals rfl

/-- Their neighbours' aggregate: the rounding before the gather and the widening after it change nothing. -/
theorem V1_v28 : V1 m c main_v28 = Cert.Chain.agg4 (V1 m c main_v16) (m ((c : Thread nD τ).loc main_arg1)) := by
  rw [V1_v16]
  dsimp only [V1, V0, hostOps0]
  after_results_simp
  all_goals rfl

/-- The first bias as a row. -/
theorem V1_v29 (q : Fin 64) : V1 m c main_v29 (ix2 0 q) = (m ((c : Thread nD τ).loc main_arg8)) (ix1 q) := by
  have e : V1 m c main_v29 = shapeCast S1x64 (m ((c : Thread nD τ).loc main_arg8)) shapeCasts_S64_S1x64 := by
    dsimp only [V1, V0, hostOps0]
    after_results_simp
    all_goals rfl
  rw [e]
  exact shapeCast_a_1a_apply _ _ 0 q

theorem V1_arg7 : V1 m c main_arg7 = (m ((c : Thread nD τ).loc main_arg7)) := V1_of m c main_arg7 (by decide)
theorem V1_arg9 : V1 m c main_arg9 = (m ((c : Thread nD τ).loc main_arg9)) := V1_of m c main_arg9 (by decide)

/-! ## Between regions 0 and 1, from any contents -/

/-- The neighbours' aggregate of the features the stretch finds in place, whatever the contents it starts from: the rounding
    before the gather and the widening after it change nothing over the extended reals. -/
theorem S1_v42 (W : Valuation τ sig (Elt Ideal)) :
    StableHlo.after hostOps1 W main_v42 = aggOf64 (W main_v30) (W main_v1) (W main_v3) := by
  dsimp only [hostOps1]
  after_results_simp
  all_goals rfl

/-- The bias as a row. -/
theorem S1_v43 (W : Valuation τ sig (Elt Ideal)) (q : Fin 64) :
    StableHlo.after hostOps1 W main_v43 (ix2 0 q) = W main_arg11 (ix1 q) := by
  have e : StableHlo.after hostOps1 W main_v43 = shapeCast S1x64 (W main_arg11) shapeCasts_S64_S1x64 := by
    dsimp only [hostOps1]
    after_results_simp
    all_goals rfl
  rw [e]
  exact shapeCast_a_1a_apply _ _ 0 q

/-- An array no operation of the stretch writes keeps its contents. -/
theorem S1_keep (W : Valuation τ sig (Elt Ideal)) (r : Ref sig .tc) (h : r ∉ hostOps1_W) : StableHlo.after hostOps1 W r = W r :=
  StableHlo.after_of_writes_sub hostOps1 _ hostOps1_writes h

/-! ## Between regions 1 and 2, from any contents -/

/-- The neighbours' aggregate of the features the stretch finds in place, whatever the contents it starts from: the rounding
    before the gather and the widening after it change nothing over the extended reals. -/
theorem S2_v56 (W : Valuation τ sig (Elt Ideal)) :
    StableHlo.after hostOps2 W main_v56 = aggOf64 (W main_v44) (W main_v1) (W main_v3) := by
  dsimp only [hostOps2]
  after_results_simp
  all_goals rfl

/-- The bias as a row. -/
theorem S2_v57 (W : Valuation τ sig (Elt Ideal)) (q : Fin 64) :
    StableHlo.after hostOps2 W main_v57 (ix2 0 q) = W main_arg14 (ix1 q) := by
  have e : StableHlo.after hostOps2 W main_v57 = shapeCast S1x64 (W main_arg14) shapeCasts_S64_S1x64 := by
    dsimp only [hostOps2]
    after_results_simp
    all_goals rfl
  rw [e]
  exact shapeCast_a_1a_apply _ _ 0 q

/-- An array no operation of the stretch writes keeps its contents. -/
theorem S2_keep (W : Valuation τ sig (Elt Ideal)) (r : Ref sig .tc) (h : r ∉ hostOps2_W) : StableHlo.after hostOps2 W r = W r :=
  StableHlo.after_of_writes_sub hostOps2 _ hostOps2_writes h

/-- The head's bias as a row. -/
theorem S2_v58 (W : Valuation τ sig (Elt Ideal)) (j : Fin 2) : StableHlo.after hostOps2 W main_v58 (ix2 0 j) = W main_arg17 (ix1 j) := by
  have e : StableHlo.after hostOps2 W main_v58 = shapeCast S1x2 (W main_arg17) shapeCasts_S2_S1x2 := by
    dsimp only [hostOps2]
    after_results_simp
    all_goals rfl
  rw [e]
  exact shapeCast_a_1a_apply _ _ 0 j

/-- The graph ids as twenty rows of four thousand: row a, place b is node 4000 a + b. -/
theorem S2_v59 (W : Valuation τ sig (Elt Ideal)) (a : Fin 20) (b : Fin 4000) :
    StableHlo.after hostOps2 W main_v59 (ix3 a (0 : Fin 1) b) = W main_arg2 (ix1 (⟨4000 * a.val + b.val, by omega⟩ : Fin 80000)) := by
  have e : StableHlo.after hostOps2 W main_v59 = shapeCast S20x1x4000 (W main_arg2) shapeCasts_S80000_S20x1x4000 := by
    dsimp only [hostOps2]
    after_results_simp
    all_goals rfl
  rw [e]
  exact cast_rows _ _ a b

/-! ## The same facts at the boundary valuations the generated frame names: between regions 0 and 1 -/

theorem V2_v1 : V2 m outs c main_v1 = srcRow (m ((c : Thread nD τ).loc main_arg1)) :=
  (V2_of m outs c main_v1 (by decide)).trans (V1_v1 m c)
theorem V2_v3 : V2 m outs c main_v3 = dstRow (m ((c : Thread nD τ).loc main_arg1)) :=
  (V2_of m outs c main_v3 (by decide)).trans (V1_v3 m c)
theorem V2_v30 : V2 m outs c main_v30 = outs 2 main_v30 c := by
  simp only [V2, Function.update_self]
theorem V2_arg (r : Ref sig .tc) (h0 : r ∉ hostOps0_W) (h1 : r ∉ ([main_v30] : List (Ref sig .tc))) : V2 m outs c r = m (c, r) :=
  (V2_of m outs c r h1).trans (V1_of m c r h0)

/-- Region 0's result is not touched by the stretch after it. -/
theorem V3_v30 : V3 m outs c main_v30 = outs 2 main_v30 c :=
  (V3_of m outs c main_v30 (by decide)).trans (V2_v30 m outs c)

/-- The neighbours' aggregate of region 0's result. -/
theorem V3_v42 : V3 m outs c main_v42 = Cert.Chain.agg64 (outs 2 main_v30 c) (m ((c : Thread nD τ).loc main_arg1)) := by
  dsimp only [V3, hostOps1]
  after_results_simp
  rw [V2_v1 m outs c, V2_v3 m outs c, V2_v30 m outs c]
  rfl

/-- The second bias as a row. -/
theorem V3_v43 (q : Fin 64) : V3 m outs c main_v43 (ix2 0 q) = (m ((c : Thread nD τ).loc main_arg11)) (ix1 q) := by
  have e : V3 m outs c main_v43 = shapeCast S1x64 (V2 m outs c main_arg11) shapeCasts_S64_S1x64 := by
    dsimp only [V3, hostOps1]
    after_results_simp
    all_goals rfl
  rw [e, V2_arg m outs c main_arg11 (by decide) (by decide)]
  exact shapeCast_a_1a_apply _ _ 0 q

theorem V3_arg10 : V3 m outs c main_arg10 = (m ((c : Thread nD τ).loc main_arg10)) :=
  (V3_of m outs c main_arg10 (by decide)).trans (V2_arg m outs c main_arg10 (by decide) (by decide))
theorem V3_arg12 : V3 m outs c main_arg12 = (m ((c : Thread nD τ).loc main_arg12)) :=
  (V3_of m outs c main_arg12 (by decide)).trans (V2_arg m outs c main_arg12 (by decide) (by decide))

/-! ## The same at the generated boundary valuations: between regions 1 and 2 -/

theorem V4_v1 : V4 m outs c main_v1 = srcRow (m ((c : Thread nD τ).loc main_arg1)) :=
  (V4_of m outs c main_v1 (by decide)).trans ((V3_of m outs c main_v1 (by decide)).trans (V2_v1 m outs c))
theorem V4_v3 : V4 m outs c main_v3 = dstRow (m ((c : Thread nD τ).loc main_arg1)) :=
  (V4_of m outs c main_v3 (by decide)).trans ((V3_of m outs c main_v3 (by decide)).trans (V2_v3 m outs c))
theorem V4_v44 : V4 m outs c main_v44 = outs 4 main_v44 c := by
  simp only [V4, Function.update_self]
theorem V4_arg (r : Ref sig .tc) (h0 : r ∉ hostOps0_W) (h1 : r ∉ ([main_v30] : List (Ref sig .tc))) (h2 : r ∉ hostOps1_W)
    (h3 : r ∉ ([main_v44] : List (Ref sig .tc))) : V4 m outs c r = m (c, r) :=
  (V4_of m outs c r h3).trans ((V3_of m outs c r h2).trans (V2_arg m outs c r h0 h1))

/-- Region 1's result is not touched by the stretch after it. -/
theorem V5_v44 : V5 m outs c main_v44 = outs 4 main_v44 c :=
  (V5_of m outs c main_v44 (by decide)).trans (V4_v44 m outs c)

/-- The neighbours' aggregate of region 1's result. -/
theorem V5_v56 : V5 m outs c main_v56 = Cert.Chain.agg64 (outs 4 main_v44 c) (m ((c : Thread nD τ).loc main_arg1)) := by
  dsimp only [V5, hostOps2]
  after_results_simp
  rw [V4_v1 m outs c, V4_v3 m outs c, V4_v44 m outs c]
  rfl

/-- The third bias as a row. -/
theorem V5_v57 (q : Fin 64) : V5 m outs c main_v57 (ix2 0 q) = (m ((c : Thread nD τ).loc main_arg14)) (ix1 q) := by
  have e : V5 m outs c main_v57 = shapeCast S1x64 (V4 m outs c main_arg14) shapeCasts_S64_S1x64 := by
    dsimp only [V5, hostOps2]
    after_results_simp
    all_goals rfl
  rw [e, V4_arg m outs c main_arg14 (by decide) (by decide) (by decide) (by decide)]
  exact shapeCast_a_1a_apply _ _ 0 q

/-- The head's bias as a row. -/
theorem V5_v58 (j : Fin 2) : V5 m outs c main_v58 (ix2 0 j) = (m ((c : Thread nD τ).loc main_arg17)) (ix1 j) := by
  have e : V5 m outs c main_v58 = shapeCast S1x2 (V4 m outs c main_arg17) shapeCasts_S2_S1x2 := by
    dsimp only [V5, hostOps2]
    after_results_simp
    all_goals rfl
  rw [e, V4_arg m outs c main_arg17 (by decide) (by decide) (by decide) (by decide)]
  exact shapeCast_a_1a_apply _ _ 0 j

/-- The graph ids as twenty rows of four thousand: row a, place b is node 4000 a + b. -/
theorem V5_v59 (a : Fin 20) (b : Fin 4000) :
    V5 m outs c main_v59 (ix3 a (0 : Fin 1) b) = (m ((c : Thread nD τ).loc main_arg2)) (ix1 (⟨4000 * a.val + b.val, by omega⟩ : Fin 80000)) := by
  have e : V5 m outs c main_v59 = shapeCast S20x1x4000 (V4 m outs c main_arg2) shapeCasts_S80000_S20x1x4000 := by
    dsimp only [V5, hostOps2]
    after_results_simp
    all_goals rfl
  rw [e, V4_arg m outs c main_arg2 (by decide) (by decide) (by decide) (by decide)]
  exact cast_rows _ _ a b

theorem V5_arg13 : V5 m outs c main_arg13 = (m ((c : Thread nD τ).loc main_arg13)) :=
  (V5_of m outs c main_arg13 (by decide)).trans (V4_arg m outs c main_arg13 (by decide) (by decide) (by decide) (by decide))
theorem V5_arg15 : V5 m outs c main_arg15 = (m ((c : Thread nD τ).loc main_arg15)) :=
  (V5_of m outs c main_arg15 (by decide)).trans (V4_arg m outs c main_arg15 (by decide) (by decide) (by decide) (by decide))
theorem V5_arg16 : V5 m outs c main_arg16 = (m ((c : Thread nD τ).loc main_arg16)) :=
  (V5_of m outs c main_arg16 (by decide)).trans (V4_arg m outs c main_arg16 (by decide) (by decide) (by decide) (by decide))

end Cert.KernelIdeal.Hand

end
-- ==== Proof.KI.KVal.lean ====
/-
  The kernel's program computes the model. Region 0's output array is the model's layer 1 of the batch-normalised
  features and their neighbours' aggregate (both made by the first stretch of host operations); the second stretch
  aggregates that array, so region 1's output is layer 2; the third aggregates again, and region 2's output — the
  program's result — is the model's result: layer 3 pooled over graphs through the final linear layer. The edges' index
  vectors are computed once, in the first stretch, and no later item writes them; no item writes an argument.
-/
import proofs.«431281_j6751688589931_2_alg».proof.Proof.KI.Run
import proofs.«431281_j6751688589931_2_alg».proof.Proof.KI.Val0
import proofs.«431281_j6751688589931_2_alg».proof.Proof.KI.Val1
import proofs.«431281_j6751688589931_2_alg».proof.Proof.KI.Val2
import proofs.«431281_j6751688589931_2_alg».proof.Proof.KI.KHost
import proofs.«431281_j6751688589931_2_alg».proof.Proof.Model
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec Cert.Chain

variable [Cert.ReferenceIdeal.Facts]
variable (m : (ℓ : Loc nD τ sig) → Buf (Elt Ideal) ℓ) (c : Dev nD)

/-! ## The edges' index vectors are kept -/

theorem U2_v1 : U2 m c main_v1 = srcRow (m ((c : Thread nD τ).loc main_arg1)) := (U2_of_ne m c main_v1 (by decide)).trans (V1_v1 m c)
theorem U2_v3 : U2 m c main_v3 = dstRow (m ((c : Thread nD τ).loc main_arg1)) := (U2_of_ne m c main_v3 (by decide)).trans (V1_v3 m c)
theorem U4_v1 : U4 m c main_v1 = srcRow (m ((c : Thread nD τ).loc main_arg1)) :=
  (U4_of_ne m c main_v1 (by decide)).trans ((S1_keep (U2 m c) main_v1 (by decide)).trans (U2_v1 m c))
theorem U4_v3 : U4 m c main_v3 = dstRow (m ((c : Thread nD τ).loc main_arg1)) :=
  (U4_of_ne m c main_v3 (by decide)).trans ((S1_keep (U2 m c) main_v3 (by decide)).trans (U2_v3 m c))

/-! ## Layer by layer -/

/-- Region 0 leaves the model's layer 1. -/
theorem K_h1 : U2 m c main_v30 = Cert.Model.h1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show U2 m c main_v30 = (dat0 (atRefs (U1 m)) c).arrAt 5 cfg0.N from U2_arr m c 5]
  funext i
  obtain ⟨r, q, rfl⟩ : ∃ (r : Fin 80000) (q : Fin 64), i = ix2 r q := ⟨i 0, i 1, eq_ix2 i⟩
  rw [arr0_apply]
  simp only [atRefs, V1_v28 m c, V1_v16 m c, V1_arg7 m c, V1_arg9 m c, V1_v29 m c]
  rfl

/-- Region 1 leaves the model's next layer of what region 0 left. -/
theorem K_h2 : U4 m c main_v44 = Cert.Model.hNext (U2 m c main_v30) (m ((c : Thread nD τ).loc main_arg1)) (m ((c : Thread nD τ).loc main_arg10)) (m ((c : Thread nD τ).loc main_arg11)) (m ((c : Thread nD τ).loc main_arg12)) := by
  rw [show U4 m c main_v44 = (dat1 (atRefs (U3 m)) c).arrAt 5 cfg1.N from U4_arr m c 5]
  funext i
  obtain ⟨r, q, rfl⟩ : ∃ (r : Fin 80000) (q : Fin 64), i = ix2 r q := ⟨i 0, i 1, eq_ix2 i⟩
  rw [arr1_apply]
  have e42 : U3 m c main_v42 = agg64 (U2 m c main_v30) (m ((c : Thread nD τ).loc main_arg1)) :=
    (S1_v42 (U2 m c)).trans (by rw [U2_v1 m c, U2_v3 m c]; exact (agg64_eq _ _).symm)
  have e30 : U3 m c main_v30 = U2 m c main_v30 := S1_keep (U2 m c) main_v30 (by decide)
  have e43 : ∀ q : Fin 64, U3 m c main_v43 (ix2 0 q) = (m ((c : Thread nD τ).loc main_arg11)) (ix1 q) := fun q =>
    (S1_v43 (U2 m c) q).trans (by rw [U2_main_arg11 m c])
  simp only [atRefs, e42, e30, e43, U3_main_arg10 m c, U3_main_arg12 m c]
  rfl

/-- Region 2 leaves the model's result. -/
theorem K_out (g : Fin 64) (j : Fin 2) : U6 m c main_v60 (ix2 g j)
    = Cert.Model.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) g j := by
  rw [show U6 m c main_v60 = (dat2 (atRefs (U5 m)) c).arrAt 8 cfg2.N from U6_arr m c 8, arr2_apply]
  have e56 : U5 m c main_v56 = agg64 (U4 m c main_v44) (m ((c : Thread nD τ).loc main_arg1)) :=
    (S2_v56 (U4 m c)).trans (by rw [U4_v1 m c, U4_v3 m c]; exact (agg64_eq _ _).symm)
  have e44 : U5 m c main_v44 = U4 m c main_v44 := S2_keep (U4 m c) main_v44 (by decide)
  have e57 : ∀ q : Fin 64, U5 m c main_v57 (ix2 0 q) = (m ((c : Thread nD τ).loc main_arg14)) (ix1 q) := fun q =>
    (S2_v57 (U4 m c) q).trans (by rw [U4_main_arg14 m c])
  have e58 : ∀ j : Fin 2, U5 m c main_v58 (ix2 0 j) = (m ((c : Thread nD τ).loc main_arg17)) (ix1 j) := fun j =>
    (S2_v58 (U4 m c) j).trans (by rw [U4_main_arg17 m c])
  have e59 : (fun n : Fin 80000 => U5 m c main_v59 (ix3 (⟨n.val / 4000, by omega⟩ : Fin 20) (0 : Fin 1) (⟨n.val % 4000, Nat.mod_lt _ (by decide)⟩ : Fin 4000)))
      = Cert.Model.vecFn (m ((c : Thread nD τ).loc main_arg2)) := by
    funext n
    refine (S2_v59 (U4 m c) _ _).trans ?_
    rw [U4_main_arg2 m c]
    exact congrArg _ (congrArg ix1 (Fin.ext (Nat.div_add_mod n.val 4000)))
  simp only [atRefs, e56, e44, e57, e58, e59, U5_main_arg13 m c, U5_main_arg15 m c, U5_main_arg16 m c, K_h2 m c, K_h1 m c]
  rfl

end Cert.KernelIdeal.Hand

end
-- ==== Proof.RefGen.lean ====
/-
  The reference's run and its read-at-an-index lemmas, as the generator writes them: imported here once so that the
  modules about the reference's value share one import.
-/
import proofs.«431281_j6751688589931_2_alg».proof.Proof.Gen.ReferenceIdeal.Run
import proofs.«431281_j6751688589931_2_alg».proof.Proof.Gen.ReferenceIdeal.Read
-- ==== Proof.LibScatter.lean ====
/-
  A row scatter-add read at an index, over the extended reals.  The operand is [N, C], the scatter indices a column
  [R, 1], the updates [R, C]: update row r is added onto operand row idx[r] (the index word read signed; a row landing
  outside the operand is dropped), so each operand element gains the sum of the updates of the rows that land on it.
-/
import Idealize.ShloMosaic.PureOps.Ideal
import Idealize.ShloMosaic.Lib.ValueIdx

noncomputable section

open scoped BigOperators

namespace Cert.LibScatter

open Idealize.ShloMosaic Idealize.ShloMosaic.ValueIdx

/-- The dimension numbers of a row scatter: update window axis 1, inserted window axis 0, the one index component
    addressing axis 0, the index vector along axis 1. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Facts
variable {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C)

/-- Operand axis 0 is inserted: no window coordinate there. -/
private theorem window0 : (rowScatter N R C wf).window (ix2 r k) 0 = 0 := rfl
/-- Operand axis 1 carries the update's column. -/
private theorem window1 : (rowScatter N R C wf).window (ix2 r k) 1 = k.val := rfl
/-- Operand axis 1 is not addressed by the index: its start is zero. -/
private theorem start1 : (rowScatter N R C wf).start (ix2 r k) idx 1 = 0 := rfl
/-- Operand axis 0 starts at row r's index word, read signed. -/
private theorem start0 : (rowScatter N R C wf).start (ix2 r k) idx 0 = (idx (ix2 r (⟨0, Nat.one_pos⟩ : Fin 1))).toInt := by
  unfold ScatterDims.start
  rw [dif_pos (show (0 : Fin 2) ∈ (rowScatter N R C wf).scatterDimsToOperandDims from List.mem_singleton.mpr rfl)]
  congr 2
  funext b
  refine Fin.ext ?_
  match b with
  | ⟨0, _⟩ => rfl
  | ⟨1, _⟩ => rfl
end Facts

/-- Update element (r, k) lands on operand element (p, k') exactly when row r's index word is p and the columns agree. -/
theorem rowScatter_resultIdx {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (k' : Fin C) :
    (rowScatter N R C wf).resultIdx? (ix2 r k) idx = some (ix2 p k')
      ↔ (idx (ix2 r (⟨0, Nat.one_pos⟩ : Fin 1))).toInt = (p.val : ℤ) ∧ k = k' := by
  have hs0 := start0 wf idx r k
  have hs1 := start1 wf idx r k
  have hw0 := window0 wf r k
  have hw1 := window1 wf r k
  unfold ScatterDims.resultIdx?
  split
  · -- the landing point is inside the operand: compare it with (p, k') coordinate by coordinate
    rename_i h
    rw [Option.some.injEq]
    constructor
    · intro hf
      have h0 := congrArg Fin.val (congrFun hf 0)
      have h1 := congrArg Fin.val (congrFun hf 1)
      have hb0 := h 0
      have hb1 := h 1
      simp only [hs0, hs1, hw0, hw1] at h0 h1 hb0 hb1
      change _ = p.val at h0
      change _ = k'.val at h1
      refine ⟨by omega, Fin.ext (by omega)⟩
    · rintro ⟨hp, rfl⟩
      funext a
      refine Fin.ext ?_
      match a with
      | ⟨0, _⟩ =>
        show ((rowScatter N R C wf).start (ix2 r k) idx 0 + (rowScatter N R C wf).window (ix2 r k) 0).toNat = p.val
        rw [hs0, hw0, hp]; simp
      | ⟨1, _⟩ =>
        show ((rowScatter N R C wf).start (ix2 r k) idx 1 + (rowScatter N R C wf).window (ix2 r k) 1).toNat = k.val
        rw [hs1, hw1]; simp
  · -- the landing point is outside the operand: then the word cannot be a row p < N
    rename_i h
    constructor
    · intro hf; exact absurd hf (by simp)
    · rintro ⟨hp, rfl⟩
      exfalso
      apply h
      intro a
      match a with
      | ⟨0, _⟩ =>
        show 0 ≤ (rowScatter N R C wf).start (ix2 r k) idx 0 + (rowScatter N R C wf).window (ix2 r k) 0 ∧
          (rowScatter N R C wf).start (ix2 r k) idx 0 + (rowScatter N R C wf).window (ix2 r k) 0 < (N : ℤ)
        rw [hs0, hw0, hp]
        have := p.isLt
        constructor <;> omega
      | ⟨1, _⟩ =>
        show 0 ≤ (rowScatter N R C wf).start (ix2 r k) idx 1 + (rowScatter N R C wf).window (ix2 r k) 1 ∧
          (rowScatter N R C wf).start (ix2 r k) idx 1 + (rowScatter N R C wf).window (ix2 r k) 1 < (C : ℤ)
        rw [hs1, hw1]
        have := k.isLt
        constructor <;> omega

/-- THE ROW SCATTER-ADD READ AT (p, k): the operand there plus the sum, over the rows whose index word is p, of the
    update at column k. -/
theorem scatterAdd_row_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (p : Fin N) (k : Fin C) :
    Ideal.hostScatterAdd (rowScatter N R C wf) x idx upd (ix2 p k)
      = x (ix2 p k) + ∑ r ∈ Finset.univ.filter (fun r : Fin R => (idx (ix2 r (⟨0, Nat.one_pos⟩ : Fin 1))).toInt = (p.val : ℤ)),
          upd (ix2 r k) := by
  unfold Ideal.hostScatterAdd
  congr 1
  symm
  -- the update elements landing on (p, k) are exactly the (r, k) with row r's word equal to p
  refine Finset.sum_bij (fun r _ => ix2 r k) ?_ ?_ ?_ ?_
  · intro r hr
    rw [Finset.mem_filter] at hr ⊢
    exact ⟨Finset.mem_univ _, (rowScatter_resultIdx wf idx r k p k).mpr ⟨hr.2, rfl⟩⟩
  · intro r₁ _ r₂ _ h
    exact congrFun h 0
  · intro j hj
    obtain ⟨a, b, rfl⟩ : ∃ (a : Fin R) (b : Fin C), j = ix2 a b := ⟨j 0, j 1, eq_ix2 j⟩
    rw [Finset.mem_filter] at hj
    have hj2 := (rowScatter_resultIdx wf idx a b p k).mp hj.2
    refine ⟨a, ?_, ?_⟩
    · rw [Finset.mem_filter]; exact ⟨Finset.mem_univ _, hj2.1⟩
    · rw [hj2.2]
  · intro r _; rfl

end Cert.LibScatter

end
-- ==== Proof.LibSegNorm.lean ====
/-
  SEGMENT SUMS UNDER A SYMMETRIC NORMALISATION — a general lemma file (no program is named here).

  The setting. A table `L` of `N` rows and `C` columns, a list of `E` edges given by two columns of 32-bit row
  numbers (sources `is`, destinations `id`, each an `[E, 1]` array), and one factor `dinv n` per row. The
  AGGREGATION of per-edge rows `u : [E, C]` is the scatter-add into a zero `[N, C]` table: row `n` of the
  result is the sum of the rows `u e` over the edges `e` whose destination is `n`.

  The law (`agg_law`). Scaling each edge's row by BOTH endpoint factors and then aggregating,
      ∑_{e → n} L[src e] · (dinv[src e] · dinv[dst e]),
  is the same as aggregating the rows of the PRE-SCALED table `L[m] · dinv[m]` and scaling row `n` of the result
  once by `dinv[n]`,
      (∑_{e → n} L[src e] · dinv[src e]) · dinv[n],
  over the extended reals, for every `L`, as soon as each factor `dinv n` is a NONNEGATIVE REAL. Only that is
  needed: a nonnegative real factor distributes over every sum of extended reals, whatever its terms (even
  `⊤ + ⊥`), and multiplication of extended reals is associative and commutative everywhere.

  What the file states, in order:
    * the dimension numbers of the two gathers (a row of an `[N, C]` table, an entry of an `[N]` vector, each at
      an `[E, 1]` column of starts) and of the two scatters (a row into `[N, C]`, an entry into `[N]`), each an
      `abbrev` taking its well-formedness proof as an argument;
    * each gather read at an index: the operand at the start, read signed and clamped into `[0, N − 1]`
      (`rowGather_apply`, `vecGather_apply`);
    * each scatter's landing condition: edge `e`'s update lands on row `n` exactly when its start, read signed
      and NOT clamped, is `n` (`rowScatter_resultIdx`, `vecScatter_resultIdx`);
    * a nonnegative real factor through a finite sum (`sum_mul_coe`);
    * the law (`agg_law`);
    * the degree count: scatter-adding ones into zeros gives a natural number (`degree_real`).
-/
import Idealize.ShloMosaic.Lib.ValueIdx
import Mathlib.Data.EReal.Operations

noncomputable section

open scoped BigOperators

open Idealize.ShloMosaic

namespace SegNorm

open Idealize.ShloMosaic.ValueIdx

/-! ## The dimension numbers -/

/-- A ROW of an `[N, C]` table at each of `E` starts: the table's axis 0 is collapsed and start-indexed, its
    axis 1 is the result's offset axis, the index vector lies on axis 1 of the `[E, 1]` starts. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- An ENTRY of an `[N]` vector at each of `E` starts. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `E` rows of width `C` into an `[N, C]` table, row `e` at the start `e` names. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `E` scalars into an `[N]` vector, scalar `e` at the start `e` names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The start of an edge -/

/-- The index `[e, 0]` of edge `e`'s start in an `[E, 1]` column. -/
abbrev eIdx {E : Nat} (e : Fin E) : (⟨2, ![E, 1]⟩ : Shape).Idx :=
  fun a => match a with | ⟨0, _⟩ => e | ⟨1, _⟩ => ⟨0, Nat.one_pos⟩

/-- Edge `e`'s start read signed and clamped into `[0, N − 1]`: the row a gather reads. -/
def clampRow {N E w : Nat} (hN : 0 < N) (idx : IVec ⟨2, ![E, 1]⟩ w) (e : Fin E) : Fin N :=
  ⟨min (idx (eIdx e)).toInt.toNat (N - 1), by omega⟩

theorem clampRow_val {N E w : Nat} (hN : 0 < N) (idx : IVec ⟨2, ![E, 1]⟩ w) (e : Fin E) :
    (clampRow hN idx e).val = min (idx (eIdx e)).toInt.toNat (N - 1) := rfl

/-- A start that is a row number is its own clamp. -/
theorem clampRow_of_eq {N E w : Nat} (hN : 0 < N) (idx : IVec ⟨2, ![E, 1]⟩ w) (e : Fin E) (n : Fin N)
    (h : (idx (eIdx e)).toInt = (n.val : Int)) : clampRow hN idx e = n := by
  apply Fin.ext
  rw [clampRow_val, h, Int.toNat_natCast]
  have := n.isLt
  omega

/-! ## The gathers read at an index -/

section Gather
variable {α : Type}

/-- The row gather's operand index on axis 0: the clamped start. -/
theorem rowGather_idx0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowGatherDims N E C wf).operandIdx y idx 0).val
      = min (idx (eIdx ⟨(y 0).val, idx2_lt0 y⟩)).toInt.toNat (N - 1) := by
  show (rowGatherDims N E C wf).start y idx 0 + (rowGatherDims N E C wf).batchCoord y 0
    + (rowGatherDims N E C wf).offCoord y 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx y ⟨List.idxOf (0 : Fin 2) (rowGatherDims N E C wf).startIndexMap,
      List.idxOf_lt_length_iff.2 (List.mem_singleton.mpr rfl)⟩ = eIdx ⟨(y 0).val, idx2_lt0 y⟩ := by
    funext b; refine Fin.ext ?_
    match b with
    | ⟨0, _⟩ => rfl
    | ⟨1, _⟩ => rfl
  rw [hsi]
  rfl

/-- The row gather's operand index on axis 1: the result's column. -/
theorem rowGather_idx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (y : (⟨2, ![E, C]⟩ : Shape).Idx) :
    ((rowGatherDims N E C wf).operandIdx y idx 1).val = (y 1).val := by
  show (rowGatherDims N E C wf).start y idx 1 + (rowGatherDims N E C wf).batchCoord y 1
    + (rowGatherDims N E C wf).offCoord y 1 = _
  rw [GatherDims.batchCoord_eq_zero _ _ _ List.not_mem_nil]
  have hns : (1 : Fin 2) ∉ (rowGatherDims N E C wf).startIndexMap := fun h =>
    absurd (congrArg Fin.val (List.mem_singleton.mp h)) Nat.one_ne_zero
  unfold GatherDims.start
  rw [dif_neg hns]
  simp only [Nat.add_zero, Nat.zero_add]
  rfl

/-- THE ROW GATHER READ AT `(e, c)`: the table at row `clamp (start e)`, column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowGatherDims N E C wf) x idx y
      = x (ix2 (clampRow hN idx ⟨(y 0).val, idx2_lt0 y⟩) ⟨(y 1).val, idx2_lt1 y⟩) := by
  unfold Host.gather
  congr 1
  funext a
  refine Fin.ext ?_
  match a with
  | ⟨0, _⟩ => exact rowGather_idx0 wf idx y
  | ⟨1, _⟩ => exact rowGather_idx1 wf idx y

/-- THE VECTOR GATHER READ AT `e`: the vector at entry `clamp (start e)`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecGatherDims N E wf) x idx y = x (ix1 (clampRow hN idx ⟨(y 0).val, (y 0).isLt⟩)) := by
  unfold Host.gather
  congr 1
  funext a
  obtain rfl : a = 0 := Subsingleton.elim _ _
  refine Fin.ext ?_
  show (vecGatherDims N E wf).start y idx 0 + (vecGatherDims N E wf).batchCoord y 0
    + (vecGatherDims N E wf).offCoord y 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx y ⟨List.idxOf (0 : Fin 1) (vecGatherDims N E wf).startIndexMap,
      List.idxOf_lt_length_iff.2 (List.mem_singleton.mpr rfl)⟩ = eIdx ⟨(y 0).val, (y 0).isLt⟩ := by
    funext b; refine Fin.ext ?_
    match b with
    | ⟨0, _⟩ => rfl
    | ⟨1, _⟩ => rfl
  rw [hsi]
  rfl

end Gather

/-! ## Where a scatter's update lands -/

section Scatter

/-- The row scatter's start on axis 0: edge `e`'s start, read signed. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 0 = (idx (eIdx ⟨(j 0).val, idx2_lt0 j⟩)).toInt := by
  unfold ScatterDims.start
  rw [dif_pos (show (0 : Fin 2) ∈ (rowScatterDims N E C wf).scatterDimsToOperandDims from
    List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = eIdx ⟨(j 0).val, idx2_lt0 j⟩ := by
    funext b; refine Fin.ext ?_
    match b with
    | ⟨0, _⟩ => rfl
    | ⟨1, _⟩ => rfl
  rw [hsi]

/-- The row scatter's start on axis 1: none. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg (fun h => absurd (congrArg Fin.val (List.mem_singleton.mp h)) Nat.one_ne_zero)]

/-- The row scatter's window coordinate on axis 0 (the inserted axis): none. -/
theorem rowScatter_window0 {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j 0 = 0 := rfl

/-- The row scatter's window coordinate on axis 1: the update's column. -/
theorem rowScatter_window1 {N E C : Nat}
    (wf : ScatterDims.WF ⟨2, ![N, C]⟩ ⟨2, ![E, 1]⟩ ⟨2, ![E, C]⟩ [1] [0] [0] 1)
    (j : (⟨2, ![E, C]⟩ : Shape).Idx) : (rowScatterDims N E C wf).window j 1 = (j 1).val := rfl

/-- WHERE A ROW UPDATE LANDS: update `(e, c)` lands on `(n, c')` exactly when edge `e`'s start, read signed
    and not clamped, is `n`, and `c = c'`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (rowScatterDims N E C wf).resultIdx? j idx = some i
      ↔ (idx (eIdx ⟨(j 0).val, idx2_lt0 j⟩)).toInt = ((i 0).val : Int) ∧ (j 1).val = (i 1).val := by
  unfold ScatterDims.resultIdx?
  constructor
  · intro h
    split at h
    · rename_i hc
      have hi := Option.some.inj h
      have key : ∀ a, ((rowScatterDims N E C wf).start j idx a
          + ((rowScatterDims N E C wf).window j a : Int)).toNat = (i a).val :=
        fun a => congrArg Fin.val (congrFun hi a)
      have h0 := key 0
      have c0 := (hc 0).1
      have h1 := key 1
      rw [rowScatter_start0, rowScatter_window0] at h0 c0
      rw [rowScatter_start1, rowScatter_window1] at h1
      refine ⟨by omega, by omega⟩
    · exact absurd h (by simp)
  · rintro ⟨h0, h1⟩
    have hi0 := idx2_lt0 i
    have hj1 := idx2_lt1 j
    have hc : ∀ a, 0 ≤ (rowScatterDims N E C wf).start j idx a + ((rowScatterDims N E C wf).window j a : Int)
        ∧ (rowScatterDims N E C wf).start j idx a + ((rowScatterDims N E C wf).window j a : Int)
          < (((⟨2, ![N, C]⟩ : Shape).size a : Nat) : Int) := by
      intro a
      match a with
      | ⟨0, _⟩ =>
        show 0 ≤ (rowScatterDims N E C wf).start j idx 0 + ((rowScatterDims N E C wf).window j 0 : Int)
          ∧ (rowScatterDims N E C wf).start j idx 0 + ((rowScatterDims N E C wf).window j 0 : Int) < (N : Int)
        rw [rowScatter_start0, rowScatter_window0, h0]; omega
      | ⟨1, _⟩ =>
        show 0 ≤ (rowScatterDims N E C wf).start j idx 1 + ((rowScatterDims N E C wf).window j 1 : Int)
          ∧ (rowScatterDims N E C wf).start j idx 1 + ((rowScatterDims N E C wf).window j 1 : Int) < (C : Int)
        rw [rowScatter_start1, rowScatter_window1]; omega
    rw [dif_pos hc]
    congr 1
    funext a; refine Fin.ext ?_
    match a with
    | ⟨0, _⟩ =>
      show ((rowScatterDims N E C wf).start j idx 0 + ((rowScatterDims N E C wf).window j 0 : Int)).toNat = (i 0).val
      rw [rowScatter_start0, rowScatter_window0, h0]; omega
    | ⟨1, _⟩ =>
      show ((rowScatterDims N E C wf).start j idx 1 + ((rowScatterDims N E C wf).window j 1 : Int)).toNat = (i 1).val
      rw [rowScatter_start1, rowScatter_window1, ← h1]; omega

/-- The vector scatter's start on its one axis: edge `e`'s start, read signed. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (eIdx ⟨(j 0).val, (j 0).isLt⟩)).toInt := by
  unfold ScatterDims.start
  rw [dif_pos (show (0 : Fin 1) ∈ (vecScatterDims N E wf).scatterDimsToOperandDims from
    List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = eIdx ⟨(j 0).val, (j 0).isLt⟩ := by
    funext b; refine Fin.ext ?_
    match b with
    | ⟨0, _⟩ => rfl
    | ⟨1, _⟩ => rfl
  rw [hsi]
  rfl

/-- The vector scatter's window coordinate (its one axis is inserted): none. -/
theorem vecScatter_window0 {N E : Nat}
    (wf : ScatterDims.WF ⟨1, ![N]⟩ ⟨2, ![E, 1]⟩ ⟨1, ![E]⟩ [] [0] [0] 1)
    (j : (⟨1, ![E]⟩ : Shape).Idx) : (vecScatterDims N E wf).window j 0 = 0 := rfl

/-- WHERE A SCALAR UPDATE LANDS: update `e` lands on entry `n` exactly when edge `e`'s start, read signed and
    not clamped, is `n`. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (vecScatterDims N E wf).resultIdx? j idx = some i
      ↔ (idx (eIdx ⟨(j 0).val, (j 0).isLt⟩)).toInt = ((i 0).val : Int) := by
  unfold ScatterDims.resultIdx?
  constructor
  · intro h
    split at h
    · rename_i hc
      have hi := Option.some.inj h
      have h0 : ((vecScatterDims N E wf).start j idx 0
          + ((vecScatterDims N E wf).window j 0 : Int)).toNat = (i 0).val :=
        congrArg Fin.val (congrFun hi 0)
      have c0 := (hc 0).1
      rw [vecScatter_start0, vecScatter_window0] at h0 c0
      omega
    · exact absurd h (by simp)
  · intro h0
    have hi0 : (i 0).val < N := (i 0).isLt
    have hc : ∀ a, 0 ≤ (vecScatterDims N E wf).start j idx a + ((vecScatterDims N E wf).window j a : Int)
        ∧ (vecScatterDims N E wf).start j idx a + ((vecScatterDims N E wf).window j a : Int)
          < (((⟨1, ![N]⟩ : Shape).size a : Nat) : Int) := by
      intro a
      obtain rfl : a = 0 := Subsingleton.elim _ _
      show 0 ≤ (vecScatterDims N E wf).start j idx 0 + ((vecScatterDims N E wf).window j 0 : Int)
        ∧ (vecScatterDims N E wf).start j idx 0 + ((vecScatterDims N E wf).window j 0 : Int) < (N : Int)
      rw [vecScatter_start0, vecScatter_window0, h0]; omega
    rw [dif_pos hc]
    congr 1
    funext a; refine Fin.ext ?_
    obtain rfl : a = 0 := Subsingleton.elim _ _
    show ((vecScatterDims N E wf).start j idx 0 + ((vecScatterDims N E wf).window j 0 : Int)).toNat = (i 0).val
    rw [vecScatter_start0, vecScatter_window0, h0]; omega

end Scatter

/-! ## A nonnegative real factor through a finite sum -/

/-- A nonnegative real factor distributes over every finite sum of extended reals, whatever its terms. -/
theorem sum_mul_coe {ι : Type*} (s : Finset ι) (f : ι → EReal) (r : ℝ) (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-! ## The law -/

/-- THE LAW. With every factor `dinv n` a nonnegative real: aggregating (at the destinations `dst`) the rows of
    the pre-scaled table `L · dinv` read at the sources `src`, and scaling row `n` of the result by `dinv n`, is
    aggregating the rows of `L` read at the sources, each scaled by the product of its two endpoint factors. -/
theorem agg_law {N E C w v : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (L : (⟨2, ![N, C]⟩ : Shape).Idx → EReal) (dinv : (⟨1, ![N]⟩ : Shape).Idx → EReal)
    (hd : ∀ n, ∃ r : ℝ, 0 ≤ r ∧ dinv n = (r : EReal))
    (src : IVec ⟨2, ![E, 1]⟩ w) (dst : IVec ⟨2, ![E, 1]⟩ v) (i : (⟨2, ![N, C]⟩ : Shape).Idx) :
    (Ideal.hostScatterAdd (rowScatterDims N E C wfS) (fun _ => (0 : EReal)) dst
        (Host.gather (rowGatherDims N E C wfG) (fun p => L p * dinv (ix1 ⟨(p 0).val, idx2_lt0 p⟩)) src)) i
      * dinv (ix1 ⟨(i 0).val, idx2_lt0 i⟩)
    = Ideal.hostScatterAdd (rowScatterDims N E C wfS) (fun _ => (0 : EReal)) dst
        (fun j => Host.gather (rowGatherDims N E C wfG) L src j
          * (Host.gather (vecGatherDims N E wfg) dinv src (ix1 ⟨(j 0).val, idx2_lt0 j⟩)
            * Host.gather (vecGatherDims N E wfg) dinv dst (ix1 ⟨(j 0).val, idx2_lt0 j⟩))) i := by
  obtain ⟨r, hr, hdr⟩ := hd (ix1 ⟨(i 0).val, idx2_lt0 i⟩)
  unfold Ideal.hostScatterAdd
  rw [zero_add, zero_add, hdr, sum_mul_coe _ _ r hr]
  refine Finset.sum_congr rfl (fun j hj => ?_)
  have hland := (rowScatter_resultIdx wfS dst j i).mp (Finset.mem_filter.mp hj).2
  have e1 : clampRow hN dst ⟨(j 0).val, idx2_lt0 j⟩ = ⟨(i 0).val, idx2_lt0 i⟩ :=
    clampRow_of_eq hN dst _ _ hland.1
  beta_reduce
  rw [rowGather_apply hN wfG, rowGather_apply hN wfG, vecGather_apply hN wfg, vecGather_apply hN wfg]
  show L (ix2 (clampRow hN src ⟨(j 0).val, idx2_lt0 j⟩) ⟨(j 1).val, idx2_lt1 j⟩)
        * dinv (ix1 (clampRow hN src ⟨(j 0).val, idx2_lt0 j⟩)) * (r : EReal)
      = L (ix2 (clampRow hN src ⟨(j 0).val, idx2_lt0 j⟩) ⟨(j 1).val, idx2_lt1 j⟩)
        * (dinv (ix1 (clampRow hN src ⟨(j 0).val, idx2_lt0 j⟩))
          * dinv (ix1 (clampRow hN dst ⟨(j 0).val, idx2_lt0 j⟩)))
  rw [e1, hdr, mul_assoc]

/-! ## The degree count -/

/-- Scatter-adding ones into zeros counts: entry `n` is the number of edges whose start, read signed, is `n`. -/
theorem degree_eq_card {N E w : Nat}
    (wf : ScatterDims.WF ⟨1, ![N]⟩ ⟨2, ![E, 1]⟩ ⟨1, ![E]⟩ [] [0] [0] 1)
    (idx : IVec ⟨2, ![E, 1]⟩ w) (n : (⟨1, ![N]⟩ : Shape).Idx) :
    Ideal.hostScatterAdd (vecScatterDims N E wf) (fun _ => (0 : EReal)) idx (fun _ => (1 : EReal)) n
      = (((Finset.univ.filter (fun j : (⟨1, ![E]⟩ : Shape).Idx =>
          (idx (eIdx ⟨(j 0).val, (j 0).isLt⟩)).toInt = ((n 0).val : Int))).card : ℝ) : EReal) := by
  unfold Ideal.hostScatterAdd
  rw [zero_add, Finset.sum_const, nsmul_one, EReal.coe_coe_eq_natCast]
  congr 2
  exact Finset.filter_congr (fun j _ => vecScatter_resultIdx wf idx j n)

/-- … so it is a natural number, a nonnegative real. -/
theorem degree_real {N E w : Nat}
    (wf : ScatterDims.WF ⟨1, ![N]⟩ ⟨2, ![E, 1]⟩ ⟨1, ![E]⟩ [] [0] [0] 1)
    (idx : IVec ⟨2, ![E, 1]⟩ w) (n : (⟨1, ![N]⟩ : Shape).Idx) :
    ∃ k : ℕ, Ideal.hostScatterAdd (vecScatterDims N E wf) (fun _ => (0 : EReal)) idx (fun _ => (1 : EReal)) n
      = ((k : ℝ) : EReal) :=
  ⟨_, degree_eq_card wf idx n⟩

/-! ## The host's accumulating scatter at the ideal instance -/

/-- At the ideal instance the host's accumulating float scatter IS the exact sum (definitional). -/
theorem scatterAdd_ideal {s si u : Shape} {φ : FTy} {w : Nat} (d : ScatterDims s si u) (x : FVec Ideal s φ)
    (idx : IVec si w) (upd : FVec Ideal u φ) :
    Host.scatterAdd (F := Ideal) d x idx upd = Ideal.hostScatterAdd d x idx upd := rfl

end SegNorm

end
-- ==== Proof.RefVal.lean ====
/-
  The reference program's result, read entry by entry over the extended reals, is the model.

  The reference is a chain of host operations, read here one stage at a time. The normalised node features and the two
  neighbour aggregates are the shared chains. A layer's output at node r, feature q, is the contraction of the
  aggregate's row r with a column of the relation weights, plus the bias, plus the contraction of the node's own row
  with a column of the root weights; the model adds the bias after both contractions, and addition of extended reals
  is commutative and associative. Layers 1 and 2 then take the maximum with zero. The pooled row of graph g is a
  scatter-add of the node rows by the graph ids into zeros: the sum over the nodes whose id, read signed, is g. The
  node count of g is the scatter-add of ones by the same ids: a sum of ones over the same nodes. Their quotient, the
  count first raised to at least one, goes through the last linear layer.
-/
import proofs.«431281_j6751688589931_2_alg».proof.Proof.RefGen
import proofs.«431281_j6751688589931_2_alg».proof.Proof.Model
import proofs.«431281_j6751688589931_2_alg».proof.Proof.LibScatter
import proofs.«431281_j6751688589931_2_alg».proof.Proof.LibSegNorm
import Idealize.ShloMosaic.Lib.IdealHost
import Idealize.ShloMosaic.Lib.ValueIdx
import Idealize.ShloMosaic.PureOps.Ideal.Laws

noncomputable section

open scoped BigOperators

namespace Cert.RefSide

open Idealize.ShloMosaic Idealize.ShloMosaic.ValueIdx Idealize.ShloMosaic.TcCoe Idealize.SL.Sem Cert.ReferenceIdeal Cert.ReferenceIdeal.Read Cert.Spec Cert.Model

/-! ## A scatter-add into a vector, read at an index -/

/-- A scatter-add into a length-N vector by a column of R index words, read at p: the operand there plus the sum of
    the updates of the rows whose word, read signed, is p (a row whose word is no position of the vector is dropped). -/
theorem scatterAdd_vec_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (p : Fin N) :
    Ideal.hostScatterAdd (SegNorm.vecScatterDims N R wf) x idx upd (ix1 p)
      = x (ix1 p) + ∑ r ∈ Finset.univ.filter (fun r : Fin R => (idx (SegNorm.eIdx r)).toInt = (p.val : ℤ)), upd (ix1 r) := by
  unfold Ideal.hostScatterAdd
  congr 1
  symm
  -- the updates landing on p are exactly those of the rows whose word is p
  refine Finset.sum_bij (fun r _ => ix1 r) ?_ ?_ ?_ ?_
  · intro r hr
    rw [Finset.mem_filter] at hr ⊢
    exact ⟨Finset.mem_univ _, (SegNorm.vecScatter_resultIdx wf idx (ix1 r) (ix1 p)).mpr hr.2⟩
  · intro r₁ _ r₂ _ h
    exact congrFun h 0
  · intro j hj
    obtain ⟨a, rfl⟩ : ∃ a : Fin R, j = ix1 a := ⟨j 0, eq_ix1 j⟩
    rw [Finset.mem_filter] at hj
    refine ⟨a, ?_, rfl⟩
    rw [Finset.mem_filter]
    exact ⟨Finset.mem_univ _, (SegNorm.vecScatter_resultIdx wf idx (ix1 a) (ix1 p)).mp hj.2⟩
  · intro r _; rfl

/-! ## Coordinates: where each stage reads its operands, at an index given by its row and column -/

private theorem l_v27 (r : Fin 80000) (q : Fin 64) (k : Fin 4) : lidx_main_v27 (ix2 r q) k = ix2 r k :=
  funext fun a => match a with | ⟨0, _⟩ => rfl | ⟨1, _⟩ => rfl
private theorem r_v27 (r : Fin 80000) (q : Fin 64) (k : Fin 4) : ridx_main_v27 (ix2 r q) k = ix2 k q :=
  funext fun a => match a with | ⟨0, _⟩ => rfl | ⟨1, _⟩ => rfl
private theorem l_v31 (r : Fin 80000) (q : Fin 64) (k : Fin 4) : lidx_main_v31 (ix2 r q) k = ix2 r k :=
  funext fun a => match a with | ⟨0, _⟩ => rfl | ⟨1, _⟩ => rfl
private theorem r_v31 (r : Fin 80000) (q : Fin 64) (k : Fin 4) : ridx_main_v31 (ix2 r q) k = ix2 k q :=
  funext fun a => match a with | ⟨0, _⟩ => rfl | ⟨1, _⟩ => rfl
private theorem l_v44 (r : Fin 80000) (q : Fin 64) (k : Fin 64) : lidx_main_v44 (ix2 r q) k = ix2 r k :=
  funext fun a => match a with | ⟨0, _⟩ => rfl | ⟨1, _⟩ => rfl
private theorem r_v44 (r : Fin 80000) (q : Fin 64) (k : Fin 64) : ridx_main_v44 (ix2 r q) k = ix2 k q :=
  funext fun a => match a with | ⟨0, _⟩ => rfl | ⟨1, _⟩ => rfl
private theorem l_v48 (r : Fin 80000) (q : Fin 64) (k : Fin 64) : lidx_main_v48 (ix2 r q) k = ix2 r k :=
  funext fun a => match a with | ⟨0, _⟩ => rfl | ⟨1, _⟩ => rfl
private theorem r_v48 (r : Fin 80000) (q : Fin 64) (k : Fin 64) : ridx_main_v48 (ix2 r q) k = ix2 k q :=
  funext fun a => match a with | ⟨0, _⟩ => rfl | ⟨1, _⟩ => rfl
private theorem l_v61 (r : Fin 80000) (q : Fin 64) (k : Fin 64) : lidx_main_v61 (ix2 r q) k = ix2 r k :=
  funext fun a => match a with | ⟨0, _⟩ => rfl | ⟨1, _⟩ => rfl
private theorem r_v61 (r : Fin 80000) (q : Fin 64) (k : Fin 64) : ridx_main_v61 (ix2 r q) k = ix2 k q :=
  funext fun a => match a with | ⟨0, _⟩ => rfl | ⟨1, _⟩ => rfl
private theorem l_v65 (r : Fin 80000) (q : Fin 64) (k : Fin 64) : lidx_main_v65 (ix2 r q) k = ix2 r k :=
  funext fun a => match a with | ⟨0, _⟩ => rfl | ⟨1, _⟩ => rfl
private theorem r_v65 (r : Fin 80000) (q : Fin 64) (k : Fin 64) : ridx_main_v65 (ix2 r q) k = ix2 k q :=
  funext fun a => match a with | ⟨0, _⟩ => rfl | ⟨1, _⟩ => rfl
private theorem l_v79 (g : Fin 64) (j : Fin 2) (k : Fin 64) : lidx_main_v79 (ix2 g j) k = ix2 g k :=
  funext fun a => match a with | ⟨0, _⟩ => rfl | ⟨1, _⟩ => rfl
private theorem r_v79 (g : Fin 64) (j : Fin 2) (k : Fin 64) : ridx_main_v79 (ix2 g j) k = ix2 k j :=
  funext fun a => match a with | ⟨0, _⟩ => rfl | ⟨1, _⟩ => rfl
private theorem b_v29 (r : Fin 80000) (q : Fin 64) : idx_main_v28 (idx_main_v29 (ix2 r q)) = ix1 q :=
  funext fun a => match a with | ⟨0, _⟩ => rfl
private theorem b_v46 (r : Fin 80000) (q : Fin 64) : idx_main_v45 (idx_main_v46 (ix2 r q)) = ix1 q :=
  funext fun a => match a with | ⟨0, _⟩ => rfl
private theorem b_v63 (r : Fin 80000) (q : Fin 64) : idx_main_v62 (idx_main_v63 (ix2 r q)) = ix1 q :=
  funext fun a => match a with | ⟨0, _⟩ => rfl
private theorem b_v81 (g : Fin 64) (j : Fin 2) : idx_main_v80 (idx_main_v81 (ix2 g j)) = ix1 j :=
  funext fun a => match a with | ⟨0, _⟩ => rfl
private theorem b_v77 (g k : Fin 64) : idx_main_v76 (idx_main_v77 (ix2 g k)) = ix1 g :=
  funext fun a => match a with | ⟨0, _⟩ => rfl
private theorem i_v68 (n : Fin 80000) : idx_main_v68 (ix2 n (⟨0, Nat.one_pos⟩ : Fin 1)) = ix1 n :=
  funext fun a => match a with | ⟨0, _⟩ => rfl
private theorem i_v72 (n : Fin 80000) : idx_main_v72 (SegNorm.eIdx n) = ix1 n :=
  funext fun a => match a with | ⟨0, _⟩ => rfl

variable [Cert.ReferenceIdeal.Facts]

variable (x0 : (⟨S80000x4, .f32⟩ : BufTy).Contents (Elt Ideal)) (x1 : (⟨S2x1280000, .i32⟩ : BufTy).Contents (Elt Ideal)) (x2 : (⟨S80000, .i32⟩ : BufTy).Contents (Elt Ideal))
  (x3 x4 x5 x6 : (⟨S4, .f32⟩ : BufTy).Contents (Elt Ideal)) (x7 : (⟨S4x64, .f32⟩ : BufTy).Contents (Elt Ideal)) (x8 : (⟨S64, .f32⟩ : BufTy).Contents (Elt Ideal)) (x9 : (⟨S4x64, .f32⟩ : BufTy).Contents (Elt Ideal))
  (x10 : (⟨S64x64, .f32⟩ : BufTy).Contents (Elt Ideal)) (x11 : (⟨S64, .f32⟩ : BufTy).Contents (Elt Ideal)) (x12 x13 : (⟨S64x64, .f32⟩ : BufTy).Contents (Elt Ideal)) (x14 : (⟨S64, .f32⟩ : BufTy).Contents (Elt Ideal))
  (x15 : (⟨S64x64, .f32⟩ : BufTy).Contents (Elt Ideal)) (x16 : (⟨S64x2, .f32⟩ : BufTy).Contents (Elt Ideal)) (x17 : (⟨S2, .f32⟩ : BufTy).Contents (Elt Ideal))

/-! ## The shared chains inside the reference -/

/-- The normalised node features. -/
theorem v16_eq : val_main_v16 (F := Ideal) x0 x3 x4 x5 x6 = Chain.bn x0 x3 x4 x5 x6 := rfl
/-- The neighbours' aggregate of the normalised features. -/
theorem v26_eq : val_main_v26 (F := Ideal) x0 x1 x3 x4 x5 x6 = Chain.agg4 (val_main_v16 (F := Ideal) x0 x3 x4 x5 x6) x1 := rfl
/-- The neighbours' aggregate of layer 1's output. -/
theorem v43_eq : val_main_v43 (F := Ideal) x0 x1 x3 x4 x5 x6 x7 x8 x9 = Chain.agg64 (val_main_v33 (F := Ideal) x0 x1 x3 x4 x5 x6 x7 x8 x9) x1 := rfl
/-- The neighbours' aggregate of layer 2's output. -/
theorem v60_eq : val_main_v60 (F := Ideal) x0 x1 x3 x4 x5 x6 x7 x8 x9 x10 x11 x12 = Chain.agg64 (val_main_v50 (F := Ideal) x0 x1 x3 x4 x5 x6 x7 x8 x9 x10 x11 x12) x1 := rfl

/-! ## The three layers, at node r and feature q -/

theorem layer1_apply (r : Fin 80000) (q : Fin 64) :
    (val_main_v33 (F := Ideal) x0 x1 x3 x4 x5 x6 x7 x8 x9) (ix2 r q)
      = convRelu 4 (toFn (val_main_v26 (F := Ideal) x0 x1 x3 x4 x5 x6)) (toFn (val_main_v16 (F := Ideal) x0 x3 x4 x5 x6)) (toFn x7) (vecFn x8) (toFn x9) r q := by
  rw [val_main_v33_apply, val_main_v32_apply, val_main_v30_apply, val_main_v27_apply, val_main_v31_apply,
    val_main_v29_apply, val_main_v28_apply, val_main_call0_v0_apply, val_main_call0_cst_apply]
  simp only [l_v27, r_v27, l_v31, r_v31, b_v29, Ideal.addf_def, Ideal.maximumf_def, Ideal.ofBits_def, Ideal.ofBits_zero_f32,
    convRelu, convAt, toFn, vecFn]
  rw [add_right_comm]

theorem layer2_apply (r : Fin 80000) (q : Fin 64) :
    (val_main_v50 (F := Ideal) x0 x1 x3 x4 x5 x6 x7 x8 x9 x10 x11 x12) (ix2 r q)
      = convRelu 64 (toFn (val_main_v43 (F := Ideal) x0 x1 x3 x4 x5 x6 x7 x8 x9)) (toFn (val_main_v33 (F := Ideal) x0 x1 x3 x4 x5 x6 x7 x8 x9)) (toFn x10) (vecFn x11) (toFn x12) r q := by
  rw [val_main_v50_apply, val_main_v49_apply, val_main_v47_apply, val_main_v44_apply, val_main_v48_apply,
    val_main_v46_apply, val_main_v45_apply, val_main_call1_v0_apply, val_main_call1_cst_apply]
  simp only [l_v44, r_v44, l_v48, r_v48, b_v46, Ideal.addf_def, Ideal.maximumf_def, Ideal.ofBits_def, Ideal.ofBits_zero_f32,
    convRelu, convAt, toFn, vecFn]
  rw [add_right_comm]

theorem layer3_apply (r : Fin 80000) (q : Fin 64) :
    (val_main_v66 (F := Ideal) x0 x1 x3 x4 x5 x6 x7 x8 x9 x10 x11 x12 x13 x14 x15) (ix2 r q)
      = convAt 64 (toFn (val_main_v60 (F := Ideal) x0 x1 x3 x4 x5 x6 x7 x8 x9 x10 x11 x12)) (toFn (val_main_v50 (F := Ideal) x0 x1 x3 x4 x5 x6 x7 x8 x9 x10 x11 x12)) (toFn x13) (vecFn x14) (toFn x15) r q := by
  rw [val_main_v66_apply, val_main_v64_apply, val_main_v61_apply, val_main_v65_apply,
    val_main_v63_apply, val_main_v62_apply]
  simp only [l_v61, r_v61, l_v65, r_v65, b_v63, Ideal.addf_def, convAt, toFn, vecFn]
  rw [add_right_comm]

/-! ## The layers' outputs as the model's arrays -/

theorem h1_eq : val_main_v33 (F := Ideal) x0 x1 x3 x4 x5 x6 x7 x8 x9 = Model.h1 x0 x1 x3 x4 x5 x6 x7 x8 x9 := by
  funext i
  obtain ⟨r, q, rfl⟩ : ∃ (r : Fin 80000) (q : Fin 64), i = ix2 r q := ⟨i 0, i 1, eq_ix2 i⟩
  rw [layer1_apply, v26_eq, v16_eq]
  rfl

theorem h2_eq : val_main_v50 (F := Ideal) x0 x1 x3 x4 x5 x6 x7 x8 x9 x10 x11 x12 = Model.hNext (Model.h1 x0 x1 x3 x4 x5 x6 x7 x8 x9) x1 x10 x11 x12 := by
  funext i
  obtain ⟨r, q, rfl⟩ : ∃ (r : Fin 80000) (q : Fin 64), i = ix2 r q := ⟨i 0, i 1, eq_ix2 i⟩
  rw [layer2_apply, v43_eq, h1_eq]
  rfl

theorem h3_eq : toFn (val_main_v66 (F := Ideal) x0 x1 x3 x4 x5 x6 x7 x8 x9 x10 x11 x12 x13 x14 x15)
    = convAt 64 (toFn (Chain.agg64 (Model.hNext (Model.h1 x0 x1 x3 x4 x5 x6 x7 x8 x9) x1 x10 x11 x12) x1))
        (toFn (Model.hNext (Model.h1 x0 x1 x3 x4 x5 x6 x7 x8 x9) x1 x10 x11 x12)) (toFn x13) (vecFn x14) (toFn x15) := by
  funext r q
  rw [toFn_apply, layer3_apply, v60_eq, h2_eq]

/-! ## The mean pool and the last linear layer -/

/-- The pooled sum of graph g at feature k: the node rows of layer 3 summed over the nodes whose id is g. -/
theorem pool_sum_apply (g k : Fin 64) :
    (val_main_v69 (F := Ideal) x0 x1 x2 x3 x4 x5 x6 x7 x8 x9 x10 x11 x12 x13 x14 x15) (ix2 g k) = poolSum (toFn (val_main_v66 (F := Ideal) x0 x1 x3 x4 x5 x6 x7 x8 x9 x10 x11 x12 x13 x14 x15)) (vecFn x2) g k := by
  unfold val_main_v69
  generalize val_main_v66 (F := Ideal) x0 x1 x3 x4 x5 x6 x7 x8 x9 x10 x11 x12 x13 x14 x15 = Y
  rw [SegNorm.scatterAdd_ideal]
  refine (Cert.LibScatter.scatterAdd_row_apply Cert.ReferenceIdeal.Gen.scatter_S64x64_S80000x1_S80000x64_1_0_0_1_wf _ _ _ g k).trans ?_
  rw [val_main_v67_apply, val_main_cst_8_apply, Ideal.ofBits_def, Ideal.ofBits_zero_f32, zero_add]
  unfold poolSum
  refine Finset.sum_congr (Finset.filter_congr fun n _ => ?_) fun n _ => rfl
  rw [val_main_v68_apply, i_v68]
  exact Iff.rfl

/-- The node count of graph g: ones summed over the nodes whose id is g. -/
theorem pool_cnt_apply (g : Fin 64) : (val_main_v73 (F := Ideal) x2) (ix1 g) = poolCnt (vecFn x2) g := by
  unfold val_main_v73
  rw [SegNorm.scatterAdd_ideal]
  refine (scatterAdd_vec_apply Cert.ReferenceIdeal.Gen.scatter_S64_S80000x1_S80000_n_0_0_1_wf _ _ _ g).trans ?_
  rw [val_main_v71_apply, val_main_cst_10_apply, Ideal.ofBits_def, Ideal.ofBits_zero_f32, zero_add]
  unfold poolCnt
  refine Finset.sum_congr (Finset.filter_congr fun n _ => ?_) fun n _ => ?_
  · rw [val_main_v72_apply, i_v72]
    exact Iff.rfl
  · rw [val_main_v70_apply, val_main_cst_9_apply, Ideal.ofBits_def, Ideal.ofBits_one_f32]

/-- The mean row of graph g at feature k. -/
theorem mean_apply (g k : Fin 64) :
    (val_main_v78 (F := Ideal) x0 x1 x2 x3 x4 x5 x6 x7 x8 x9 x10 x11 x12 x13 x14 x15) (ix2 g k)
      = Ideal.div (poolSum (toFn (val_main_v66 (F := Ideal) x0 x1 x3 x4 x5 x6 x7 x8 x9 x10 x11 x12 x13 x14 x15)) (vecFn x2) g k) (max (poolCnt (vecFn x2) g) 1) := by
  rw [val_main_v78_apply, Ideal.hostDivf_def, pool_sum_apply, val_main_v77_apply, val_main_v76_apply, b_v77,
    val_main_v75_apply, Ideal.maximumf_def, pool_cnt_apply, val_main_v74_apply, val_main_cst_11_apply, Ideal.ofBits_def,
    Ideal.ofBits_one_f32]

/-- The result at graph g, class j, from layer 3's output. -/
theorem head_apply (g : Fin 64) (j : Fin 2) :
    (val_main_v82 (F := Ideal) x0 x1 x2 x3 x4 x5 x6 x7 x8 x9 x10 x11 x12 x13 x14 x15 x16 x17) (ix2 g j)
      = headAt (toFn (val_main_v66 (F := Ideal) x0 x1 x3 x4 x5 x6 x7 x8 x9 x10 x11 x12 x13 x14 x15)) (vecFn x2) (toFn x16) (vecFn x17) g j := by
  rw [val_main_v82_apply, val_main_v79_apply, val_main_v81_apply, val_main_v80_apply]
  simp only [l_v79, r_v79, b_v81, mean_apply, Ideal.addf_def, headAt, toFn, vecFn]

/-! ## The reference's result is the model -/

/-- The reference program's result at graph g, class j, is the model of the argument arrays. -/
theorem ref_result (m : (ℓ : Loc Cert.ReferenceIdeal.nD Cert.ReferenceIdeal.τ Cert.ReferenceIdeal.sig) → Buf (Elt Ideal) ℓ)
    (c : Dev Cert.ReferenceIdeal.nD) (g : Fin 64) (j : Fin 2) :
    Cert.ReferenceIdeal.Value.res_main_v82 (F := Ideal) m c (ValueIdx.ix2 g j)
      = Cert.Model.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) g j := by
  rw [val_main_v82_eq, head_apply, h3_eq]
  rfl

end Cert.RefSide

end
-- ==== Proof.lean ====
/-
  The certificate. The kernel's program — batch normalisation and three neighbour aggregations on the host, two
  graph-convolution layers and a third fused with the mean pool over graphs and the final linear layer as three kernel
  regions — and the reference compute one function of the argument arrays over the extended reals: entry by entry both
  results are the model's (Proof/Model.lean), the kernel's by the regions' values chained through the host stretches
  (Proof/KI/KVal.lean), the reference's by its run read one operation at a time (Proof/RefVal.lean). No law is needed
  beyond the commutativity and associativity of addition and 0 · x = 0, 1 · x = x, so the inputs' finiteness is not used.
  The frames: each kernel program runs as three host stretches and three regions, every argument written by none of them
  (Proof/K/Run.lean at the word-level instance, Proof/KI/Run.lean at the ideal one); the reference's frame is its run with
  the result dropped. The idealization rewrote nothing, so what it preserves is trivially true.
-/
import proofs.«431281_j6751688589931_2_alg».proof.Defs
import proofs.«431281_j6751688589931_2_alg».proof.Proof.Gen.Kernel
import proofs.«431281_j6751688589931_2_alg».proof.Proof.Gen.KernelIdeal
import proofs.«431281_j6751688589931_2_alg».proof.Proof.Gen.ReferenceIdeal
import proofs.«431281_j6751688589931_2_alg».proof.Proof.Gen.Pre_finite_inputs
import proofs.«431281_j6751688589931_2_alg».proof.Proof.K.Run
import proofs.«431281_j6751688589931_2_alg».proof.Proof.KI.Run
import proofs.«431281_j6751688589931_2_alg».proof.Proof.KI.KVal
import proofs.«431281_j6751688589931_2_alg».proof.Proof.RefVal
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the model's result. -/
theorem algebraic : Cert.algebraic_KernelIdeal_ReferenceIdeal := by
  intro m g m' g' _ hagree
  refine ⟨fun c => Cert.KernelIdeal.Hand.U6 m c Cert.KernelIdeal.main_v60, Cert.KernelIdeal.Hand.run_result m g, ?_⟩
  refine (θ_run Cert.ReferenceIdeal.defs _ _).mono (fun r h c => ⟨(h c).1.trans ?_, (h c).2⟩)
    (Cert.ReferenceIdeal.Value.run (F := Ideal) m' g')
  funext i
  obtain ⟨p, j, rfl⟩ : ∃ (p : Fin 64) (j : Fin 2), i = ix2 p j := ⟨i 0, i 1, eq_ix2 i⟩
  have hK := Cert.KernelIdeal.Hand.K_out m c p j
  have hR := Cert.RefSide.ref_result m' c p j
  obtain ⟨a0, a1, a2, a3, a4, a5, a6, a7, a8, a9, a10, a11, a12, a13, a14, a15, a16, a17⟩ := hagree c
  rw [a0, a1, a2, a3, a4, a5, a6, a7, a8, a9, a10, a11, a12, a13, a14, a15, a16, a17] at hR
  exact hR.trans hK.symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
